-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S2x4096x512 : Shape := ⟨3, ![2, 4096, 512]⟩
abbrev S4096x1 : Shape := ⟨2, ![4096, 1]⟩
abbrev S1024x512 : Shape := ⟨2, ![1024, 512]⟩
abbrev S2x1024x512 : Shape := ⟨3, ![2, 1024, 512]⟩
abbrev S1024x1 : Shape := ⟨2, ![1024, 1]⟩
abbrev S1024 : Shape := ⟨1, ![1024]⟩
abbrev S1x1024x512 : Shape := ⟨3, ![1, 1024, 512]⟩
abbrev S8192x512 : Shape := ⟨2, ![8192, 512]⟩
abbrev S4096 : Shape := ⟨1, ![4096]⟩
abbrev S8192 : Shape := ⟨1, ![8192]⟩
abbrev S8192x1 : Shape := ⟨2, ![8192, 1]⟩
abbrev S2048x512 : Shape := ⟨2, ![2048, 512]⟩
abbrev S2048x1 : Shape := ⟨2, ![2048, 1]⟩
abbrev S512x1024 : Shape := ⟨2, ![512, 1024]⟩
abbrev S2048x1024 : Shape := ⟨2, ![2048, 1024]⟩
abbrev S1x1024 : Shape := ⟨2, ![1, 1024]⟩
abbrev S2048 : Shape := ⟨1, ![2048]⟩
abbrev S_ : Shape := ⟨0, ![]⟩

abbrev nBuf : Space → Nat
  | .hbm => 13
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S2x4096x512, .bf16⟩
  | .hbm, ⟨3, _⟩ => ⟨S4096x1, .f32⟩
  | .hbm, ⟨4, _⟩ => ⟨S8192x512, .bf16⟩
  | .hbm, ⟨5, _⟩ => ⟨S4096, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S2x1024x512, .bf16⟩
  | .local _ .vmem, ⟨5, _⟩ => ⟨S2x1024x512, .bf16⟩
  | .local _ .vmem, ⟨6, _⟩ => ⟨S1024x1, .f32⟩
  | .local _ .vmem, ⟨7, _⟩ => ⟨S1024x1, .f32⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond4 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S2x1024x512_S1x1024x512_0_0_0 : (Rect.unit (s := S2x1024x512) ![0, 0, 0] S1x1024x512.size inb_S2x1024x512_S1x1024x512_0_0_0).PackedRows (EltTy.packing .bf16)
  inb_S2x1024x512_S1x1024x512_1_0_0 : ∀ a, (![1, 0, 0] : Fin 3 → Nat) a + S1x1024x512.size a ≤ S2x1024x512.size a
  packedbf16_S2x1024x512_S1x1024x512_1_0_0 : (Rect.unit (s := S2x1024x512) ![1, 0, 0] S1x1024x512.size inb_S2x1024x512_S1x1024x512_1_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S2x4096x512_S8192x512 : S2x4096x512.ShapeCasts S8192x512
  shapeCasts_S4096x1_S4096 : S4096x1.ShapeCasts S4096
  concatenates_S4096_S4096_S8192_d0 : Shape.Concatenates [S4096, S4096] S8192 0
  shapeCasts_S8192_S8192x1 : S8192.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x512_S1024x512 : S1024x512.ShapeCasts S1024x512
  transposes_S1024x512_p1_0_S512x1024 : S1024x512.Transposes [1, 0] S512x1024
  iota_S2048x1_d0_w32 : S2048x1.Iotas .tc 32 [0]
  iota_S1x1024_d1_w32 : S1x1024.Iotas .tc 32 [1]
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  reducesTo_S8192x1_S_d0_1 : S8192x1.ReducesTo [0, 1] S_
  h_S_ : 0 < S_.numel
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S2x4096x512.size a
  hwx0_2 : ∀ i : grid0.Coords, EltTy.bits .bf16 = 32 ∨ (Rect.block (s := S2x4096x512) S2x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S512x8192 : Shape := ⟨2, ![512, 8192]⟩
abbrev S8192x8192 : Shape := ⟨2, ![8192, 8192]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  transposes_S8192x512_S512x8192_1_0 : S8192x512.Transposes [1, 0] S512x8192
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.R0.lean ====
/-
  Region 0 (the normalisation kernel, grid of 4 points, point t = row block t of 1024 rows), at the buffer contents V the
  region is entered from.  The body loads its two input blocks whole, stores the two normalised blocks into the two
  leading slices of its first output buffer and the row-wise inner products into its second, and reads nothing it
  wrote: one control case, every output buffer covered by the point's own stores.
-/
import proofs.«405127_j71124658422130_3_alg».proof.Proof.Gen.Kernel.Launch
import proofs.«405127_j71124658422130_3_alg».proof.Proof.Gen.Kernel.Skeleton
import proofs.«405127_j71124658422130_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two slices of the first output buffer: slice 0 takes the first input's normalised block, slice 1 the second's. -/
abbrev rA0 : Rect S2x1024x512 := Rect.unit (s := S2x1024x512) ![0, 0, 0] S1x1024x512.size inb_S2x1024x512_S1x1024x512_0_0_0
abbrev rB0 : Rect S2x1024x512 := Rect.unit (s := S2x1024x512) ![1, 0, 0] S1x1024x512.size inb_S2x1024x512_S1x1024x512_1_0_0
abbrev rC0 : Rect S1024x1 := Rect.unit (s := S1024x1) ![0, 0] S1024x1.size inb_S1024x1_S1024x1_0_0

/-- What the body leaves in the first output's buffer, from the two input blocks: its two stores, last first. -/
def out0_2 (x0 x1 : Vec F S1024x512 .f32) : Vec F S2x1024x512 .bf16 :=
  View.canon [⟨rB0, k0_pay4 x1⟩, ⟨rA0, k0_pay3 x0⟩]
/-- What it leaves in the second output's buffer: its one store. -/
def out0_3 (x0 x1 : Vec F S1024x512 .f32) : Vec F S1024x1 .f32 :=
  View.canon [⟨rC0, k0_pay5 x0 x1⟩]

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-! ## The inputs' blocks in their staging buffers -/

/-- The first input's current buffer holds its block at every point, whether fetched there or carried over: the
    window is uncut and has no idle point, and the body leaves the block where it found it. -/
private theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := by
    intro t; rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The second input's, likewise. -/
private theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := by
    intro t; rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

private theorem before0_0 (c : Dev nD) (t : Fin cfg0.N) (d) : (dat0 V c).before 0 t d = iblk0 V c 0 t :=
  before0_0_of V (dat0 V c) (A_eq0 V c 0) (after0_0 V c) t d
private theorem before0_1 (c : Dev nD) (t : Fin cfg0.N) (d) : (dat0 V c).before 1 t d = iblk0 V c 1 t :=
  before0_1_of V (dat0 V c) (A_eq0 V c 1) (after0_1 V c) t d

/-! ## The stores cover their buffers -/

/-- The two slices tile the first output's buffer. -/
private theorem cover0_2 (p0 p1 : Vec F S1x1024x512 .bf16) (y : S2x1024x512.Idx) :
    ∃ pc ∈ ([⟨rB0, p1⟩, ⟨rA0, p0⟩] : List (View.Piece (Elt F) S2x1024x512 .bf16)), y ∈ pc.1.set :=
  View.cover_of_tiled [⟨rB0, p1⟩, ⟨rA0, p0⟩] S1x1024x512.size (by rfl) y

/-- The one whole store tiles the second output's. -/
private theorem cover0_3 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

/-! ## A whole load reads the contents -/

/-- A load of an input's whole staging buffer, through the rectangle of the buffer's own sizes at zero offsets, reads
    what the buffer holds. -/
private theorem readAt_whole0 {κ : Kind} {sp : Space} (v : View sig κ sp S1024x512 .f32) (f : v.ty.Contents (Elt F)) :
    View.readAt (Elt F) v (Rect.unit (s := S1024x512) ![0, 0] S1024x512.size inb_S1024x512_S1024x512_0_0).toLoadRect f
      = View.read (Elt F) v f := by
  have hz : (![0, 0] : Fin S1024x512.rank → ℕ) = fun _ => 0 := by
    funext a; fin_cases a <;> rfl
  exact View.ld_unit_zero (S := S1024x512) hz inb_S1024x512_S1024x512_0_0 (View.read (Elt F) v f)

/-! ## The body's triple -/

set_option maxHeartbeats 1000000 in
/-- On whole staging memrefs, the inputs' at contents x0, x1 and the outputs' at anything, the kernel runs to the
    continuation holding the inputs' as they were and the outputs' at out0_2 x0 x1 and out0_3 x0 x1. -/
private theorem sound_kernel0 (c : Dev nD) (E : Set ℕ) (i : grid0.Coords)
    (arg1 : Memref sig .tc .vmem S1024x512 .f32) (harg1 : arg1.IsWhole)
    (arg2 : Memref sig .tc .vmem S1024x512 .f32) (harg2 : arg2.IsWhole)
    (arg3 : Memref sig .tc .vmem S2x1024x512 .bf16) (harg3 : arg3.IsWhole)
    (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f1, %hf1, H1⟩, ⟨%f2, %hf2, H2⟩, ⟨%d3, %f3, -, H3⟩, ⟨%d4, %f4, -, H4⟩, Hk⟩
  subst hf1
  subst hf2
  sl_exec
  sl_step
  iapply Hk
  isplitl [H1]
  · iexists f1; isplitr
    · ipureintro; rfl
    · iexact H1
  isplitl [H2]
  · iexists f2; isplitr
    · ipureintro; rfl
    · iexact H2
  isplitl [H3]
  · iexists _; isplitr
    swap
    · iexact H3
    ipureintro
    rw [readAt_whole0, readAt_whole0]
    exact View.read_writes_eq_canon _ _ _ (cover0_2 _ _)
  iexists _; isplitr
  swap
  · iexact H4
  ipureintro
  rw [readAt_whole0, readAt_whole0]
  exact View.read_writes_eq_canon _ _ _ (cover0_3 _)

/-! ## The body obligation at a point -/

/-- What the body is handed at point t: the invariant, what is owed, and the four windows' current buffers. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    the debt are not read and pass through. -/
private theorem sound_body0 (c : Dev nD) (t : Fin cfg0.N) :
    bodyPre0 V c t ⊢ wp frame (wpE (defs₀ (F := F)) Variants.none c none) Set.univ (bodyAt0 t) (fun _ => bodyPost0 V c t) := by
  have hΦ : (dat0 V c).Φ t.succ = (dat0 V c).Φ t.castSucc := rfl
  have ho : (dat0 V c).owesAt () t.succ = (dat0 V c).owesAt () t.castSucc := rfl
  unfold bodyPre0 bodyPost0 bodyAt0
  simp only [before0_0, before0_1]
  rw [hΦ, ho, after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]
  · iexact H0
  isplitl [H1]
  · iexact H1
  isplitl [H2]
  · iexists _; iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The body obligation of region 0, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.R1Defs.lean ====
/-
  Region 1 (the similarity kernel, grid 4 × 8, point t = 8·i + j): the four conditions of its body in closed
  form over the grid, where its output window is idle and where it is written back, and names for the memrefs the
  pipeline passes the body at a point.  Row block i holds rows 2048·i … 2048·i + 2047 of the 8192 normalised rows,
  column block j rows 1024·j … 1024·j + 1023; the two ranges meet exactly when j / 2 = i.
-/
import proofs.«405127_j71124658422130_3_alg».proof.Proof.Gen.Kernel.Launch
import proofs.«405127_j71124658422130_3_alg».proof.Proof.Gen.Kernel.Skeleton
import proofs.«405127_j71124658422130_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions -/

/-- j = 0: the accumulator is reset. -/
abbrev cFirst (i : grid1.Coords) : Prop :=
  (Scalar.cmpi .ne (Scalar.extui (Scalar.cmpi .eq (BitVec.ofNat 32 (i 1).val) 0#32)) 0#32) = 1#1
/-- The row range of block i and the column range of block j overlap: the tile may hold diagonal entries. -/
abbrev ovBit (i : grid1.Coords) : BitVec 1 :=
  Scalar.andi (Scalar.cmpi .slt (Scalar.muli (BitVec.ofNat 32 (i 0).val) 2048#32) (Scalar.muli (Scalar.addi (BitVec.ofNat 32 (i 1).val) 1#32) 1024#32))
    (Scalar.cmpi .slt (Scalar.muli (BitVec.ofNat 32 (i 1).val) 1024#32) (Scalar.muli (Scalar.addi (BitVec.ofNat 32 (i 0).val) 1#32) 2048#32))
abbrev cOv (i : grid1.Coords) : Prop := (Scalar.cmpi .ne (Scalar.extui (ovBit i)) 0#32) = 1#1
/-- The complementary branch. -/
abbrev cNov (i : grid1.Coords) : Prop := (Scalar.cmpi .ne (Scalar.extui (Scalar.xori (ovBit i) 1#1)) 0#32) = 1#1
/-- j = 7: the epilogue stores the output block. -/
abbrev cLast (i : grid1.Coords) : Prop := k1_cond4 i = 1#1

theorem hcFirst : ∀ t : Fin cfg1.N, cFirst (grid1.coords t) ↔ t.val % 8 = 0 :=
  (by decide +kernel : ∀ t : Fin grid1.N, cFirst (grid1.coords t) ↔ t.val % 8 = 0)
theorem hcOv : ∀ t : Fin cfg1.N, cOv (grid1.coords t) ↔ (t.val % 8) / 2 = t.val / 8 :=
  (by decide +kernel : ∀ t : Fin grid1.N, cOv (grid1.coords t) ↔ (t.val % 8) / 2 = t.val / 8)
theorem hcNov : ∀ t : Fin cfg1.N, cNov (grid1.coords t) ↔ ¬ (t.val % 8) / 2 = t.val / 8 :=
  (by decide +kernel : ∀ t : Fin grid1.N, cNov (grid1.coords t) ↔ ¬ (t.val % 8) / 2 = t.val / 8)
theorem hcLast : ∀ t : Fin cfg1.N, cLast (grid1.coords t) ↔ t.val % 8 = 7 :=
  (by decide +kernel : ∀ t : Fin grid1.N, cLast (grid1.coords t) ↔ t.val % 8 = 7)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ cLast (grid1.coords t) → cfg1.idle 3 (grid1.coords t) = true := by decide +kernel
theorem noFlush1_3 : ∀ t : Fin cfg1.N, ¬ cLast (grid1.coords t) → (cfg1.win 3).flush t = false := by decide +kernel
theorem liveAt1_3 : ∀ t : Fin cfg1.N, cLast (grid1.coords t) → cfg1.idle 3 (grid1.coords t) = false := by decide +kernel

/-! ## The memrefs the pipeline passes the body at point t -/

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1 : Memref sig .tc .vmem S2048x1 .f32 := Memref.whole cc1_scratch0

/-- The class invariant of region 1 with the accumulator as a memref owned at some contents. -/
theorem PhiA1_eq (c : Dev nD) :
    (Pipeline.ΦA spec1 c : sProp 𝕄)
      = iprop(iprop((∃ f0 : Buf (Elt F) ((c : Thread nD τ).loc cc0_stg0_0), ((c : Thread nD τ).loc cc0_stg0_0) ↦{fullShare} f0) ∗ (∃ f1 : Buf (Elt F) ((c : Thread nD τ).loc cc0_stg0_1), ((c : Thread nD τ).loc cc0_stg0_1) ↦{fullShare} f1) ∗ (∃ f2 : Buf (Elt F) ((c : Thread nD τ).loc cc0_stg1_0), ((c : Thread nD τ).loc cc0_stg1_0) ↦{fullShare} f2) ∗ (∃ f3 : Buf (Elt F) ((c : Thread nD τ).loc cc0_stg1_1), ((c : Thread nD τ).loc cc0_stg1_1) ↦{fullShare} f3) ∗ (∃ f4 : Buf (Elt F) ((c : Thread nD τ).loc cc0_stg2_0), ((c : Thread nD τ).loc cc0_stg2_0) ↦{fullShare} f4) ∗ (∃ f5 : Buf (Elt F) ((c : Thread nD τ).loc cc0_stg2_1), ((c : Thread nD τ).loc cc0_stg2_1) ↦{fullShare} f5) ∗ (∃ f6 : Buf (Elt F) ((c : Thread nD τ).loc cc0_stg3_0), ((c : Thread nD τ).loc cc0_stg3_0) ↦{fullShare} f6) ∗ (∃ f7 : Buf (Elt F) ((c : Thread nD τ).loc cc0_stg3_1), ((c : Thread nD τ).loc cc0_stg3_1) ↦{fullShare} f7) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.K.R1RunA.lean ====
/-
  The similarity kernel's body run once, in the control case where j = 0 and the tile meets the diagonal (the grid's first point): the accumulator is reset, then takes the masked row sums; the output window is left as handed.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- j = 0 and the tile meets the diagonal (the grid's first point): the accumulator is reset, then takes the masked row sums; the output window is left as handed. -/
theorem run1_A (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : cFirst i) (h2 : cOv i) (h3 : ¬ cNov i) (h4 : ¬ cLast i)
    (x0 : Vec F S2048x512 .bf16) (x1 : Vec F S1024x512 .bf16) (x2 : Vec F S2048x1 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay3 i x0 x1 (k1_pay1 (F := F)))) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32)
      (L : List (View.Piece (Elt F) S2048x1 .f32)),
      v.read (Elt F) (v.writes (Elt F) f ((⟨Rect.unit ![0, 0] S2048x1.size inb_S2048x1_S2048x1_0_0, w⟩ : View.Piece (Elt F) S2048x1 .f32) :: L)) = w := by
    intro v f w L
    have hcov : ∀ y : S2048x1.Idx, ∃ p ∈ ((⟨Rect.unit (s := S2048x1) ![0, 0] S2048x1.size inb_S2048x1_S2048x1_0_0, w⟩ : View.Piece (Elt F) S2048x1 .f32) :: L), y ∈ p.1.set :=
      fun y => ⟨_, List.mem_cons.mpr (Or.inl rfl), View.mem_set_unit_zero (S := S2048x1) hz inb_S2048x1_S2048x1_0_0 y⟩
    rw [View.read_writes_eq_canon v f _ hcov]
    exact View.canon_cons_unit_zero (S := S2048x1) hz inb_S2048x1_S2048x1_0_0 w L
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap
  · iexact HS
  ipureintro
  rw [hww]
  sl_unfold_run_names
  rw [View.readCov_unit_zero (S := S2048x1) arg6.view hz inb_S2048x1_S2048x1_0_0]
  simp only [View.readAt_eq_ld]
  rw [harg2.read_unread, harg3.read_unread,
    View.ld_unit_zero (S := S2048x512) hz, View.ld_unit_zero (S := S1024x512) hz]

end Cert.Kernel.Hand

end
-- ==== Proof.K.R1RunB.lean ====
/-
  The similarity kernel's body run once, in the control case where j = 0 and the tile lies off the diagonal: the accumulator is reset, then takes the plain row sums; the output window is left as handed.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- A store covering the buffer, made last, leaves its payload whatever the earlier stores were. -/
private theorem read_store_whole_cons (v : View sig .tc .vmem S2048x1 .f32) (f : v.ty.Contents (Elt F))
    (w : S2048x1.Idx → Elt F .f32) (L : List (View.Piece (Elt F) S2048x1 .f32)) :
    v.read (Elt F) (v.writes (Elt F) f
      ((⟨Rect.unit ![0, 0] S2048x1.size inb_S2048x1_S2048x1_0_0, w⟩ : View.Piece (Elt F) S2048x1 .f32) :: L)) = w := by
  rw [View.read_writes_eq_canon _ _ _
      (fun y => ⟨_, List.mem_cons_self, View.mem_set_unit_zero off0_a inb_S2048x1_S2048x1_0_0 y⟩),
    View.canon_cons_unit_zero off0_a]

/-- A load of the whole buffer after one store covering it reads that store's payload. -/
private theorem readCov_whole (v : View sig .tc .vmem S2048x1 .f32) (w : S2048x1.Idx → Elt F .f32) :
    v.readCov [(⟨Rect.unit ![0, 0] S2048x1.size inb_S2048x1_S2048x1_0_0, w⟩ : View.Piece (Elt F) S2048x1 .f32)]
      (Rect.unit ![0, 0] S2048x1.size inb_S2048x1_S2048x1_0_0).toLoadRect = w :=
  View.readCov_unit_zero v off0_a _ w

/-- A load through the whole-buffer rectangle reads the contents. -/
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- j = 0 and the tile lies off the diagonal: the accumulator is reset, then takes the plain row sums; the output window is left as handed. -/
theorem run1_B (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : cFirst i) (h2 : ¬ cOv i) (h3 : cNov i) (h4 : ¬ cLast i)
    (x0 : Vec F S2048x512 .bf16) (x1 : Vec F S1024x512 .bf16) (x2 : Vec F S2048x1 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay4 x0 x1 (k1_pay1 (F := F)))) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap
  · iexact HS
  · ipureintro
    sl_unfold_words
    refine (read_store_whole_cons _ _ _ _).trans ?_
    rw [readCov_whole, View.readAt_eq_ld, View.readAt_eq_ld, harg2.read_unread, harg3.read_unread,
      ld_whole_b, ld_whole_c]

end Cert.Kernel.Hand

end
-- ==== Proof.K.R1RunC.lean ====
/-
  The similarity kernel's body run once, in the control case where 0 < j < 7 and the tile meets the diagonal: the masked row sums are added to what the point before left; the output window is left as handed.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- 0 < j < 7 and the tile meets the diagonal: the masked row sums are added to what the point before left; the output window is left as handed. -/
theorem run1_C (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : cOv i) (h3 : ¬ cNov i) (h4 : ¬ cLast i)
    (x0 : Vec F S2048x512 .bf16) (x1 : Vec F S1024x512 .bf16) (x2 : Vec F S2048x1 .f32) (xi3 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay3 i x0 x1 xs)) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32),
      v.read (Elt F) (v.writes (Elt F) f [(⟨Rect.unit ![0, 0] S2048x1.size inb_S2048x1_S2048x1_0_0, w⟩ : View.Piece (Elt F) S2048x1 .f32)]) = w := by
    intro v f w
    have hcov : ∀ y : S2048x1.Idx, ∃ p ∈ [(⟨Rect.unit (s := S2048x1) ![0, 0] S2048x1.size inb_S2048x1_S2048x1_0_0, w⟩ : View.Piece (Elt F) S2048x1 .f32)], y ∈ p.1.set :=
      fun y => ⟨_, List.mem_singleton_self _, View.mem_set_unit_zero (S := S2048x1) hz inb_S2048x1_S2048x1_0_0 y⟩
    rw [View.read_writes_eq_canon v f _ hcov]
    exact View.canon_unit_zero (S := S2048x1) hz inb_S2048x1_S2048x1_0_0 w
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap
  · iexact HS
  ipureintro
  rw [hww]
  simp only [View.readAt_eq_ld]
  rw [harg2.read_unread, harg3.read_unread, hfs,
    View.ld_unit_zero (S := S2048x512) hz, View.ld_unit_zero (S := S1024x512) hz, View.ld_unit_zero (S := S2048x1) hz]

end Cert.Kernel.Hand

end
-- ==== Proof.K.R1RunD.lean ====
/-
  The similarity kernel's body run once, in the control case where 0 < j < 7 and the tile lies off the diagonal: the plain row sums are added to what the point before left; the output window is left as handed.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- One store covering the buffer leaves its payload, whatever the buffer held before. -/
private theorem read_store_whole (v : View sig .tc .vmem S2048x1 .f32) (f : v.ty.Contents (Elt F))
    (w : S2048x1.Idx → Elt F .f32) :
    v.read (Elt F) (v.writes (Elt F) f
      [(⟨Rect.unit ![0, 0] S2048x1.size inb_S2048x1_S2048x1_0_0, w⟩ : View.Piece (Elt F) S2048x1 .f32)]) = w := by
  rw [View.read_writes_eq_canon _ _ _
      (fun y => ⟨_, List.mem_singleton_self _, View.mem_set_unit_zero off0_a inb_S2048x1_S2048x1_0_0 y⟩),
    View.canon_unit_zero off0_a]

/-- A load through the whole-buffer rectangle reads the contents. -/
private theorem ld_whole_a (X : S2048x1.Idx → Elt F .f32) :
    View.ld X (Rect.unit ![0, 0] S2048x1.size inb_S2048x1_S2048x1_0_0) = X := View.ld_unit_zero off0_a _ X
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- 0 < j < 7 and the tile lies off the diagonal: the plain row sums are added to what the point before left; the output window is left as handed. -/
theorem run1_D (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : ¬ cOv i) (h3 : cNov i) (h4 : ¬ cLast i)
    (x0 : Vec F S2048x512 .bf16) (x1 : Vec F S1024x512 .bf16) (x2 : Vec F S2048x1 .f32) (xi3 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay4 x0 x1 xs)) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap
  · iexact HS
  · ipureintro
    refine (read_store_whole _ _ _).trans ?_
    rw [View.readAt_eq_ld, View.readAt_eq_ld, View.readAt_eq_ld, harg2.read_unread, harg3.read_unread, harg6.read_unread,
      ld_whole_a, ld_whole_b, ld_whole_c]

end Cert.Kernel.Hand

end
-- ==== Proof.K.R1RunE.lean ====
/-
  The similarity kernel's body run once, in the control case where j = 7 and the tile meets the diagonal (the grid's last point): the masked row sums are added, and the output block is stored from the positives block and the finished accumulator.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- j = 7 and the tile meets the diagonal (the grid's last point): the masked row sums are added, and the output block is stored from the positives block and the finished accumulator. -/
theorem run1_E (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : cOv i) (h3 : ¬ cNov i) (h4 : cLast i)
    (x0 : Vec F S2048x512 .bf16) (x1 : Vec F S1024x512 .bf16) (x2 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 x2 (k1_pay3 i x0 x1 xs)) ∗ owns (c : Thread nD τ) arg6 fullShare (k1_pay3 i x0 x1 xs)) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32)
      (L : List (View.Piece (Elt F) S2048x1 .f32)),
      v.read (Elt F) (v.writes (Elt F) f ((⟨Rect.unit ![0, 0] S2048x1.size inb_S2048x1_S2048x1_0_0, w⟩ : View.Piece (Elt F) S2048x1 .f32) :: L)) = w := by
    intro v f w L
    have hcov : ∀ y : S2048x1.Idx, ∃ p ∈ ((⟨Rect.unit (s := S2048x1) ![0, 0] S2048x1.size inb_S2048x1_S2048x1_0_0, w⟩ : View.Piece (Elt F) S2048x1 .f32) :: L), y ∈ p.1.set :=
      fun y => ⟨_, List.mem_cons.mpr (Or.inl rfl), View.mem_set_unit_zero (S := S2048x1) hz inb_S2048x1_S2048x1_0_0 y⟩
    rw [View.read_writes_eq_canon v f _ hcov]
    exact View.canon_cons_unit_zero (S := S2048x1) hz inb_S2048x1_S2048x1_0_0 w L
  simp only [cc1__sim_kernel_eq_skeleton]; unfold cc1__sim_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap
    · iexact H3
    ipureintro
    sl_unfold_run_names
    rw [hww, View.readCov_unit_zero (S := S2048x1) arg6.view hz inb_S2048x1_S2048x1_0_0]
    simp only [View.readAt_eq_ld]
    rw [harg2.read_unread, harg3.read_unread, harg4.read_unread, hfs,
      View.ld_unit_zero (S := S2048x512) hz, View.ld_unit_zero (S := S1024x512) hz, View.ld_unit_zero (S := S2048x1) hz,
      View.ld_unit_zero (S := S2048x1) hz]
  iexists _; isplitr
  swap
  · iexact HS
  ipureintro
  sl_unfold_run_names
  rw [hww]
  simp only [View.readAt_eq_ld]
  rw [harg2.read_unread, harg3.read_unread, hfs,
    View.ld_unit_zero (S := S2048x512) hz, View.ld_unit_zero (S := S1024x512) hz, View.ld_unit_zero (S := S2048x1) hz]

end Cert.Kernel.Hand

end
-- ==== Proof.K.R1RunF.lean ====
/-
  The similarity kernel's body run once, in the control case where j = 7 and the tile lies off the diagonal: the plain row sums are added, and the output block is stored from the positives block and the finished accumulator.
  Every store of the body covers its buffer whole, so each buffer ends at the stored value itself.
-/
import proofs.«405127_j71124658422130_3_alg».proof.Proof.K.R1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- A store covering the buffer, made last, leaves its payload whatever the earlier stores were. -/
private theorem read_store_whole_cons (v : View sig .tc .vmem S2048x1 .f32) (f : v.ty.Contents (Elt F))
    (w : S2048x1.Idx → Elt F .f32) (L : List (View.Piece (Elt F) S2048x1 .f32)) :
    v.read (Elt F) (v.writes (Elt F) f
      ((⟨Rect.unit ![0, 0] S2048x1.size inb_S2048x1_S2048x1_0_0, w⟩ : View.Piece (Elt F) S2048x1 .f32) :: L)) = w := by
  rw [View.read_writes_eq_canon _ _ _
      (fun y => ⟨_, List.mem_cons_self, View.mem_set_unit_zero off0_a inb_S2048x1_S2048x1_0_0 y⟩),
    View.canon_cons_unit_zero off0_a]

/-- A load of the whole buffer after one store covering it reads that store's payload. -/
private theorem readCov_whole (v : View sig .tc .vmem S2048x1 .f32) (w : S2048x1.Idx → Elt F .f32) :
    v.readCov [(⟨Rect.unit ![0, 0] S2048x1.size inb_S2048x1_S2048x1_0_0, w⟩ : View.Piece (Elt F) S2048x1 .f32)]
      (Rect.unit ![0, 0] S2048x1.size inb_S2048x1_S2048x1_0_0).toLoadRect = w :=
  View.readCov_unit_zero v off0_a _ w

/-- A load through the whole-buffer rectangle reads the contents. -/
private theorem ld_whole_a (X : S2048x1.Idx → Elt F .f32) :
    View.ld X (Rect.unit ![0, 0] S2048x1.size inb_S2048x1_S2048x1_0_0) = X := View.ld_unit_zero off0_a _ X
/-- A load through the whole-buffer rectangle reads the contents. -/
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- j = 7 and the tile lies off the diagonal: the plain row sums are added, and the output block is stored from the positives block and the finished accumulator. -/
theorem run1_F (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : ¬ cOv i) (h3 : cNov i) (h4 : cLast i)
    (x0 : Vec F S2048x512 .bf16) (x1 : Vec F S1024x512 .bf16) (x2 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 x2 (k1_pay4 x0 x1 xs)) ∗ owns (c : Thread nD τ) arg6 fullShare (k1_pay4 x0 x1 xs)) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexact H3
    · ipureintro
      sl_unfold_words
      refine (read_store_whole_cons _ _ _ _).trans ?_
      rw [readCov_whole, View.readAt_eq_ld, View.readAt_eq_ld, View.readAt_eq_ld, View.readAt_eq_ld,
        harg2.read_unread, harg3.read_unread, harg4.read_unread, harg6.read_unread,
        ld_whole_a, ld_whole_a, ld_whole_b, ld_whole_c]
  iexists _; isplitr; swap
  · iexact HS
  · ipureintro
    sl_unfold_words
    refine (read_store_whole_cons _ _ _ _).trans ?_
    rw [View.readAt_eq_ld, View.readAt_eq_ld, View.readAt_eq_ld, harg2.read_unread, harg3.read_unread,
      harg6.read_unread, ld_whole_a, ld_whole_b, ld_whole_c]

end Cert.Kernel.Hand

end
-- ==== Proof.K.R1.lean ====
/-
  Region 1 (the similarity kernel, grid 4 × 8, point t = 8·i + j), at the buffer contents V the region is entered from.
  Row block i of the stacked rows against column block j: the body adds the tile's row sums of exp (similarity / T) —
  the diagonal entry left out when the tile meets the diagonal — to an accumulator it keeps in a buffer of its own from
  point to point, reset at j = 0; at j = 7 it stores the row losses -(pos / T) + log (accumulator) into the output block,
  which it leaves alone at every other point.  Windows 0 and 1 both read the array of stacked rows.
-/
import proofs.«405127_j71124658422130_3_alg».proof.Proof.K.R1RunA
import proofs.«405127_j71124658422130_3_alg».proof.Proof.K.R1RunB
import proofs.«405127_j71124658422130_3_alg».proof.Proof.K.R1RunC
import proofs.«405127_j71124658422130_3_alg».proof.Proof.K.R1RunD
import proofs.«405127_j71124658422130_3_alg».proof.Proof.K.R1RunE
import proofs.«405127_j71124658422130_3_alg».proof.Proof.K.R1RunF

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal types: 2048 stacked rows, 1024 stacked rows, 2048 paired similarities. -/
abbrev rowBlk (c : Dev nD) (t : Fin cfg1.N) : Vec F S2048x512 .bf16 := iblk1 V c 0 t
abbrev colBlk (c : Dev nD) (t : Fin cfg1.N) : Vec F S1024x512 .bf16 := iblk1 V c 1 t
abbrev posBlk (c : Dev nD) (t : Fin cfg1.N) : Vec F S2048x1 .f32 := iblk1 V c 2 t

/-- THE ACCUMULATION. What the accumulator holds after the body at position n: the tile's row sums (masked where the
    tile meets the diagonal, j / 2 = i) added to the zero vector at the first column block and otherwise to what the
    point before left. -/
def accAt (c : Dev nD) : (n : ℕ) → n < cfg1.N → Vec F S2048x1 .f32
  | 0, hn => k1_pay3 (grid1.coords ⟨0, hn⟩) (rowBlk V c ⟨0, hn⟩) (colBlk V c ⟨0, hn⟩) (k1_pay1 (F := F))
  | n + 1, hn =>
    if ((n + 1) % 8) / 2 = (n + 1) / 8 then
      k1_pay3 (grid1.coords ⟨n + 1, hn⟩) (rowBlk V c ⟨n + 1, hn⟩) (colBlk V c ⟨n + 1, hn⟩)
        (if (n + 1) % 8 = 0 then (k1_pay1 (F := F)) else accAt c n (Nat.lt_of_succ_lt hn))
    else
      k1_pay4 (rowBlk V c ⟨n + 1, hn⟩) (colBlk V c ⟨n + 1, hn⟩)
        (if (n + 1) % 8 = 0 then (k1_pay1 (F := F)) else accAt c n (Nat.lt_of_succ_lt hn))

/-- What the accumulation at point t starts from. -/
def startAt (c : Dev nD) (t : Fin cfg1.N) : Vec F S2048x1 .f32 :=
  if t.val % 8 = 0 then (k1_pay1 (F := F)) else accAt V c (t.val - 1) (Nat.lt_of_le_of_lt (Nat.sub_le _ _) t.isLt)

/-- One step of the accumulation, at a point whose tile meets the diagonal, -/
theorem accAt_ov (c : Dev nD) (t : Fin cfg1.N) (h : (t.val % 8) / 2 = t.val / 8) :
    accAt V c t.val t.isLt = k1_pay3 (grid1.coords t) (rowBlk V c t) (colBlk V c t) (startAt V c t) := by
  obtain ⟨n, hn⟩ := t
  cases n with
  | zero =>
    unfold startAt
    rw [if_pos (show (⟨0, hn⟩ : Fin cfg1.N).val % 8 = 0 from Nat.zero_mod 8)]
    rw [accAt]
  | succ n =>
    dsimp only at h
    unfold startAt
    rw [accAt, if_pos h]
    rfl
/-- and at one whose tile lies off it. -/
theorem accAt_nov (c : Dev nD) (t : Fin cfg1.N) (h : ¬ (t.val % 8) / 2 = t.val / 8) :
    accAt V c t.val t.isLt = k1_pay4 (rowBlk V c t) (colBlk V c t) (startAt V c t) := by
  obtain ⟨n, hn⟩ := t
  cases n with
  | zero =>
    dsimp only at h
    exact absurd (by decide : 0 % 8 / 2 = 0 / 8) h
  | succ n =>
    dsimp only at h
    unfold startAt
    rw [accAt, if_neg h]
    rfl

/-- What the output's staging buffer holds after the body at a last column block: the row losses of the point's rows. At
    the other points (the window idle there, not written back, not read later) a term nothing consults. -/
def outAt (c : Dev nD) (t : Fin cfg1.N) : Vec F S2048x1 .f32 := k1_pay5 (posBlk V c t) (accAt V c t.val t.isLt)

/-- The region invariant before position n: before the first point the class's (every scoped buffer no window of this
    region stages at some contents, the generator register at some state); afterwards the same with the accumulator at
    what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (accAt V c n hn)) ∗ (∃ r, prngReg c r))

/-- The proof data of pipeline 1 on core c. The array of stacked rows is read through windows 0 and 1: each holds half
    of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]

/-! ## The invariant, with what it says of the accumulator named -/

/-- The invariant's shape: the eight scoped buffers no window of this region stages, each at some contents; then what is
    said of the accumulator (S); then the generator register at some state. -/
private def inv1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

/-- All of it but the accumulator's part. -/
private def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ r, prngReg c r))

/-- The accumulator's part taken out of the invariant, -/
private theorem inv1_open (c : Dev nD) (S : sProp 𝕄) : inv1 (F := F) c S ⊢ iprop(S ∗ rest1 (F := F) c) := by
  unfold inv1 rest1
  iintro ⟨⟨A0, A1, A2, A3, A4, A5, A6, A7, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

/-- and put back. -/
private theorem inv1_close (c : Dev nD) (S : sProp 𝕄) : iprop(S ∗ rest1 (F := F) c) ⊢ inv1 (F := F) c S := by
  unfold inv1 rest1
  iintro ⟨HS, ⟨A0, A1, A2, A3, A4, A5, A6, A7⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- Before the first point the accumulator is owned at some contents (the class invariant, read in this shape). -/
private theorem PhiS1_zero (c : Dev nD) (n : ℕ) (h : n ≤ cfg1.N) (hz : n = 0) :
    PhiS1 V c n h = inv1 c (iprop(∃ d, owns (c : Thread nD τ) scM1 fullShare d)) := by
  subst hz
  exact (show PhiS1 V c 0 h = Pipeline.ΦA spec1 c from rfl).trans (PhiA1_eq c)

/-- After point n (before point n + 1) it holds the accumulation up to n. -/
private theorem PhiS1_succ (c : Dev nD) (n : ℕ) (hn : n < cfg1.N) :
    PhiS1 V c (n + 1) hn = inv1 c (owns (c : Thread nD τ) scM1 fullShare (accAt V c n hn)) := rfl

/-- Before a point that is not the first it holds what the point before left. -/
private theorem PhiS1_pos (c : Dev nD) (n : ℕ) (h : n ≤ cfg1.N) (hz : n ≠ 0) :
    PhiS1 V c n h = inv1 c (owns (c : Thread nD τ) scM1 fullShare (accAt V c (n - 1) (by omega))) := by
  cases n with
  | zero => exact absurd rfl hz
  | succ n => rfl

/-- The invariant at a point's start, restated at the point's position. -/
private theorem PhiS1_castSucc (c : Dev nD) (t : Fin cfg1.N) :
    (dat1 V c).Φ t.castSucc = PhiS1 V c t.val (Nat.le_of_lt t.isLt) := by
  dsimp only [dat1]; simp only [Fin.coe_castSucc]

/-! ## What the input windows hold when the body runs -/

/-- The row block's buffer holds the point's row block at every point: fetched at j = 0, and through the seven points
    after the block index does not move. -/
private theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The column block is fetched at every point. -/
private theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The positives' block, like the row block, is fetched at j = 0 and kept. -/
private theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## What the body leaves, window by window -/

private theorem leaves1_0 (c : Dev nD) (t : Fin cfg1.N) :
    (dat1 V c).leavesExact 0 t = owns (c : Thread nD τ) (ms1_0 t) fullShare (rowBlk V c t) := by
  unfold Dat.leavesExact; rw [liveAt1_0 t, after1_0]
private theorem leaves1_1 (c : Dev nD) (t : Fin cfg1.N) :
    (dat1 V c).leavesExact 1 t = owns (c : Thread nD τ) (ms1_1 t) fullShare (colBlk V c t) := by
  unfold Dat.leavesExact; rw [liveAt1_1 t, after1_1]
private theorem leaves1_2 (c : Dev nD) (t : Fin cfg1.N) :
    (dat1 V c).leavesExact 2 t = owns (c : Thread nD τ) (ms1_2 t) fullShare (posBlk V c t) := by
  unfold Dat.leavesExact; rw [liveAt1_2 t, after1_2]
/-- Where the output block is stored (j = 7): the row losses. -/
private theorem leaves1_3_last (c : Dev nD) (t : Fin cfg1.N) (h : cLast (grid1.coords t)) :
    (dat1 V c).leavesExact 3 t = owns (c : Thread nD τ) (ms1_3 t) fullShare (outAt V c t) := by
  unfold Dat.leavesExact; rw [liveAt1_3 t h, after1_3]
/-- Elsewhere the window is idle and not written back: the buffer as it was handed. -/
private theorem leaves1_3_idle (c : Dev nD) (t : Fin cfg1.N) (h : ¬ cLast (grid1.coords t)) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)

/-! ## The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- j = 0 and the tile meets the diagonal (the grid's first point): the accumulator, owned at some contents, is reset, then takes the masked row sums; the output window goes back as it was handed. -/
private theorem sound1_A (c : Dev nD) (t : Fin cfg1.N) (hF : t.val % 8 = 0) (hO : (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val = 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_zero V c _ _ hz]
  rw [leaves1_0, leaves1_1, leaves1_2, leaves1_3_idle V c t (fun h => hL ((hcLast t).mp h))]
  rw [accAt_ov V c t hO, startAt, if_pos hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_A c (grid1.coords t) (ms1_0 t) (hs1_0 t) (ms1_1 t) (hs1_1 t) (ms1_2 t) (hs1_2 t) (ms1_3 t) (hs1_3 t) scM1 (Memref.isWhole_whole _)
    ((hcFirst t).mpr hF) ((hcOv t).mpr hO) (fun h => (hcNov t).mp h hO) (fun h => hL ((hcLast t).mp h))
    (rowBlk V c t) (colBlk V c t) (posBlk V c t) ((dat1 V c).before 3 t d3) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- j = 0 and the tile lies off the diagonal (t = 8, 16, 24): the accumulator holds what the point before left, which the reset discards, then takes the plain row sums; the output window goes back as it was handed. -/
private theorem sound1_B (c : Dev nD) (t : Fin cfg1.N) (hF : t.val % 8 = 0) (hO : ¬ (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_nov V c t hO, startAt, if_pos hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_B c (grid1.coords t) (ms1_0 t) (hs1_0 t) (ms1_1 t) (hs1_1 t) (ms1_2 t) (hs1_2 t) (ms1_3 t) (hs1_3 t) scM1 (Memref.isWhole_whole _)
    ((hcFirst t).mpr hF) (fun h => hO ((hcOv t).mp h)) ((hcNov t).mpr hO) (fun h => hL ((hcLast t).mp h))
    (rowBlk V c t) (colBlk V c t) (posBlk V c t) ((dat1 V c).before 3 t d3) Set.univ _)
  isplitl [H0]; · iexact H0
  isplitl [H1]; · iexact H1
  isplitl [H2]; · iexact H2
  isplitl [H3]; · iexact H3
  isplitl [HS]; · iexists _; iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- 0 < j < 7 and the tile meets the diagonal: the masked row sums are added to what the point before left; the output window goes back as it was handed. -/
private theorem sound1_C (c : Dev nD) (t : Fin cfg1.N) (hF : ¬ t.val % 8 = 0) (hO : (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_ov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_C c (grid1.coords t) (ms1_0 t) (hs1_0 t) (ms1_1 t) (hs1_1 t) (ms1_2 t) (hs1_2 t) (ms1_3 t) (hs1_3 t) scM1 (Memref.isWhole_whole _)
    (fun h => hF ((hcFirst t).mp h)) ((hcOv t).mpr hO) (fun h => (hcNov t).mp h hO) (fun h => hL ((hcLast t).mp h))
    (rowBlk V c t) (colBlk V c t) (posBlk V c t) ((dat1 V c).before 3 t d3) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- 0 < j < 7 and the tile lies off the diagonal: the plain row sums are added to what the point before left; the output window goes back as it was handed. -/
private theorem sound1_D (c : Dev nD) (t : Fin cfg1.N) (hF : ¬ t.val % 8 = 0) (hO : ¬ (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_nov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_D c (grid1.coords t) (ms1_0 t) (hs1_0 t) (ms1_1 t) (hs1_1 t) (ms1_2 t) (hs1_2 t) (ms1_3 t) (hs1_3 t) scM1 (Memref.isWhole_whole _)
    (fun h => hF ((hcFirst t).mp h)) (fun h => hO ((hcOv t).mp h)) ((hcNov t).mpr hO) (fun h => hL ((hcLast t).mp h))
    (rowBlk V c t) (colBlk V c t) (posBlk V c t) ((dat1 V c).before 3 t d3) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- j = 7 and the tile meets the diagonal (the grid's last point): the masked row sums are added, and the output block is stored from the positives block and the finished accumulator. -/
private theorem sound1_E (c : Dev nD) (t : Fin cfg1.N) (hF : ¬ t.val % 8 = 0) (hO : (t.val % 8) / 2 = t.val / 8) (hL : t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_last V c t ((hcLast t).mpr hL)]
  unfold outAt
  rw [accAt_ov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_E c (grid1.coords t) (ms1_0 t) (hs1_0 t) (ms1_1 t) (hs1_1 t) (ms1_2 t) (hs1_2 t) (ms1_3 t) (hs1_3 t) scM1 (Memref.isWhole_whole _)
    (fun h => hF ((hcFirst t).mp h)) ((hcOv t).mpr hO) (fun h => (hcNov t).mp h hO) ((hcLast t).mpr hL)
    (rowBlk V c t) (colBlk V c t) (posBlk V c t) (accAt V c (t.val - 1) (Nat.lt_of_le_of_lt (Nat.sub_le _ _) t.isLt)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexact H3

set_option maxHeartbeats 1600000 in
/-- j = 7 and the tile lies off the diagonal: the plain row sums are added, and the output block is stored from the positives block and the finished accumulator. -/
private theorem sound1_F (c : Dev nD) (t : Fin cfg1.N) (hF : ¬ t.val % 8 = 0) (hO : ¬ (t.val % 8) / 2 = t.val / 8) (hL : t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_last V c t ((hcLast t).mpr hL)]
  unfold outAt
  rw [accAt_nov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_F c (grid1.coords t) (ms1_0 t) (hs1_0 t) (ms1_1 t) (hs1_1 t) (ms1_2 t) (hs1_2 t) (ms1_3 t) (hs1_3 t) scM1 (Memref.isWhole_whole _)
    (fun h => hF ((hcFirst t).mp h)) (fun h => hO ((hcOv t).mp h)) ((hcNov t).mpr hO) ((hcLast t).mpr hL)
    (rowBlk V c t) (colBlk V c t) (posBlk V c t) (accAt V c (t.val - 1) (Nat.lt_of_le_of_lt (Nat.sub_le _ _) t.isLt)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexact H3

/-- The body at any point: the closed forms of the conditions say which of the six cases the point is in (j = 0 and j = 7
    exclude one another). -/
private theorem sound_body1 (c : Dev nD) (t : Fin cfg1.N) :
    bodyPre1 V c t ⊢ wp frame (wpE (defs₀ (F := F)) Variants.none c none) Set.univ (bodyAt1 t) (fun _ => bodyPost1 V c t) := by
  by_cases hF : t.val % 8 = 0
  · have hL : ¬ t.val % 8 = 7 := by omega
    by_cases hO : (t.val % 8) / 2 = t.val / 8
    · exact sound1_A V c t hF hO hL
    · exact sound1_B V c t hF hO hL
  · by_cases hO : (t.val % 8) / 2 = t.val / 8
    · by_cases hL : t.val % 8 = 7
      · exact sound1_E V c t hF hO hL
      · exact sound1_C V c t hF hO hL
    · by_cases hL : t.val % 8 = 7
      · exact sound1_F V c t hF hO hL
      · exact sound1_D V c t hF hO hL

/-- The body obligation of region 1, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Entails.of_eq (show Pipeline.ΦA spec1 c = PhiS1 V c 0 (Nat.zero_le _) from rfl)

/-- After the last point the invariant gives the class's back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  show inv1 c _ ⊢ inv1 c (iprop(∃ d, owns (c : Thread nD τ) scM1 fullShare d))
  iintro H
  ihave H' := (inv1_open c _) $$ H
  icases H' with ⟨HS, HR⟩
  iapply (inv1_close c _)
  isplitl [HS]; · iexists _; iexact HS
  iexact HR

end Cert.Kernel.Hand

end
-- ==== Proof.K.Fold.lean ====
/-
  The contents of every buffer at each boundary of @main, as a fold from the launch memory: region 0 changes its two output
  arrays, the first host stretch re-lays them (the stacked rows as one 8192 × 512 array, the paired similarities repeated
  twice), region 1 changes its output array, the second host stretch sums the row losses and divides by 8192.  With them the
  proof-data family (each pipeline's at its region's entry contents) and what rides beside the buffers through every
  segment: the generator register at some state, nothing owed.
-/
import proofs.«405127_j71124658422130_3_alg».proof.Proof.K.R0
import proofs.«405127_j71124658422130_3_alg».proof.Proof.K.R1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At region 0's exit: its two output arrays at what the write-backs leave, every other buffer as entered. -/
def W1 (c : Dev nD) : Valuation τ sig (Elt F) :=
  Pipeline.withArrays spec0 c (W0 m ρ c) fun w => (dat0 (V0r m ρ) c).arrAt w cfg0.N
abbrev V1r : (c : Dev nD) → (b : Ref sig .tc) → Buf (Elt F) ((c : Thread nD τ).loc b) := fun c b => W1 m ρ c b
/-- After the first host stretch (region 1's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At region 1's exit: its output array at what the write-backs leave, every other buffer as entered. -/
def W3 (c : Dev nD) : Valuation τ sig (Elt F) :=
  Function.update (W2 m ρ c) (Proc.devRef .tc main_v5) ((dat1 (V2r m ρ) c).arrAt 3 cfg1.N)
abbrev V3r : (c : Dev nD) → (b : Ref sig .tc) → Buf (Elt F) ((c : Thread nD τ).loc b) := fun c b => W3 m ρ c b
/-- After the second host stretch: the end. -/
abbrev W4 : Dev nD → Valuation τ sig (Elt F) := fun c => StableHlo.after hostOps2 (W3 m ρ c)

theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W3_out (c : Dev nD) : W3 m ρ c (Proc.devRef .tc main_v5) = (dat1 (V2r m ρ) c).arrAt 3 cfg1.N := by
  unfold W3; exact Function.update_self ..
theorem W3_of_ne (c : Dev nD) (b : Ref sig .tc) (hb : b ≠ main_v5) :
    W3 m ρ c (Proc.devRef .tc b) = W2 m ρ c (Proc.devRef .tc b) := by
  unfold W3; exact Function.update_of_ne (StableHlo.devRef_ne_of_ne hb) ..

/-- Neither region and no host operation writes an argument. -/
theorem W4_main_arg0 (c : Dev nD) : W4 m ρ c (Proc.devRef .tc main_arg0) = m ((c : Thread nD τ).loc main_arg0) := by
  -- the second host stretch writes its two constants, the sum and the quotient: none of them this argument
  have h43 : W4 m ρ c (Proc.devRef .tc main_arg0) = W3 m ρ c (Proc.devRef .tc main_arg0) := by
    refine StableHlo.after_of_forall_not_mem (b := Proc.devRef .tc main_arg0) _ _ fun op hop => ?_
    simp only [hostOps2, List.mem_cons, List.not_mem_nil, or_false] at hop
    rcases hop with rfl | rfl | rfl | rfl <;>
      simp only [StableHlo.nullary_writes, StableHlo.binary_writes, Finset.mem_singleton] <;>
      exact StableHlo.devRef_ne_of_ne (by decide)
  -- region 1 writes its one output array only
  have h32 : W3 m ρ c (Proc.devRef .tc main_arg0) = W2 m ρ c (Proc.devRef .tc main_arg0) :=
    W3_of_ne m ρ c main_arg0 (by decide)
  -- the first host stretch writes the four re-laid arrays only
  have h21 : W2 m ρ c (Proc.devRef .tc main_arg0) = W1 m ρ c (Proc.devRef .tc main_arg0) := by
    refine StableHlo.after_of_forall_not_mem (b := Proc.devRef .tc main_arg0) _ _ fun op hop => ?_
    simp only [hostOps1, List.mem_cons, List.not_mem_nil, or_false] at hop
    rcases hop with rfl | rfl | rfl | rfl <;>
      simp only [StableHlo.reshape_writes, StableHlo.binary_writes, Finset.mem_singleton] <;>
      exact StableHlo.devRef_ne_of_ne (by decide)
  -- the argument is window 0's array of region 0, an input window: the pipeline leaves it as entered
  have h10 : W1 m ρ c (Proc.devRef .tc main_arg0) = W0 m ρ c (Proc.devRef .tc main_arg0) := by
    have hin : (dat0 (V0r m ρ) c).arrAt 0 cfg0.N = (dat0 (V0r m ρ) c).A 0 := (dat0 (V0r m ρ) c).arrAt_in 0 rfl _
    exact (W1_arr m ρ c 0).trans (hin.trans (A_eq0 (V0r m ρ) c 0))
  rw [h43, h32, h21, h10]
theorem W4_main_arg1 (c : Dev nD) : W4 m ρ c (Proc.devRef .tc main_arg1) = m ((c : Thread nD τ).loc main_arg1) := by
  -- the second host stretch writes its two constants, the sum and the quotient: none of them this argument
  have h43 : W4 m ρ c (Proc.devRef .tc main_arg1) = W3 m ρ c (Proc.devRef .tc main_arg1) := by
    refine StableHlo.after_of_forall_not_mem (b := Proc.devRef .tc main_arg1) _ _ fun op hop => ?_
    simp only [hostOps2, List.mem_cons, List.not_mem_nil, or_false] at hop
    rcases hop with rfl | rfl | rfl | rfl <;>
      simp only [StableHlo.nullary_writes, StableHlo.binary_writes, Finset.mem_singleton] <;>
      exact StableHlo.devRef_ne_of_ne (by decide)
  -- region 1 writes its one output array only
  have h32 : W3 m ρ c (Proc.devRef .tc main_arg1) = W2 m ρ c (Proc.devRef .tc main_arg1) :=
    W3_of_ne m ρ c main_arg1 (by decide)
  -- the first host stretch writes the four re-laid arrays only
  have h21 : W2 m ρ c (Proc.devRef .tc main_arg1) = W1 m ρ c (Proc.devRef .tc main_arg1) := by
    refine StableHlo.after_of_forall_not_mem (b := Proc.devRef .tc main_arg1) _ _ fun op hop => ?_
    simp only [hostOps1, List.mem_cons, List.not_mem_nil, or_false] at hop
    rcases hop with rfl | rfl | rfl | rfl <;>
      simp only [StableHlo.reshape_writes, StableHlo.binary_writes, Finset.mem_singleton] <;>
      exact StableHlo.devRef_ne_of_ne (by decide)
  -- the argument is window 1's array of region 0, an input window: the pipeline leaves it as entered
  have h10 : W1 m ρ c (Proc.devRef .tc main_arg1) = W0 m ρ c (Proc.devRef .tc main_arg1) := by
    have hin : (dat0 (V0r m ρ) c).arrAt 1 cfg0.N = (dat0 (V0r m ρ) c).A 1 := (dat0 (V0r m ρ) c).arrAt_in 1 rfl _
    exact (W1_arr m ρ c 1).trans (hin.trans (A_eq0 (V0r m ρ) c 1))
  rw [h43, h32, h21, h10]

/-! ## The proof data family and the thread state -/

abbrev adm1 : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm1 p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m ρ c) ∗ ∃ r, prngReg c r)

end Cert.Kernel.Hand

end
-- ==== Proof.K.Reg0.lean ====
/-
  Region 0 as a segment of @main: entered from every unscoped buffer at the launch contents, left with its two output
  arrays at what the write-backs leave.  Its arrays are split out of the unscoped buffers at entry and put back at exit;
  the generator register goes into the class invariant and comes out; nothing is owed; the kernel has no semaphore of its
  own.
-/
import proofs.«405127_j71124658422130_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 0's exit each of its arrays holds what the write-backs leave there, -/
private theorem hF0 (c : Dev nD) (w : Fin cfg0.W) :
    (dat0 (V0r m ρ) c).arrAt w cfg0.N = V1r m ρ c (Pipeline.arrRef spec0 w) :=
  (W1_arr m ρ c w).symm
/-- and a buffer that is none of its arrays holds what it held at entry. -/
private theorem hrest0 (c : Dev nD) :
    ∀ b, b ∉ Finset.univ.image (Pipeline.arrRef spec0) → V1r m ρ c b = V0r m ρ c b := by
  intro b hb
  refine W1_of_ne m ρ c b fun w hw => hb ?_
  exact Finset.mem_image.mpr ⟨w, Finset.mem_univ w, hw⟩

set_option backward.isDefEq.respectTransparency.types false in
/-- Region 0 over the thread state: entered from every unscoped buffer at the launch contents, left at W1. -/
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    -- the unscoped buffers at the launch contents are the four arrays at the proof data's entry contents (read off
    -- those contents, each a distinct whole buffer at the full share) beside the unscoped rest
    have hsplit := Pipeline.arrays_of_unscopedBufs (p := 0) (pcfgs (F := F)) adm1 (pdats m ρ) launch0.win
      launch0.arr_whole c ((pdats m ρ 0 c).share_full fun _ => rfl) (V0r m ρ c) fun _ => rfl
    rw [Pipeline.unscopedBufs_held] at hsplit
    -- the region has no semaphore of its own and no prefetched table: both are empty products
    have hnotab : (BI.emp : sProp 𝕄) ⊢ Pipeline.prefHeld (pcfgs (F := F) 0).pre c (fun _ => fullShare) (adm1 (F := F) 0).1 := by
      unfold Pipeline.prefHeld
      rw [show (Finset.univ : Finset (Fin 0)) = ∅ from rfl, BI.bigSep_empty]
    rw [Pipeline.ownSems0_none]
    iintro ⟨⟨Hbufs, Hgen, %W, Howes⟩, -, -⟩
    ihave Hparts := hsplit $$ Hbufs
    icases Hparts with ⟨Harrs, Hbypass⟩
    imodintro
    iframe Harrs Hgen Hbypass
    isplitr
    · iapply hnotab; iempintro
    -- nothing is owed, and any recorded set lies within a bound that is everything
    unfold Pipeline.Dat.owesAt Pipeline.owesWithin
    iexists W
    isplitr
    · ipureintro; exact fun _ _ => Or.inl trivial
    · iexact Howes
  hin c := by
    -- the class invariant is the scoped rest beside the generator register at some state
    rw [show (pdats m ρ 0 c).Φ 0 = Pipeline.ΦA spec0 c from rfl]
    unfold Pipeline.ΦA
    iintro ⟨Hgen, -, Hscoped⟩
    iframe
  hout c := by
    rw [show (pdats m ρ 0 c).Φ (Fin.last _) = Pipeline.ΦA spec0 c from rfl, Pipeline.ownSems0_none]
    unfold Pipeline.ΦA
    iintro ⟨Hscoped, Hgen⟩
    iframe Hscoped Hgen
    iempintro
  hexit c := by
    -- the arrays at what the write-backs leave and the unscoped rest as entered are the unscoped buffers at W1
    have hjoin := Pipeline.unscopedBufs_of_arrays (p := 0) (pcfgs (F := F)) adm1 (Ix := Unit) (Name := ℕ)
      (U := UR sig nD τ) (Lvl := ℕ) launch0.win launch0.arr_whole c (pdats m ρ)
      ((pdats m ρ 0 c).share_full fun _ => rfl) (V0r m ρ c) (V1r m ρ c) ((pdats m ρ 0 c).arrAt · cfg0.N)
      (hF0 m ρ c) (hrest0 m ρ c)
    rw [Pipeline.unscopedBufs_held] at hjoin
    unfold Pipeline.Dat.owesAt Pipeline.owesWithin
    iintro ⟨Harrs, ⟨%W, -, Howes⟩, Hgen, Hbypass⟩
    imodintro
    isplitl [Harrs Hbypass]
    · iapply hjoin; iframe
    isplitl [Hgen]
    · iexact Hgen
    · iexists W; iexact Howes

end Cert.Kernel.Hand

end
-- ==== Proof.K.Reg1.lean ====
/-
  Region 1 as a segment of @main: entered from every unscoped buffer at the contents the first host stretch leaves, left with
  its output array at what the write-backs leave.  Two of its windows read ONE array (the stacked rows): at entry that
  buffer, held whole, is split into two halves, one per window; neither window writes, so at exit both halves still hold the
  entry contents and join to the whole again.
-/
import proofs.«405127_j71124658422130_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The unscoped buffers around region 1's arrays

Region 1's windows stand on three distinct buffers: the stacked rows (windows 0 and 1), the paired similarities
(window 2) and the row losses (window 3).  The stacked rows, held whole, are the same contents held at the left half
and at the right half of the full share. -/

section Split

/-- The distinct buffers behind region 1's arrays, one by one. -/
private theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v4) ↦{fullShare} V main_v4)
          ∗ (((c : Thread nD τ).loc main_v5) ↦{fullShare} V main_v5)) := by
  unfold Pipeline.arrBufs
  exact bigSep_eq_bigSepL_of_eq [main_v1, main_v4, main_v5] (by decide) (by decide) _

/-- The split: a core's unscoped buffers at contents V are the stacked rows at each half of the full share, the paired
    similarities and the row losses whole, and the unscoped buffers that are no array of region 1. -/
private theorem bufs_split1 (c : Dev nD) (V : (b : Ref sig .tc) → Buf (Elt F) ((c : Thread nD τ).loc b)) :
    (unscopedBufs (Ix := Unit) (Name := ℕ) (U := UR sig nD τ) (Lvl := ℕ) c V : sProp 𝕄)
      ⊢ iprop(((((c : Thread nD τ).loc main_v1) ↦{fullShare.left} V main_v1) ∗ (((c : Thread nD τ).loc main_v1) ↦{fullShare.right} V main_v1)
          ∗ (((c : Thread nD τ).loc main_v4) ↦{fullShare} V main_v4) ∗ (((c : Thread nD τ).loc main_v5) ↦{fullShare} V main_v5))
          ∗ Pipeline.unscopedRest (Ix := Unit) (Name := ℕ) (U := UR sig nD τ) (Lvl := ℕ) spec1 c V) := by
  have h : (unscopedBufs (Ix := Unit) (Name := ℕ) (U := UR sig nD τ) (Lvl := ℕ) c V : sProp 𝕄)
      = iprop(Pipeline.arrBufs spec1 c V ∗ Pipeline.unscopedRest spec1 c V) :=
    Pipeline.unscopedBufs_split₀ cfgs 1 winFacts₀1.arr_unscoped c V
  rw [h, arrBufs1_eq]
  iintro ⟨⟨H1, H4, H5⟩, Hr⟩
  ihave H := (pointsTo_share (PosShare.mem_left_op_right fullShare)).1 $$ H1
  icases H with ⟨Hl, Hrt⟩
  isplitr [Hr]
  · isplitl [Hl]; · iexact Hl
    isplitl [Hrt]; · iexact Hrt
    isplitl [H4]; · iexact H4
    iexact H5
  iexact Hr

/-- The join: the two halves of the stacked rows at one contents, the paired similarities and the row losses whole, all
    at what V' has there, and the other unscoped buffers at V are a core's unscoped buffers at V', when V' agrees with V
    off region 1's arrays. -/
private theorem bufs_join1 (c : Dev nD) (V V' : (b : Ref sig .tc) → Buf (Elt F) ((c : Thread nD τ).loc b))
    (hrest : ∀ b, b ∉ Finset.univ.image (Pipeline.arrRef spec1) → V' b = V b) :
    iprop(((((c : Thread nD τ).loc main_v1) ↦{fullShare.left} V' main_v1) ∗ (((c : Thread nD τ).loc main_v1) ↦{fullShare.right} V' main_v1)
          ∗ (((c : Thread nD τ).loc main_v4) ↦{fullShare} V' main_v4) ∗ (((c : Thread nD τ).loc main_v5) ↦{fullShare} V' main_v5))
          ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [h, arrBufs1_eq, hr]
  iintro ⟨⟨Hl, Hrt, H4, H5⟩, Hr⟩
  isplitr [Hr]
  · isplitl [Hl Hrt]
    · iapply (pointsTo_share (PosShare.mem_left_op_right fullShare)).2
      isplitl [Hl] <;> iassumption
    isplitl [H4]; · iexact H4
    iexact H5
  iexact Hr

variable (V : (c : Dev nD) → (b : Ref sig .tc) → Buf (Elt F) ((c : Thread nD τ).loc b))

/-- The share each window's array is held at: the left and the right half for the two windows on the stacked rows,
    the full share for the paired similarities and for the output. -/
private theorem share1_0 (c : Dev nD) : (dat1 V c).share 0 = fullShare.left := rfl
private theorem share1_1 (c : Dev nD) : (dat1 V c).share 1 = fullShare.right := rfl
private theorem share1_2 (c : Dev nD) : (dat1 V c).share 2 = fullShare := rfl
private theorem share1_3 (c : Dev nD) : (dat1 V c).share 3 = fullShare := rfl

/-- Region 1's arrays at contents G, window by window: the two halves of the stacked rows, the paired similarities, the
    row losses, each a whole buffer. -/
private theorem arrays1_eq (c : Dev nD) (G : (w : Fin cfg1.W) → Buf (Elt F) ((cfg1.win w).arr.view.loc (c : Thread nD τ)))
    (A₀ A₁ : Buf (Elt F) ((c : Thread nD τ).loc main_v1)) (B : Buf (Elt F) ((c : Thread nD τ).loc main_v4))
    (C : Buf (Elt F) ((c : Thread nD τ).loc main_v5)) (h0 : G 0 = A₀) (h1 : G 1 = A₁) (h2 : G 2 = B) (h3 : G 3 = C) :
    ((dat1 V c).arrays G : sProp 𝕄)
      = iprop((((c : Thread nD τ).loc main_v1) ↦{fullShare.left} A₀) ∗ (((c : Thread nD τ).loc main_v1) ↦{fullShare.right} A₁)
          ∗ (((c : Thread nD τ).loc main_v4) ↦{fullShare} B) ∗ (((c : Thread nD τ).loc main_v5) ↦{fullShare} C)) := by
  subst h0 h1 h2 h3
  unfold Dat.arrays
  rw [bigSep_W1]
  rw [share1_0, share1_1, share1_2, share1_3]
  -- windows 0 and 1 stand on one memref: one rewrite serves both
  rw [show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ]

end Split

variable (m : (ℓ : Loc nD τ sig) → Buf (Elt F) ℓ) (ρ : Dev nD → PrngReg)

set_option backward.isDefEq.respectTransparency.types false in
/-- Region 1 over the thread state: entered from every unscoped buffer at W2, left at W3. The array of stacked rows is
    split between the two windows that read it and joined again at the exit. -/
def reg1 : Pipeline.RegionSeg (pcfgs (F := F)) adm1 (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := bufs_split1 (F := F) c (V2r m ρ c)
    rw [Pipeline.unscopedBufs_held] at hsplit
    have harr : ((pdats m ρ 1 c).arrays ((pdats m ρ 1 c).arrAt · 0) : sProp 𝕄)
        = iprop((((c : Thread nD τ).loc main_v1) ↦{fullShare.left} V2r m ρ c main_v1) ∗ (((c : Thread nD τ).loc main_v1) ↦{fullShare.right} V2r m ρ c main_v1)
          ∗ (((c : Thread nD τ).loc main_v4) ↦{fullShare} V2r m ρ c main_v4) ∗ (((c : Thread nD τ).loc main_v5) ↦{fullShare} V2r m ρ c main_v5)) :=
      arrays1_eq (V2r m ρ) c _ _ _ _ _ rfl rfl rfl rfl
    rw [harr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have h0 : (pdats m ρ 1 c).arrAt 0 cfg1.N = V3r m ρ c main_v1 :=
      ((dat1 (V2r m ρ) c).arrAt_in 0 rfl _).trans (W3_of_ne m ρ c main_v1 (by decide)).symm
    have h1 : (pdats m ρ 1 c).arrAt 1 cfg1.N = V3r m ρ c main_v1 :=
      ((dat1 (V2r m ρ) c).arrAt_in 1 rfl _).trans (W3_of_ne m ρ c main_v1 (by decide)).symm
    have h2 : (pdats m ρ 1 c).arrAt 2 cfg1.N = V3r m ρ c main_v4 :=
      ((dat1 (V2r m ρ) c).arrAt_in 2 rfl _).trans (W3_of_ne m ρ c main_v4 (by decide)).symm
    have h3 : (pdats m ρ 1 c).arrAt 3 cfg1.N = V3r m ρ c main_v5 := (W3_out m ρ c).symm
    have harr : ((pdats m ρ 1 c).arrays ((pdats m ρ 1 c).arrAt · (Pipeline.pin (pcfgs (F := F)) adm1 1).N) : sProp 𝕄)
        = iprop((((c : Thread nD τ).loc main_v1) ↦{fullShare.left} V3r m ρ c main_v1) ∗ (((c : Thread nD τ).loc main_v1) ↦{fullShare.right} V3r m ρ c main_v1)
          ∗ (((c : Thread nD τ).loc main_v4) ↦{fullShare} V3r m ρ c main_v4) ∗ (((c : Thread nD τ).loc main_v5) ↦{fullShare} V3r m ρ c main_v5)) :=
      arrays1_eq (V2r m ρ) c _ _ _ _ _ h0 h1 h2 h3
    have hjoin := bufs_join1 (F := F) c (V2r m ρ c) (V3r m ρ c)
      (fun b hb => W3_of_ne m ρ c b fun e => hb (Finset.mem_image.mpr ⟨3, Finset.mem_univ _, e.symm⟩))
    rw [Pipeline.unscopedBufs_held] at hjoin
    rw [harr]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Launch.lean ====
/-
  The launch: @main is region 0, a host stretch, region 1, a host stretch; given ANY two region records entered from and
  left at the boundary thread states, every weakly fair execution terminates with every unscoped buffer at the last
  boundary's contents.
-/
import proofs.«405127_j71124658422130_3_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (R0 : Pipeline.RegionSeg (pcfgs (F := F)) adm1 (pdats m ρ) () defs₀ 𝒱₀ L lv 0)
  (R1 : Pipeline.RegionSeg (pcfgs (F := F)) adm1 (pdats m ρ) () defs₀ 𝒱₀ L lv 1)

/-- @main's four segments in order. -/
abbrev segs : List (Pipeline.Seg (pcfgs (F := F)) adm1 (pdats m ρ) () defs₀ 𝒱₀ L lv) :=
  [ .region R0,
    .host (hseg hostOps1 hostOps1_sub hostOps1_fresh' (W1 m ρ)),
    .region R1,
    .host (hseg hostOps2 hostOps2_sub hostOps2_fresh' (W3 m ρ)) ]
theorem main_run (c : Dev nD) : main (F := F) c = Pipeline.Seg.run (segs m ρ R0 R1) := (main_chain c).trans (by chain_rfl)

set_option backward.isDefEq.respectTransparency.types false in
/-- THE RUN, for any two region records whose entry and exit states are the boundary states. -/
theorem run_all_of
    (hpre0 : ∀ c : Dev nD, iprop(StableHlo.held (c : Thread nD τ) (Pipeline.ucRefs τ sig) (W0 m ρ c) ∗ R c) ⊢ R0.pre c)
    (hpost0 : ∀ c : Dev nD, R0.post c ⊢ iprop(StableHlo.held (c : Thread nD τ) (Pipeline.ucRefs τ sig) (W1 m ρ c) ∗ R c))
    (hpre1 : ∀ c : Dev nD, iprop(StableHlo.held (c : Thread nD τ) (Pipeline.ucRefs τ sig) (W2 m ρ c) ∗ R c) ⊢ R1.pre c)
    (hpost1 : ∀ c : Dev nD, R1.post c ⊢ iprop(StableHlo.held (c : Thread nD τ) (Pipeline.ucRefs τ sig) (W3 m ρ c) ∗ R c)) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  -- The first boundary state: every unscoped buffer at the launch contents, beside the register and empty dues.
  let T₀ : Dev nD → sProp 𝕄 := fun c =>
    iprop(StableHlo.held (c : Thread nD τ) (Pipeline.ucRefs τ sig) (W0 m ρ c) ∗ R c)
  -- The launch memory's unscoped buffers are the unscoped set held at W0, which reads the launch memory.
  have hbufs : ∀ c : Dev nD,
      (unscopedBufs c (fun b => m ((c : Thread nD τ).loc b)) : sProp 𝕄)
        = StableHlo.held (c : Thread nD τ) (Pipeline.ucRefs τ sig) (W0 m ρ c) :=
    fun c => Pipeline.unscopedBufs_held c (W0 m ρ c)
  -- What the launch deals one core makes T₀ there: the buffers as they are, the register at its launch state,
  -- the dues empty; the semaphores at zero, the launch credit and the level facts are not needed.
  have hstart : ∀ c : Dev nD,
      iprop((unscopedBufs c (fun b => m ((c : Thread nD τ).loc b)) ∗ unscopedSems0 c
          ∗ owes (c : Thread nD τ) ((0 : Dev nD → CellTallies nD τ sig Unit) c) ∅
          ∗ Pipeline.launchCred (0 : Dev nD → CellTallies nD τ sig Unit) c ∗ prngReg c (ρ c) ∗ (emp : sProp 𝕄)) ∗ levAts L lv)
        ⊢ (|={Set.univ}=> T₀ c : sProp 𝕄) := fun c => by
    rw [hbufs c]
    iintro ⟨⟨Hbufs, -, Hdues, -, Hreg, -⟩, -⟩
    imodintro
    isplitl [Hbufs]
    · iexact Hbufs
    isplitl [Hreg]
    · iexists (ρ c); iexact Hreg
    · iexists ∅; iexact Hdues
  -- The last link. The second host stretch leaves held (W4) ∗ (register ∗ dues); the chain must end at
  -- (held (W4) ∗ register) beside the dues alone: reassociate.
  have hlast : ∀ c : Dev nD,
      iprop(StableHlo.held (c : Thread nD τ) (Pipeline.ucRefs τ sig) (W4 m ρ c) ∗ R c)
        ⊢ iprop(Tₙ m ρ c ∗ ∃ W, owes (c : Thread nD τ) (0 : CellTallies nD τ sig Unit) W) := fun c => by
    iintro ⟨Hbufs, Hreg, Hdues⟩
    isplitr [Hdues]
    · isplitl [Hbufs]
      · iexact Hbufs
      · iexact Hreg
    · iexact Hdues
  -- The end: the last state's points-to facts, read against a final state, say its memory holds W4 at each
  -- unscoped buffer.
  have hend : ∀ (c : Dev nD) (s' : Phys nD τ sig (Elt F)),
      iprop(Tₙ m ρ c ∗ SI s') ⊢ (|={Set.univ}=> iprop(⌜∀ b ∈ Pipeline.ucRefs τ sig,
          s'.mem.mem (((c : Thread nD τ)).1, b) = W4 m ρ c b⌝ ∗ SI s') : sProp 𝕄) := fun c s' => by
    have hread : iprop(StableHlo.held (c : Thread nD τ) (Pipeline.ucRefs τ sig) (W4 m ρ c) ∗ SI s')
        ⊢ (iprop(⌜∀ b ∈ Pipeline.ucRefs τ sig, s'.mem.mem (((c : Thread nD τ)).1, b) = W4 m ρ c b⌝ ∗ SI s') : sProp 𝕄) :=
      pointsTo_read_all (Pipeline.ucRefs τ sig) (fun b => (((c : Thread nD τ)).1, b)) (W4 m ρ c) s'
    iintro ⟨⟨Hbufs, -⟩, HSI⟩
    imodintro
    iapply hread
    isplitl [Hbufs]
    · iexact Hbufs
    · iexact HSI
  -- The launch element is the rounds schedule over every pipeline's staging cells, owned whole; no ghost
  -- resource is left beside it.
  have hown : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
    rw [BI.bigSep_emp_const, ownU_emb₁]
    iintro Hu
    imodintro
    isplitl [Hu]
    · iexact Hu
    · iempintro
  exact Pipeline.θ_run_regions_kit (pcfgs (F := F)) adm1 (pdats m ρ) () cellOf_inj emb₁ defs₀ 𝒱₀ L lv m ρ main
    (segs m ρ R0 R1)
    (fun c Q => by rw [main_run m ρ R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hown)
    (T₀ := T₀) (Tₙ := Tₙ m ρ)
    (hch := ⟨hpre0, hpost0, hpre1, hpost1, hlast⟩)
    (hinit := Pipeline.initEach L lv hstart)
    (QY := fun c s => ∀ b ∈ Pipeline.ucRefs τ sig, s.mem (((c : Thread nD τ)).1, b) = W4 m ρ c b)
    (hfin := hend)
    (hQ := fun s h c => h c)

end Cert.Kernel.Hand

end
-- ==== Proof.K.Main.lean ====
/-
  The run of @main with both region records in place: every weakly fair execution terminates with every unscoped buffer
  at the last boundary's contents; hence the arguments end as launched (the frame) and the result buffer ends at the last
  boundary's contents of it (the value, read elsewhere).
-/
import proofs.«405127_j71124658422130_3_alg».proof.Proof.K.Reg0
import proofs.«405127_j71124658422130_3_alg».proof.Proof.K.Reg1
import proofs.«405127_j71124658422130_3_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  run_all_of m ρ (reg0 m ρ) (reg1 m ρ) (fun _ => .rfl) (fun _ => .rfl) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m ρ c),
    (h c _ (mem_uc main_arg1 (by decide))).trans (W4_main_arg1 m ρ c)⟩) (run_all m ρ)

/-- The same run with the result named. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v7 (by decide)),
    (h c _ (mem_uc main_arg0 (by decide))).trans (W4_main_arg0 m ρ c),
    (h c _ (mem_uc main_arg1 (by decide))).trans (W4_main_arg1 m ρ c)⟩) (run_all m ρ)

end Cert.Kernel.Hand

end
-- ==== Proof.KI.R0.lean ====
/-
  Region 0 (the normalisation kernel, grid of 4 points, point t = row block t of 1024 rows), at the buffer contents V the
  region is entered from.  The body loads its two input blocks whole, stores the two normalised blocks into the two
  leading slices of its first output buffer and the row-wise inner products into its second, and reads nothing it
  wrote: one control case, every output buffer covered by the point's own stores.
-/
import proofs.«405127_j71124658422130_3_alg».proof.Proof.Gen.KernelIdeal.Launch
import proofs.«405127_j71124658422130_3_alg».proof.Proof.Gen.KernelIdeal.Skeleton
import proofs.«405127_j71124658422130_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two slices of the first output buffer: slice 0 takes the first input's normalised block, slice 1 the second's. -/
abbrev rA0 : Rect S2x1024x512 := Rect.unit (s := S2x1024x512) ![0, 0, 0] S1x1024x512.size inb_S2x1024x512_S1x1024x512_0_0_0
abbrev rB0 : Rect S2x1024x512 := Rect.unit (s := S2x1024x512) ![1, 0, 0] S1x1024x512.size inb_S2x1024x512_S1x1024x512_1_0_0
abbrev rC0 : Rect S1024x1 := Rect.unit (s := S1024x1) ![0, 0] S1024x1.size inb_S1024x1_S1024x1_0_0

/-- What the body leaves in the first output's buffer, from the two input blocks: its two stores, last first. -/
def out0_2 (x0 x1 : Vec F S1024x512 .f32) : Vec F S2x1024x512 .bf16 :=
  View.canon [⟨rB0, k0_pay4 x1⟩, ⟨rA0, k0_pay3 x0⟩]
/-- What it leaves in the second output's buffer: its one store. -/
def out0_3 (x0 x1 : Vec F S1024x512 .f32) : Vec F S1024x1 .f32 :=
  View.canon [⟨rC0, k0_pay5 x0 x1⟩]

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-! ## The inputs' blocks in their staging buffers -/

/-- The first input's current buffer holds its block at every point, whether fetched there or carried over: the
    window is uncut and has no idle point, and the body leaves the block where it found it. -/
private theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := by
    intro t; rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The second input's, likewise. -/
private theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := by
    intro t; rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

private theorem before0_0 (c : Dev nD) (t : Fin cfg0.N) (d) : (dat0 V c).before 0 t d = iblk0 V c 0 t :=
  before0_0_of V (dat0 V c) (A_eq0 V c 0) (after0_0 V c) t d
private theorem before0_1 (c : Dev nD) (t : Fin cfg0.N) (d) : (dat0 V c).before 1 t d = iblk0 V c 1 t :=
  before0_1_of V (dat0 V c) (A_eq0 V c 1) (after0_1 V c) t d

/-! ## The stores cover their buffers -/

/-- The two slices tile the first output's buffer. -/
private theorem cover0_2 (p0 p1 : Vec F S1x1024x512 .bf16) (y : S2x1024x512.Idx) :
    ∃ pc ∈ ([⟨rB0, p1⟩, ⟨rA0, p0⟩] : List (View.Piece (Elt F) S2x1024x512 .bf16)), y ∈ pc.1.set :=
  View.cover_of_tiled [⟨rB0, p1⟩, ⟨rA0, p0⟩] S1x1024x512.size (by rfl) y

/-- The one whole store tiles the second output's. -/
private theorem cover0_3 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

/-! ## A whole load reads the contents -/

/-- A load of an input's whole staging buffer, through the rectangle of the buffer's own sizes at zero offsets, reads
    what the buffer holds. -/
private theorem readAt_whole0 {κ : Kind} {sp : Space} (v : View sig κ sp S1024x512 .f32) (f : v.ty.Contents (Elt F)) :
    View.readAt (Elt F) v (Rect.unit (s := S1024x512) ![0, 0] S1024x512.size inb_S1024x512_S1024x512_0_0).toLoadRect f
      = View.read (Elt F) v f := by
  have hz : (![0, 0] : Fin S1024x512.rank → ℕ) = fun _ => 0 := by
    funext a; fin_cases a <;> rfl
  exact View.ld_unit_zero (S := S1024x512) hz inb_S1024x512_S1024x512_0_0 (View.read (Elt F) v f)

/-! ## The body's triple -/

set_option maxHeartbeats 1000000 in
/-- On whole staging memrefs, the inputs' at contents x0, x1 and the outputs' at anything, the kernel runs to the
    continuation holding the inputs' as they were and the outputs' at out0_2 x0 x1 and out0_3 x0 x1. -/
private theorem sound_kernel0 (c : Dev nD) (E : Set ℕ) (i : grid0.Coords)
    (arg1 : Memref sig .tc .vmem S1024x512 .f32) (harg1 : arg1.IsWhole)
    (arg2 : Memref sig .tc .vmem S1024x512 .f32) (harg2 : arg2.IsWhole)
    (arg3 : Memref sig .tc .vmem S2x1024x512 .bf16) (harg3 : arg3.IsWhole)
    (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__norm_kernel i arg1 harg1 arg2 harg2 arg3 harg3 arg4 harg4) K := by
  simp only [cc0__norm_kernel_eq_skeleton]; unfold cc0__norm_kernel_skel
  unfold owns
  iintro ⟨⟨%f1, %hf1, H1⟩, ⟨%f2, %hf2, H2⟩, ⟨%d3, %f3, -, H3⟩, ⟨%d4, %f4, -, H4⟩, Hk⟩
  subst hf1
  subst hf2
  sl_exec
  sl_step
  iapply Hk
  isplitl [H1]
  · iexists f1; isplitr
    · ipureintro; rfl
    · iexact H1
  isplitl [H2]
  · iexists f2; isplitr
    · ipureintro; rfl
    · iexact H2
  isplitl [H3]
  · iexists _; isplitr
    swap
    · iexact H3
    ipureintro
    rw [readAt_whole0, readAt_whole0]
    exact View.read_writes_eq_canon _ _ _ (cover0_2 _ _)
  iexists _; isplitr
  swap
  · iexact H4
  ipureintro
  rw [readAt_whole0, readAt_whole0]
  exact View.read_writes_eq_canon _ _ _ (cover0_3 _)

/-! ## The body obligation at a point -/

/-- What the body is handed at point t: the invariant, what is owed, and the four windows' current buffers. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and
    the debt are not read and pass through. -/
private theorem sound_body0 (c : Dev nD) (t : Fin cfg0.N) :
    bodyPre0 V c t ⊢ wp frame (wpE (defs₀ (F := F)) Variants.none c none) Set.univ (bodyAt0 t) (fun _ => bodyPost0 V c t) := by
  have hΦ : (dat0 V c).Φ t.succ = (dat0 V c).Φ t.castSucc := rfl
  have ho : (dat0 V c).owesAt () t.succ = (dat0 V c).owesAt () t.castSucc := rfl
  unfold bodyPre0 bodyPost0 bodyAt0
  simp only [before0_0, before0_1]
  rw [hΦ, ho, after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]
  · iexact H0
  isplitl [H1]
  · iexact H1
  isplitl [H2]
  · iexists _; iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The body obligation of region 0, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.R1Defs.lean ====
/-
  Region 1 (the similarity kernel, grid 4 × 8, point t = 8·i + j): the four conditions of its body in closed
  form over the grid, where its output window is idle and where it is written back, and names for the memrefs the
  pipeline passes the body at a point.  Row block i holds rows 2048·i … 2048·i + 2047 of the 8192 normalised rows,
  column block j rows 1024·j … 1024·j + 1023; the two ranges meet exactly when j / 2 = i.
-/
import proofs.«405127_j71124658422130_3_alg».proof.Proof.Gen.KernelIdeal.Launch
import proofs.«405127_j71124658422130_3_alg».proof.Proof.Gen.KernelIdeal.Skeleton
import proofs.«405127_j71124658422130_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's four conditions -/

/-- j = 0: the accumulator is reset. -/
abbrev cFirst (i : grid1.Coords) : Prop :=
  (Scalar.cmpi .ne (Scalar.extui (Scalar.cmpi .eq (BitVec.ofNat 32 (i 1).val) 0#32)) 0#32) = 1#1
/-- The row range of block i and the column range of block j overlap: the tile may hold diagonal entries. -/
abbrev ovBit (i : grid1.Coords) : BitVec 1 :=
  Scalar.andi (Scalar.cmpi .slt (Scalar.muli (BitVec.ofNat 32 (i 0).val) 2048#32) (Scalar.muli (Scalar.addi (BitVec.ofNat 32 (i 1).val) 1#32) 1024#32))
    (Scalar.cmpi .slt (Scalar.muli (BitVec.ofNat 32 (i 1).val) 1024#32) (Scalar.muli (Scalar.addi (BitVec.ofNat 32 (i 0).val) 1#32) 2048#32))
abbrev cOv (i : grid1.Coords) : Prop := (Scalar.cmpi .ne (Scalar.extui (ovBit i)) 0#32) = 1#1
/-- The complementary branch. -/
abbrev cNov (i : grid1.Coords) : Prop := (Scalar.cmpi .ne (Scalar.extui (Scalar.xori (ovBit i) 1#1)) 0#32) = 1#1
/-- j = 7: the epilogue stores the output block. -/
abbrev cLast (i : grid1.Coords) : Prop := k1_cond4 i = 1#1

theorem hcFirst : ∀ t : Fin cfg1.N, cFirst (grid1.coords t) ↔ t.val % 8 = 0 :=
  (by decide +kernel : ∀ t : Fin grid1.N, cFirst (grid1.coords t) ↔ t.val % 8 = 0)
theorem hcOv : ∀ t : Fin cfg1.N, cOv (grid1.coords t) ↔ (t.val % 8) / 2 = t.val / 8 :=
  (by decide +kernel : ∀ t : Fin grid1.N, cOv (grid1.coords t) ↔ (t.val % 8) / 2 = t.val / 8)
theorem hcNov : ∀ t : Fin cfg1.N, cNov (grid1.coords t) ↔ ¬ (t.val % 8) / 2 = t.val / 8 :=
  (by decide +kernel : ∀ t : Fin grid1.N, cNov (grid1.coords t) ↔ ¬ (t.val % 8) / 2 = t.val / 8)
theorem hcLast : ∀ t : Fin cfg1.N, cLast (grid1.coords t) ↔ t.val % 8 = 7 :=
  (by decide +kernel : ∀ t : Fin grid1.N, cLast (grid1.coords t) ↔ t.val % 8 = 7)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬ cLast (grid1.coords t) → cfg1.idle 3 (grid1.coords t) = true := by decide +kernel
theorem noFlush1_3 : ∀ t : Fin cfg1.N, ¬ cLast (grid1.coords t) → (cfg1.win 3).flush t = false := by decide +kernel
theorem liveAt1_3 : ∀ t : Fin cfg1.N, cLast (grid1.coords t) → cfg1.idle 3 (grid1.coords t) = false := by decide +kernel

/-! ## The memrefs the pipeline passes the body at point t -/

abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1 : Memref sig .tc .vmem S2048x1 .f32 := Memref.whole cc1_scratch0

/-- The class invariant of region 1 with the accumulator as a memref owned at some contents. -/
theorem PhiA1_eq (c : Dev nD) :
    (Pipeline.ΦA spec1 c : sProp 𝕄)
      = iprop(iprop((∃ f0 : Buf (Elt F) ((c : Thread nD τ).loc cc0_stg0_0), ((c : Thread nD τ).loc cc0_stg0_0) ↦{fullShare} f0) ∗ (∃ f1 : Buf (Elt F) ((c : Thread nD τ).loc cc0_stg0_1), ((c : Thread nD τ).loc cc0_stg0_1) ↦{fullShare} f1) ∗ (∃ f2 : Buf (Elt F) ((c : Thread nD τ).loc cc0_stg1_0), ((c : Thread nD τ).loc cc0_stg1_0) ↦{fullShare} f2) ∗ (∃ f3 : Buf (Elt F) ((c : Thread nD τ).loc cc0_stg1_1), ((c : Thread nD τ).loc cc0_stg1_1) ↦{fullShare} f3) ∗ (∃ f4 : Buf (Elt F) ((c : Thread nD τ).loc cc0_stg2_0), ((c : Thread nD τ).loc cc0_stg2_0) ↦{fullShare} f4) ∗ (∃ f5 : Buf (Elt F) ((c : Thread nD τ).loc cc0_stg2_1), ((c : Thread nD τ).loc cc0_stg2_1) ↦{fullShare} f5) ∗ (∃ f6 : Buf (Elt F) ((c : Thread nD τ).loc cc0_stg3_0), ((c : Thread nD τ).loc cc0_stg3_0) ↦{fullShare} f6) ∗ (∃ f7 : Buf (Elt F) ((c : Thread nD τ).loc cc0_stg3_1), ((c : Thread nD τ).loc cc0_stg3_1) ↦{fullShare} f7) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KI.R1RunA.lean ====
/-
  The similarity kernel's body run once, in the control case where j = 0 and the tile meets the diagonal (the grid's first point): the accumulator is reset, then takes the masked row sums; the output window is left as handed.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- j = 0 and the tile meets the diagonal (the grid's first point): the accumulator is reset, then takes the masked row sums; the output window is left as handed. -/
theorem run1_A (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : cFirst i) (h2 : cOv i) (h3 : ¬ cNov i) (h4 : ¬ cLast i)
    (x0 : Vec F S2048x512 .bf16) (x1 : Vec F S1024x512 .bf16) (x2 : Vec F S2048x1 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay3 i x0 x1 (k1_pay1 (F := F)))) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32)
      (L : List (View.Piece (Elt F) S2048x1 .f32)),
      v.read (Elt F) (v.writes (Elt F) f ((⟨Rect.unit ![0, 0] S2048x1.size inb_S2048x1_S2048x1_0_0, w⟩ : View.Piece (Elt F) S2048x1 .f32) :: L)) = w := by
    intro v f w L
    have hcov : ∀ y : S2048x1.Idx, ∃ p ∈ ((⟨Rect.unit (s := S2048x1) ![0, 0] S2048x1.size inb_S2048x1_S2048x1_0_0, w⟩ : View.Piece (Elt F) S2048x1 .f32) :: L), y ∈ p.1.set :=
      fun y => ⟨_, List.mem_cons.mpr (Or.inl rfl), View.mem_set_unit_zero (S := S2048x1) hz inb_S2048x1_S2048x1_0_0 y⟩
    rw [View.read_writes_eq_canon v f _ hcov]
    exact View.canon_cons_unit_zero (S := S2048x1) hz inb_S2048x1_S2048x1_0_0 w L
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap
  · iexact HS
  ipureintro
  rw [hww]
  sl_unfold_run_names
  rw [View.readCov_unit_zero (S := S2048x1) arg6.view hz inb_S2048x1_S2048x1_0_0]
  simp only [View.readAt_eq_ld]
  rw [harg2.read_unread, harg3.read_unread,
    View.ld_unit_zero (S := S2048x512) hz, View.ld_unit_zero (S := S1024x512) hz]

end Cert.KernelIdeal.Hand

end
-- ==== Proof.KI.R1RunB.lean ====
/-
  The similarity kernel's body run once, in the control case where j = 0 and the tile lies off the diagonal: the accumulator is reset, then takes the plain row sums; the output window is left as handed.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- A store covering the buffer, made last, leaves its payload whatever the earlier stores were. -/
private theorem read_store_whole_cons (v : View sig .tc .vmem S2048x1 .f32) (f : v.ty.Contents (Elt F))
    (w : S2048x1.Idx → Elt F .f32) (L : List (View.Piece (Elt F) S2048x1 .f32)) :
    v.read (Elt F) (v.writes (Elt F) f
      ((⟨Rect.unit ![0, 0] S2048x1.size inb_S2048x1_S2048x1_0_0, w⟩ : View.Piece (Elt F) S2048x1 .f32) :: L)) = w := by
  rw [View.read_writes_eq_canon _ _ _
      (fun y => ⟨_, List.mem_cons_self, View.mem_set_unit_zero off0_a inb_S2048x1_S2048x1_0_0 y⟩),
    View.canon_cons_unit_zero off0_a]

/-- A load of the whole buffer after one store covering it reads that store's payload. -/
private theorem readCov_whole (v : View sig .tc .vmem S2048x1 .f32) (w : S2048x1.Idx → Elt F .f32) :
    v.readCov [(⟨Rect.unit ![0, 0] S2048x1.size inb_S2048x1_S2048x1_0_0, w⟩ : View.Piece (Elt F) S2048x1 .f32)]
      (Rect.unit ![0, 0] S2048x1.size inb_S2048x1_S2048x1_0_0).toLoadRect = w :=
  View.readCov_unit_zero v off0_a _ w

/-- A load through the whole-buffer rectangle reads the contents. -/
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- j = 0 and the tile lies off the diagonal: the accumulator is reset, then takes the plain row sums; the output window is left as handed. -/
theorem run1_B (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : cFirst i) (h2 : ¬ cOv i) (h3 : cNov i) (h4 : ¬ cLast i)
    (x0 : Vec F S2048x512 .bf16) (x1 : Vec F S1024x512 .bf16) (x2 : Vec F S2048x1 .f32) (xi3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay4 x0 x1 (k1_pay1 (F := F)))) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap
  · iexact HS
  · ipureintro
    sl_unfold_words
    refine (read_store_whole_cons _ _ _ _).trans ?_
    rw [readCov_whole, View.readAt_eq_ld, View.readAt_eq_ld, harg2.read_unread, harg3.read_unread,
      ld_whole_b, ld_whole_c]

end Cert.KernelIdeal.Hand

end
-- ==== Proof.KI.R1RunC.lean ====
/-
  The similarity kernel's body run once, in the control case where 0 < j < 7 and the tile meets the diagonal: the masked row sums are added to what the point before left; the output window is left as handed.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- 0 < j < 7 and the tile meets the diagonal: the masked row sums are added to what the point before left; the output window is left as handed. -/
theorem run1_C (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : cOv i) (h3 : ¬ cNov i) (h4 : ¬ cLast i)
    (x0 : Vec F S2048x512 .bf16) (x1 : Vec F S1024x512 .bf16) (x2 : Vec F S2048x1 .f32) (xi3 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay3 i x0 x1 xs)) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32),
      v.read (Elt F) (v.writes (Elt F) f [(⟨Rect.unit ![0, 0] S2048x1.size inb_S2048x1_S2048x1_0_0, w⟩ : View.Piece (Elt F) S2048x1 .f32)]) = w := by
    intro v f w
    have hcov : ∀ y : S2048x1.Idx, ∃ p ∈ [(⟨Rect.unit (s := S2048x1) ![0, 0] S2048x1.size inb_S2048x1_S2048x1_0_0, w⟩ : View.Piece (Elt F) S2048x1 .f32)], y ∈ p.1.set :=
      fun y => ⟨_, List.mem_singleton_self _, View.mem_set_unit_zero (S := S2048x1) hz inb_S2048x1_S2048x1_0_0 y⟩
    rw [View.read_writes_eq_canon v f _ hcov]
    exact View.canon_unit_zero (S := S2048x1) hz inb_S2048x1_S2048x1_0_0 w
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  iexists _; isplitr
  swap
  · iexact HS
  ipureintro
  rw [hww]
  simp only [View.readAt_eq_ld]
  rw [harg2.read_unread, harg3.read_unread, hfs,
    View.ld_unit_zero (S := S2048x512) hz, View.ld_unit_zero (S := S1024x512) hz, View.ld_unit_zero (S := S2048x1) hz]

end Cert.KernelIdeal.Hand

end
-- ==== Proof.KI.R1RunD.lean ====
/-
  The similarity kernel's body run once, in the control case where 0 < j < 7 and the tile lies off the diagonal: the plain row sums are added to what the point before left; the output window is left as handed.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- One store covering the buffer leaves its payload, whatever the buffer held before. -/
private theorem read_store_whole (v : View sig .tc .vmem S2048x1 .f32) (f : v.ty.Contents (Elt F))
    (w : S2048x1.Idx → Elt F .f32) :
    v.read (Elt F) (v.writes (Elt F) f
      [(⟨Rect.unit ![0, 0] S2048x1.size inb_S2048x1_S2048x1_0_0, w⟩ : View.Piece (Elt F) S2048x1 .f32)]) = w := by
  rw [View.read_writes_eq_canon _ _ _
      (fun y => ⟨_, List.mem_singleton_self _, View.mem_set_unit_zero off0_a inb_S2048x1_S2048x1_0_0 y⟩),
    View.canon_unit_zero off0_a]

/-- A load through the whole-buffer rectangle reads the contents. -/
private theorem ld_whole_a (X : S2048x1.Idx → Elt F .f32) :
    View.ld X (Rect.unit ![0, 0] S2048x1.size inb_S2048x1_S2048x1_0_0) = X := View.ld_unit_zero off0_a _ X
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- 0 < j < 7 and the tile lies off the diagonal: the plain row sums are added to what the point before left; the output window is left as handed. -/
theorem run1_D (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : ¬ cOv i) (h3 : cNov i) (h4 : ¬ cLast i)
    (x0 : Vec F S2048x512 .bf16) (x1 : Vec F S1024x512 .bf16) (x2 : Vec F S2048x1 .f32) (xi3 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay4 x0 x1 xs)) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap
  · iexact HS
  · ipureintro
    refine (read_store_whole _ _ _).trans ?_
    rw [View.readAt_eq_ld, View.readAt_eq_ld, View.readAt_eq_ld, harg2.read_unread, harg3.read_unread, harg6.read_unread,
      ld_whole_a, ld_whole_b, ld_whole_c]

end Cert.KernelIdeal.Hand

end
-- ==== Proof.KI.R1RunE.lean ====
/-
  The similarity kernel's body run once, in the control case where j = 7 and the tile meets the diagonal (the grid's last point): the masked row sums are added, and the output block is stored from the positives block and the finished accumulator.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- j = 7 and the tile meets the diagonal (the grid's last point): the masked row sums are added, and the output block is stored from the positives block and the finished accumulator. -/
theorem run1_E (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : cOv i) (h3 : ¬ cNov i) (h4 : cLast i)
    (x0 : Vec F S2048x512 .bf16) (x1 : Vec F S1024x512 .bf16) (x2 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 x2 (k1_pay3 i x0 x1 xs)) ∗ owns (c : Thread nD τ) arg6 fullShare (k1_pay3 i x0 x1 xs)) -∗ K ⟨⟩))
      ⊢ wp frame (wpE (defs₀ (F := F)) Variants.none c none) E (cc1__sim_kernel i arg2 harg2 arg3 harg3 arg4 harg4 arg5 harg5 arg6 harg6) K := by
  have hz : (![0, 0] : Fin 2 → Nat) = fun _ => 0 := funext fun a => by fin_cases a <;> rfl
  have hww : ∀ (v : View sig .tc .vmem S2048x1 .f32) (f : v.ty.Contents (Elt F)) (w : S2048x1.Idx → Elt F .f32)
      (L : List (View.Piece (Elt F) S2048x1 .f32)),
      v.read (Elt F) (v.writes (Elt F) f ((⟨Rect.unit ![0, 0] S2048x1.size inb_S2048x1_S2048x1_0_0, w⟩ : View.Piece (Elt F) S2048x1 .f32) :: L)) = w := by
    intro v f w L
    have hcov : ∀ y : S2048x1.Idx, ∃ p ∈ ((⟨Rect.unit (s := S2048x1) ![0, 0] S2048x1.size inb_S2048x1_S2048x1_0_0, w⟩ : View.Piece (Elt F) S2048x1 .f32) :: L), y ∈ p.1.set :=
      fun y => ⟨_, List.mem_cons.mpr (Or.inl rfl), View.mem_set_unit_zero (S := S2048x1) hz inb_S2048x1_S2048x1_0_0 y⟩
    rw [View.read_writes_eq_canon v f _ hcov]
    exact View.canon_cons_unit_zero (S := S2048x1) hz inb_S2048x1_S2048x1_0_0 w L
  simp only [cc1__sim_kernel_eq_skeleton]; unfold cc1__sim_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap
    · iexact H3
    ipureintro
    sl_unfold_run_names
    rw [hww, View.readCov_unit_zero (S := S2048x1) arg6.view hz inb_S2048x1_S2048x1_0_0]
    simp only [View.readAt_eq_ld]
    rw [harg2.read_unread, harg3.read_unread, harg4.read_unread, hfs,
      View.ld_unit_zero (S := S2048x512) hz, View.ld_unit_zero (S := S1024x512) hz, View.ld_unit_zero (S := S2048x1) hz,
      View.ld_unit_zero (S := S2048x1) hz]
  iexists _; isplitr
  swap
  · iexact HS
  ipureintro
  sl_unfold_run_names
  rw [hww]
  simp only [View.readAt_eq_ld]
  rw [harg2.read_unread, harg3.read_unread, hfs,
    View.ld_unit_zero (S := S2048x512) hz, View.ld_unit_zero (S := S1024x512) hz, View.ld_unit_zero (S := S2048x1) hz]

end Cert.KernelIdeal.Hand

end
-- ==== Proof.KI.R1RunF.lean ====
/-
  The similarity kernel's body run once, in the control case where j = 7 and the tile lies off the diagonal: the plain row sums are added, and the output block is stored from the positives block and the finished accumulator.
  Every store of the body covers its buffer whole, so each buffer ends at the stored value itself.
-/
import proofs.«405127_j71124658422130_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of the whole-buffer rectangles, in the three shapes the body touches. -/
private theorem off0_a : (![0, 0] : Fin S2048x1.rank → Nat) = fun _ => 0 := by
  funext a; fin_cases a <;> rfl
private theorem off0_b : (![0, 0] : Fin S2048x512.rank → Nat) = fun _ => 0 := by
  funext a; fin_cases a <;> rfl
private theorem off0_c : (![0, 0] : Fin S1024x512.rank → Nat) = fun _ => 0 := by
  funext a; fin_cases a <;> rfl

/-- A store covering the buffer, made last, leaves its payload whatever the earlier stores were. -/
private theorem read_store_whole_cons (v : View sig .tc .vmem S2048x1 .f32) (f : v.ty.Contents (Elt F))
    (w : S2048x1.Idx → Elt F .f32) (L : List (View.Piece (Elt F) S2048x1 .f32)) :
    v.read (Elt F) (v.writes (Elt F) f
      ((⟨Rect.unit ![0, 0] S2048x1.size inb_S2048x1_S2048x1_0_0, w⟩ : View.Piece (Elt F) S2048x1 .f32) :: L)) = w := by
  rw [View.read_writes_eq_canon _ _ _
      (fun y => ⟨_, List.mem_cons_self, View.mem_set_unit_zero off0_a inb_S2048x1_S2048x1_0_0 y⟩),
    View.canon_cons_unit_zero off0_a]

/-- A load of the whole buffer after one store covering it reads that store's payload. -/
private theorem readCov_whole (v : View sig .tc .vmem S2048x1 .f32) (w : S2048x1.Idx → Elt F .f32) :
    v.readCov [(⟨Rect.unit ![0, 0] S2048x1.size inb_S2048x1_S2048x1_0_0, w⟩ : View.Piece (Elt F) S2048x1 .f32)]
      (Rect.unit ![0, 0] S2048x1.size inb_S2048x1_S2048x1_0_0).toLoadRect = w :=
  View.readCov_unit_zero v off0_a _ w

/-- A load through the whole-buffer rectangle reads the contents. -/
private theorem ld_whole_a (X : S2048x1.Idx → Elt F .f32) :
    View.ld X (Rect.unit ![0, 0] S2048x1.size inb_S2048x1_S2048x1_0_0) = X := View.ld_unit_zero off0_a _ X
/-- A load through the whole-buffer rectangle reads the contents. -/
private theorem ld_whole_b (X : S2048x512.Idx → Elt F .bf16) :
    View.ld X (Rect.unit ![0, 0] S2048x512.size inb_S2048x512_S2048x512_0_0) = X := View.ld_unit_zero off0_b _ X
private theorem ld_whole_c (X : S1024x512.Idx → Elt F .bf16) :
    View.ld X (Rect.unit ![0, 0] S1024x512.size inb_S1024x512_S1024x512_0_0) = X := View.ld_unit_zero off0_c _ X

/-- j = 7 and the tile lies off the diagonal: the plain row sums are added, and the output block is stored from the positives block and the finished accumulator. -/
theorem run1_F (c : Dev nD) (i : grid1.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole)
    (h1 : ¬ cFirst i) (h2 : ¬ cOv i) (h3 : cNov i) (h4 : cLast i)
    (x0 : Vec F S2048x512 .bf16) (x1 : Vec F S1024x512 .bf16) (x2 : Vec F S2048x1 .f32) (xs : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay5 x2 (k1_pay4 x0 x1 xs)) ∗ owns (c : Thread nD τ) arg6 fullShare (k1_pay4 x0 x1 xs)) -∗ K ⟨⟩))
      ⊢ wp frame (wpE (defs₀ (F := F)) Variants.none c none) E (cc1__sim_kernel i arg2 harg2 arg3 harg3 arg4 harg4 arg5 harg5 arg6 harg6) K := by
  simp only [cc1__sim_kernel_eq_skeleton]; unfold cc1__sim_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexact H3
    · ipureintro
      sl_unfold_words
      refine (read_store_whole_cons _ _ _ _).trans ?_
      rw [readCov_whole, View.readAt_eq_ld, View.readAt_eq_ld, View.readAt_eq_ld, View.readAt_eq_ld,
        harg2.read_unread, harg3.read_unread, harg4.read_unread, harg6.read_unread,
        ld_whole_a, ld_whole_a, ld_whole_b, ld_whole_c]
  iexists _; isplitr; swap
  · iexact HS
  · ipureintro
    sl_unfold_words
    refine (read_store_whole_cons _ _ _ _).trans ?_
    rw [View.readAt_eq_ld, View.readAt_eq_ld, View.readAt_eq_ld, harg2.read_unread, harg3.read_unread,
      harg6.read_unread, ld_whole_a, ld_whole_b, ld_whole_c]

end Cert.KernelIdeal.Hand

end
-- ==== Proof.KI.R1.lean ====
/-
  Region 1 (the similarity kernel, grid 4 × 8, point t = 8·i + j), at the buffer contents V the region is entered from.
  Row block i of the stacked rows against column block j: the body adds the tile's row sums of exp (similarity / T) —
  the diagonal entry left out when the tile meets the diagonal — to an accumulator it keeps in a buffer of its own from
  point to point, reset at j = 0; at j = 7 it stores the row losses -(pos / T) + log (accumulator) into the output block,
  which it leaves alone at every other point.  Windows 0 and 1 both read the array of stacked rows.
-/
import proofs.«405127_j71124658422130_3_alg».proof.Proof.KI.R1RunA
import proofs.«405127_j71124658422130_3_alg».proof.Proof.KI.R1RunB
import proofs.«405127_j71124658422130_3_alg».proof.Proof.KI.R1RunC
import proofs.«405127_j71124658422130_3_alg».proof.Proof.KI.R1RunD
import proofs.«405127_j71124658422130_3_alg».proof.Proof.KI.R1RunE
import proofs.«405127_j71124658422130_3_alg».proof.Proof.KI.R1RunF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at their literal types: 2048 stacked rows, 1024 stacked rows, 2048 paired similarities. -/
abbrev rowBlk (c : Dev nD) (t : Fin cfg1.N) : Vec F S2048x512 .bf16 := iblk1 V c 0 t
abbrev colBlk (c : Dev nD) (t : Fin cfg1.N) : Vec F S1024x512 .bf16 := iblk1 V c 1 t
abbrev posBlk (c : Dev nD) (t : Fin cfg1.N) : Vec F S2048x1 .f32 := iblk1 V c 2 t

/-- THE ACCUMULATION. What the accumulator holds after the body at position n: the tile's row sums (masked where the
    tile meets the diagonal, j / 2 = i) added to the zero vector at the first column block and otherwise to what the
    point before left. -/
def accAt (c : Dev nD) : (n : ℕ) → n < cfg1.N → Vec F S2048x1 .f32
  | 0, hn => k1_pay3 (grid1.coords ⟨0, hn⟩) (rowBlk V c ⟨0, hn⟩) (colBlk V c ⟨0, hn⟩) (k1_pay1 (F := F))
  | n + 1, hn =>
    if ((n + 1) % 8) / 2 = (n + 1) / 8 then
      k1_pay3 (grid1.coords ⟨n + 1, hn⟩) (rowBlk V c ⟨n + 1, hn⟩) (colBlk V c ⟨n + 1, hn⟩)
        (if (n + 1) % 8 = 0 then (k1_pay1 (F := F)) else accAt c n (Nat.lt_of_succ_lt hn))
    else
      k1_pay4 (rowBlk V c ⟨n + 1, hn⟩) (colBlk V c ⟨n + 1, hn⟩)
        (if (n + 1) % 8 = 0 then (k1_pay1 (F := F)) else accAt c n (Nat.lt_of_succ_lt hn))

/-- What the accumulation at point t starts from. -/
def startAt (c : Dev nD) (t : Fin cfg1.N) : Vec F S2048x1 .f32 :=
  if t.val % 8 = 0 then (k1_pay1 (F := F)) else accAt V c (t.val - 1) (Nat.lt_of_le_of_lt (Nat.sub_le _ _) t.isLt)

/-- One step of the accumulation, at a point whose tile meets the diagonal, -/
theorem accAt_ov (c : Dev nD) (t : Fin cfg1.N) (h : (t.val % 8) / 2 = t.val / 8) :
    accAt V c t.val t.isLt = k1_pay3 (grid1.coords t) (rowBlk V c t) (colBlk V c t) (startAt V c t) := by
  obtain ⟨n, hn⟩ := t
  cases n with
  | zero =>
    unfold startAt
    rw [if_pos (show (⟨0, hn⟩ : Fin cfg1.N).val % 8 = 0 from Nat.zero_mod 8)]
    rw [accAt]
  | succ n =>
    dsimp only at h
    unfold startAt
    rw [accAt, if_pos h]
    rfl
/-- and at one whose tile lies off it. -/
theorem accAt_nov (c : Dev nD) (t : Fin cfg1.N) (h : ¬ (t.val % 8) / 2 = t.val / 8) :
    accAt V c t.val t.isLt = k1_pay4 (rowBlk V c t) (colBlk V c t) (startAt V c t) := by
  obtain ⟨n, hn⟩ := t
  cases n with
  | zero =>
    dsimp only at h
    exact absurd (by decide : 0 % 8 / 2 = 0 / 8) h
  | succ n =>
    dsimp only at h
    unfold startAt
    rw [accAt, if_neg h]
    rfl

/-- What the output's staging buffer holds after the body at a last column block: the row losses of the point's rows. At
    the other points (the window idle there, not written back, not read later) a term nothing consults. -/
def outAt (c : Dev nD) (t : Fin cfg1.N) : Vec F S2048x1 .f32 := k1_pay5 (posBlk V c t) (accAt V c t.val t.isLt)

/-- The region invariant before position n: before the first point the class's (every scoped buffer no window of this
    region stages at some contents, the generator register at some state); afterwards the same with the accumulator at
    what the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (accAt V c n hn)) ∗ (∃ r, prngReg c r))

/-- The proof data of pipeline 1 on core c. The array of stacked rows is read through windows 0 and 1: each holds half
    of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]

/-! ## The invariant, with what it says of the accumulator named -/

/-- The invariant's shape: the eight scoped buffers no window of this region stages, each at some contents; then what is
    said of the accumulator (S); then the generator register at some state. -/
private def inv1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

/-- All of it but the accumulator's part. -/
private def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ r, prngReg c r))

/-- The accumulator's part taken out of the invariant, -/
private theorem inv1_open (c : Dev nD) (S : sProp 𝕄) : inv1 (F := F) c S ⊢ iprop(S ∗ rest1 (F := F) c) := by
  unfold inv1 rest1
  iintro ⟨⟨A0, A1, A2, A3, A4, A5, A6, A7, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hg

/-- and put back. -/
private theorem inv1_close (c : Dev nD) (S : sProp 𝕄) : iprop(S ∗ rest1 (F := F) c) ⊢ inv1 (F := F) c S := by
  unfold inv1 rest1
  iintro ⟨HS, ⟨A0, A1, A2, A3, A4, A5, A6, A7⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact HS
  iexact Hg

/-- Before the first point the accumulator is owned at some contents (the class invariant, read in this shape). -/
private theorem PhiS1_zero (c : Dev nD) (n : ℕ) (h : n ≤ cfg1.N) (hz : n = 0) :
    PhiS1 V c n h = inv1 c (iprop(∃ d, owns (c : Thread nD τ) scM1 fullShare d)) := by
  subst hz
  exact (show PhiS1 V c 0 h = Pipeline.ΦA spec1 c from rfl).trans (PhiA1_eq c)

/-- After point n (before point n + 1) it holds the accumulation up to n. -/
private theorem PhiS1_succ (c : Dev nD) (n : ℕ) (hn : n < cfg1.N) :
    PhiS1 V c (n + 1) hn = inv1 c (owns (c : Thread nD τ) scM1 fullShare (accAt V c n hn)) := rfl

/-- Before a point that is not the first it holds what the point before left. -/
private theorem PhiS1_pos (c : Dev nD) (n : ℕ) (h : n ≤ cfg1.N) (hz : n ≠ 0) :
    PhiS1 V c n h = inv1 c (owns (c : Thread nD τ) scM1 fullShare (accAt V c (n - 1) (by omega))) := by
  cases n with
  | zero => exact absurd rfl hz
  | succ n => rfl

/-- The invariant at a point's start, restated at the point's position. -/
private theorem PhiS1_castSucc (c : Dev nD) (t : Fin cfg1.N) :
    (dat1 V c).Φ t.castSucc = PhiS1 V c t.val (Nat.le_of_lt t.isLt) := by
  dsimp only [dat1]; simp only [Fin.coe_castSucc]

/-! ## What the input windows hold when the body runs -/

/-- The row block's buffer holds the point's row block at every point: fetched at j = 0, and through the seven points
    after the block index does not move. -/
private theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The column block is fetched at every point. -/
private theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The positives' block, like the row block, is fetched at j = 0 and kept. -/
private theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## What the body leaves, window by window -/

private theorem leaves1_0 (c : Dev nD) (t : Fin cfg1.N) :
    (dat1 V c).leavesExact 0 t = owns (c : Thread nD τ) (ms1_0 t) fullShare (rowBlk V c t) := by
  unfold Dat.leavesExact; rw [liveAt1_0 t, after1_0]
private theorem leaves1_1 (c : Dev nD) (t : Fin cfg1.N) :
    (dat1 V c).leavesExact 1 t = owns (c : Thread nD τ) (ms1_1 t) fullShare (colBlk V c t) := by
  unfold Dat.leavesExact; rw [liveAt1_1 t, after1_1]
private theorem leaves1_2 (c : Dev nD) (t : Fin cfg1.N) :
    (dat1 V c).leavesExact 2 t = owns (c : Thread nD τ) (ms1_2 t) fullShare (posBlk V c t) := by
  unfold Dat.leavesExact; rw [liveAt1_2 t, after1_2]
/-- Where the output block is stored (j = 7): the row losses. -/
private theorem leaves1_3_last (c : Dev nD) (t : Fin cfg1.N) (h : cLast (grid1.coords t)) :
    (dat1 V c).leavesExact 3 t = owns (c : Thread nD τ) (ms1_3 t) fullShare (outAt V c t) := by
  unfold Dat.leavesExact; rw [liveAt1_3 t h, after1_3]
/-- Elsewhere the window is idle and not written back: the buffer as it was handed. -/
private theorem leaves1_3_idle (c : Dev nD) (t : Fin cfg1.N) (h : ¬ cLast (grid1.coords t)) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)

/-! ## The body obligation, at a generic point -/

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- j = 0 and the tile meets the diagonal (the grid's first point): the accumulator, owned at some contents, is reset, then takes the masked row sums; the output window goes back as it was handed. -/
private theorem sound1_A (c : Dev nD) (t : Fin cfg1.N) (hF : t.val % 8 = 0) (hO : (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val = 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_zero V c _ _ hz]
  rw [leaves1_0, leaves1_1, leaves1_2, leaves1_3_idle V c t (fun h => hL ((hcLast t).mp h))]
  rw [accAt_ov V c t hO, startAt, if_pos hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_A c (grid1.coords t) (ms1_0 t) (hs1_0 t) (ms1_1 t) (hs1_1 t) (ms1_2 t) (hs1_2 t) (ms1_3 t) (hs1_3 t) scM1 (Memref.isWhole_whole _)
    ((hcFirst t).mpr hF) ((hcOv t).mpr hO) (fun h => (hcNov t).mp h hO) (fun h => hL ((hcLast t).mp h))
    (rowBlk V c t) (colBlk V c t) (posBlk V c t) ((dat1 V c).before 3 t d3) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- j = 0 and the tile lies off the diagonal (t = 8, 16, 24): the accumulator holds what the point before left, which the reset discards, then takes the plain row sums; the output window goes back as it was handed. -/
private theorem sound1_B (c : Dev nD) (t : Fin cfg1.N) (hF : t.val % 8 = 0) (hO : ¬ (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_nov V c t hO, startAt, if_pos hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_B c (grid1.coords t) (ms1_0 t) (hs1_0 t) (ms1_1 t) (hs1_1 t) (ms1_2 t) (hs1_2 t) (ms1_3 t) (hs1_3 t) scM1 (Memref.isWhole_whole _)
    ((hcFirst t).mpr hF) (fun h => hO ((hcOv t).mp h)) ((hcNov t).mpr hO) (fun h => hL ((hcLast t).mp h))
    (rowBlk V c t) (colBlk V c t) (posBlk V c t) ((dat1 V c).before 3 t d3) Set.univ _)
  isplitl [H0]; · iexact H0
  isplitl [H1]; · iexact H1
  isplitl [H2]; · iexact H2
  isplitl [H3]; · iexact H3
  isplitl [HS]; · iexists _; iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- 0 < j < 7 and the tile meets the diagonal: the masked row sums are added to what the point before left; the output window goes back as it was handed. -/
private theorem sound1_C (c : Dev nD) (t : Fin cfg1.N) (hF : ¬ t.val % 8 = 0) (hO : (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_ov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_C c (grid1.coords t) (ms1_0 t) (hs1_0 t) (ms1_1 t) (hs1_1 t) (ms1_2 t) (hs1_2 t) (ms1_3 t) (hs1_3 t) scM1 (Memref.isWhole_whole _)
    (fun h => hF ((hcFirst t).mp h)) ((hcOv t).mpr hO) (fun h => (hcNov t).mp h hO) (fun h => hL ((hcLast t).mp h))
    (rowBlk V c t) (colBlk V c t) (posBlk V c t) ((dat1 V c).before 3 t d3) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- 0 < j < 7 and the tile lies off the diagonal: the plain row sums are added to what the point before left; the output window goes back as it was handed. -/
private theorem sound1_D (c : Dev nD) (t : Fin cfg1.N) (hF : ¬ t.val % 8 = 0) (hO : ¬ (t.val % 8) / 2 = t.val / 8) (hL : ¬ t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_idle V c t (fun h => hL ((hcLast t).mp h))]
  rw [accAt_nov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_D c (grid1.coords t) (ms1_0 t) (hs1_0 t) (ms1_1 t) (hs1_1 t) (ms1_2 t) (hs1_2 t) (ms1_3 t) (hs1_3 t) scM1 (Memref.isWhole_whole _)
    (fun h => hF ((hcFirst t).mp h)) (fun h => hO ((hcOv t).mp h)) ((hcNov t).mpr hO) (fun h => hL ((hcLast t).mp h))
    (rowBlk V c t) (colBlk V c t) (posBlk V c t) ((dat1 V c).before 3 t d3) (accAt V c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexists d3; iexact H3

set_option maxHeartbeats 1600000 in
/-- j = 7 and the tile meets the diagonal (the grid's last point): the masked row sums are added, and the output block is stored from the positives block and the finished accumulator. -/
private theorem sound1_E (c : Dev nD) (t : Fin cfg1.N) (hF : ¬ t.val % 8 = 0) (hO : (t.val % 8) / 2 = t.val / 8) (hL : t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_last V c t ((hcLast t).mpr hL)]
  unfold outAt
  rw [accAt_ov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_E c (grid1.coords t) (ms1_0 t) (hs1_0 t) (ms1_1 t) (hs1_1 t) (ms1_2 t) (hs1_2 t) (ms1_3 t) (hs1_3 t) scM1 (Memref.isWhole_whole _)
    (fun h => hF ((hcFirst t).mp h)) ((hcOv t).mpr hO) (fun h => (hcNov t).mp h hO) ((hcLast t).mpr hL)
    (rowBlk V c t) (colBlk V c t) (posBlk V c t) (accAt V c (t.val - 1) (Nat.lt_of_le_of_lt (Nat.sub_le _ _) t.isLt)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexact H3

set_option maxHeartbeats 1600000 in
/-- j = 7 and the tile lies off the diagonal: the plain row sums are added, and the output block is stored from the positives block and the finished accumulator. -/
private theorem sound1_F (c : Dev nD) (t : Fin cfg1.N) (hF : ¬ t.val % 8 = 0) (hO : ¬ (t.val % 8) / 2 = t.val / 8) (hL : t.val % 8 = 7) :
    bodyPre1 V c t ⊢ wp frame (wpE (defs₀ (F := F)) Variants.none c none) Set.univ (bodyAt1 t) (fun _ => bodyPost1 V c t) := by
  have hN : t.val < 32 := lt_of_lt_of_eq t.isLt (show cfg1.N = 32 from N_1)
  have hz : t.val ≠ 0 := by omega
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [PhiS1_castSucc V c t, PhiS1_pos V c _ _ hz]
  rw [leaves1_0, leaves1_1, leaves1_2, leaves1_3_last V c t ((hcLast t).mpr hL)]
  unfold outAt
  rw [accAt_nov V c t hO, startAt, if_neg hF]
  iintro ⟨HΦ, Ho, ⟨%d0, H0⟩, ⟨%d1, H1⟩, ⟨%d2, H2⟩, ⟨%d3, H3⟩⟩
  ihave HΦ' := (inv1_open c _) $$ HΦ
  icases HΦ' with ⟨HS, HR⟩
  iapply (run1_F c (grid1.coords t) (ms1_0 t) (hs1_0 t) (ms1_1 t) (hs1_1 t) (ms1_2 t) (hs1_2 t) (ms1_3 t) (hs1_3 t) scM1 (Memref.isWhole_whole _)
    (fun h => hF ((hcFirst t).mp h)) (fun h => hO ((hcOv t).mp h)) ((hcNov t).mpr hO) ((hcLast t).mpr hL)
    (rowBlk V c t) (colBlk V c t) (posBlk V c t) (accAt V c (t.val - 1) (Nat.lt_of_le_of_lt (Nat.sub_le _ _) t.isLt)) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · iapply (inv1_close c _)
    isplitl [HS]; · iexact HS
    iexact HR
  isplitl [Ho]; · iexact Ho
  isplitl [H0]; · iexact H0
  isplitl [H1]; · iexact H1
  isplitl [H2]; · iexact H2
  iexact H3

/-- The body at any point: the closed forms of the conditions say which of the six cases the point is in (j = 0 and j = 7
    exclude one another). -/
private theorem sound_body1 (c : Dev nD) (t : Fin cfg1.N) :
    bodyPre1 V c t ⊢ wp frame (wpE (defs₀ (F := F)) Variants.none c none) Set.univ (bodyAt1 t) (fun _ => bodyPost1 V c t) := by
  by_cases hF : t.val % 8 = 0
  · have hL : ¬ t.val % 8 = 7 := by omega
    by_cases hO : (t.val % 8) / 2 = t.val / 8
    · exact sound1_A V c t hF hO hL
    · exact sound1_B V c t hF hO hL
  · by_cases hO : (t.val % 8) / 2 = t.val / 8
    · by_cases hL : t.val % 8 = 7
      · exact sound1_E V c t hF hO hL
      · exact sound1_C V c t hF hO hL
    · by_cases hL : t.val % 8 = 7
      · exact sound1_F V c t hF hO hL
      · exact sound1_D V c t hF hO hL

/-- The body obligation of region 1, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Entails.of_eq (show Pipeline.ΦA spec1 c = PhiS1 V c 0 (Nat.zero_le _) from rfl)

/-- After the last point the invariant gives the class's back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  show inv1 c _ ⊢ inv1 c (iprop(∃ d, owns (c : Thread nD τ) scM1 fullShare d))
  iintro H
  ihave H' := (inv1_open c _) $$ H
  icases H' with ⟨HS, HR⟩
  iapply (inv1_close c _)
  isplitl [HS]; · iexists _; iexact HS
  iexact HR

end Cert.KernelIdeal.Hand

end
-- ==== Proof.KI.Fold.lean ====
/-
  The contents of every buffer at each boundary of @main, as a fold from the launch memory: region 0 changes its two output
  arrays, the first host stretch re-lays them (the stacked rows as one 8192 × 512 array, the paired similarities repeated
  twice), region 1 changes its output array, the second host stretch sums the row losses and divides by 8192.  With them the
  proof-data family (each pipeline's at its region's entry contents) and what rides beside the buffers through every
  segment: the generator register at some state, nothing owed.
-/
import proofs.«405127_j71124658422130_3_alg».proof.Proof.KI.R0
import proofs.«405127_j71124658422130_3_alg».proof.Proof.KI.R1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0r : (c : Dev nD) → (b : Ref sig .tc) → Buf (Elt F) ((c : Thread nD τ).loc b) := fun c b => W0 m ρ c b
/-- At region 0's exit: its two output arrays at what the write-backs leave, every other buffer as entered. -/
def W1 (c : Dev nD) : Valuation τ sig (Elt F) :=
  Pipeline.withArrays spec0 c (W0 m ρ c) fun w => (dat0 (V0r m ρ) c).arrAt w cfg0.N
abbrev V1r : (c : Dev nD) → (b : Ref sig .tc) → Buf (Elt F) ((c : Thread nD τ).loc b) := fun c b => W1 m ρ c b
/-- After the first host stretch (region 1's entry). -/
abbrev W2 : Dev nD → Valuation τ sig (Elt F) := fun c => StableHlo.after hostOps1 (W1 m ρ c)
abbrev V2r : (c : Dev nD) → (b : Ref sig .tc) → Buf (Elt F) ((c : Thread nD τ).loc b) := fun c b => W2 m ρ c b
/-- At region 1's exit: its output array at what the write-backs leave, every other buffer as entered. -/
def W3 (c : Dev nD) : Valuation τ sig (Elt F) :=
  Function.update (W2 m ρ c) (Proc.devRef .tc main_v5) ((dat1 (V2r m ρ) c).arrAt 3 cfg1.N)
abbrev V3r : (c : Dev nD) → (b : Ref sig .tc) → Buf (Elt F) ((c : Thread nD τ).loc b) := fun c b => W3 m ρ c b
/-- After the second host stretch: the end. -/
abbrev W4 : Dev nD → Valuation τ sig (Elt F) := fun c => StableHlo.after hostOps2 (W3 m ρ c)

theorem W1_arr (c : Dev nD) (w : Fin cfg0.W) :
    W1 m ρ c (Proc.devRef .tc (Pipeline.arrRef spec0 w)) = (dat0 (V0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W3_out (c : Dev nD) : W3 m ρ c (Proc.devRef .tc main_v5) = (dat1 (V2r m ρ) c).arrAt 3 cfg1.N := by
  unfold W3; exact Function.update_self ..
theorem W3_of_ne (c : Dev nD) (b : Ref sig .tc) (hb : b ≠ main_v5) :
    W3 m ρ c (Proc.devRef .tc b) = W2 m ρ c (Proc.devRef .tc b) := by
  unfold W3; exact Function.update_of_ne (StableHlo.devRef_ne_of_ne hb) ..

/-- Neither region and no host operation writes an argument. -/
theorem W4_main_arg0 (c : Dev nD) : W4 m ρ c (Proc.devRef .tc main_arg0) = m ((c : Thread nD τ).loc main_arg0) := by
  -- the second host stretch writes its two constants, the sum and the quotient: none of them this argument
  have h43 : W4 m ρ c (Proc.devRef .tc main_arg0) = W3 m ρ c (Proc.devRef .tc main_arg0) := by
    refine StableHlo.after_of_forall_not_mem (b := Proc.devRef .tc main_arg0) _ _ fun op hop => ?_
    simp only [hostOps2, List.mem_cons, List.not_mem_nil, or_false] at hop
    rcases hop with rfl | rfl | rfl | rfl <;>
      simp only [StableHlo.nullary_writes, StableHlo.binary_writes, Finset.mem_singleton] <;>
      exact StableHlo.devRef_ne_of_ne (by decide)
  -- region 1 writes its one output array only
  have h32 : W3 m ρ c (Proc.devRef .tc main_arg0) = W2 m ρ c (Proc.devRef .tc main_arg0) :=
    W3_of_ne m ρ c main_arg0 (by decide)
  -- the first host stretch writes the four re-laid arrays only
  have h21 : W2 m ρ c (Proc.devRef .tc main_arg0) = W1 m ρ c (Proc.devRef .tc main_arg0) := by
    refine StableHlo.after_of_forall_not_mem (b := Proc.devRef .tc main_arg0) _ _ fun op hop => ?_
    simp only [hostOps1, List.mem_cons, List.not_mem_nil, or_false] at hop
    rcases hop with rfl | rfl | rfl | rfl <;>
      simp only [StableHlo.reshape_writes, StableHlo.binary_writes, Finset.mem_singleton] <;>
      exact StableHlo.devRef_ne_of_ne (by decide)
  -- the argument is window 0's array of region 0, an input window: the pipeline leaves it as entered
  have h10 : W1 m ρ c (Proc.devRef .tc main_arg0) = W0 m ρ c (Proc.devRef .tc main_arg0) := by
    have hin : (dat0 (V0r m ρ) c).arrAt 0 cfg0.N = (dat0 (V0r m ρ) c).A 0 := (dat0 (V0r m ρ) c).arrAt_in 0 rfl _
    exact (W1_arr m ρ c 0).trans (hin.trans (A_eq0 (V0r m ρ) c 0))
  rw [h43, h32, h21, h10]
theorem W4_main_arg1 (c : Dev nD) : W4 m ρ c (Proc.devRef .tc main_arg1) = m ((c : Thread nD τ).loc main_arg1) := by
  -- the second host stretch writes its two constants, the sum and the quotient: none of them this argument
  have h43 : W4 m ρ c (Proc.devRef .tc main_arg1) = W3 m ρ c (Proc.devRef .tc main_arg1) := by
    refine StableHlo.after_of_forall_not_mem (b := Proc.devRef .tc main_arg1) _ _ fun op hop => ?_
    simp only [hostOps2, List.mem_cons, List.not_mem_nil, or_false] at hop
    rcases hop with rfl | rfl | rfl | rfl <;>
      simp only [StableHlo.nullary_writes, StableHlo.binary_writes, Finset.mem_singleton] <;>
      exact StableHlo.devRef_ne_of_ne (by decide)
  -- region 1 writes its one output array only
  have h32 : W3 m ρ c (Proc.devRef .tc main_arg1) = W2 m ρ c (Proc.devRef .tc main_arg1) :=
    W3_of_ne m ρ c main_arg1 (by decide)
  -- the first host stretch writes the four re-laid arrays only
  have h21 : W2 m ρ c (Proc.devRef .tc main_arg1) = W1 m ρ c (Proc.devRef .tc main_arg1) := by
    refine StableHlo.after_of_forall_not_mem (b := Proc.devRef .tc main_arg1) _ _ fun op hop => ?_
    simp only [hostOps1, List.mem_cons, List.not_mem_nil, or_false] at hop
    rcases hop with rfl | rfl | rfl | rfl <;>
      simp only [StableHlo.reshape_writes, StableHlo.binary_writes, Finset.mem_singleton] <;>
      exact StableHlo.devRef_ne_of_ne (by decide)
  -- the argument is window 1's array of region 0, an input window: the pipeline leaves it as entered
  have h10 : W1 m ρ c (Proc.devRef .tc main_arg1) = W0 m ρ c (Proc.devRef .tc main_arg1) := by
    have hin : (dat0 (V0r m ρ) c).arrAt 1 cfg0.N = (dat0 (V0r m ρ) c).A 1 := (dat0 (V0r m ρ) c).arrAt_in 1 rfl _
    exact (W1_arr m ρ c 1).trans (hin.trans (A_eq0 (V0r m ρ) c 1))
  rw [h43, h32, h21, h10]

/-! ## The proof data family and the thread state -/

abbrev adm1 : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm1 p) c
  | ⟨0, _⟩ => fun c => dat0 (V0r m ρ) c
  | ⟨1, _⟩ => fun c => dat1 (V2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m ρ c) ∗ ∃ r, prngReg c r)

end Cert.KernelIdeal.Hand

end
-- ==== Proof.KI.Reg0.lean ====
/-
  Region 0 as a segment of @main: entered from every unscoped buffer at the launch contents, left with its two output
  arrays at what the write-backs leave.  Its arrays are split out of the unscoped buffers at entry and put back at exit;
  the generator register goes into the class invariant and comes out; nothing is owed; the kernel has no semaphore of its
  own.
-/
import proofs.«405127_j71124658422130_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At region 0's exit each of its arrays holds what the write-backs leave there, -/
private theorem hF0 (c : Dev nD) (w : Fin cfg0.W) :
    (dat0 (V0r m ρ) c).arrAt w cfg0.N = V1r m ρ c (Pipeline.arrRef spec0 w) :=
  (W1_arr m ρ c w).symm
/-- and a buffer that is none of its arrays holds what it held at entry. -/
private theorem hrest0 (c : Dev nD) :
    ∀ b, b ∉ Finset.univ.image (Pipeline.arrRef spec0) → V1r m ρ c b = V0r m ρ c b := by
  intro b hb
  refine W1_of_ne m ρ c b fun w hw => hb ?_
  exact Finset.mem_image.mpr ⟨w, Finset.mem_univ w, hw⟩

set_option backward.isDefEq.respectTransparency.types false in
/-- Region 0 over the thread state: entered from every unscoped buffer at the launch contents, left at W1. -/
def reg0 : Pipeline.RegionSeg (pcfgs (F := F)) adm1 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0r m ρ c)
  hentry c := by
    -- the unscoped buffers at the launch contents are the four arrays at the proof data's entry contents (read off
    -- those contents, each a distinct whole buffer at the full share) beside the unscoped rest
    have hsplit := Pipeline.arrays_of_unscopedBufs (p := 0) (pcfgs (F := F)) adm1 (pdats m ρ) launch0.win
      launch0.arr_whole c ((pdats m ρ 0 c).share_full fun _ => rfl) (V0r m ρ c) fun _ => rfl
    rw [Pipeline.unscopedBufs_held] at hsplit
    -- the region has no semaphore of its own and no prefetched table: both are empty products
    have hnotab : (BI.emp : sProp 𝕄) ⊢ Pipeline.prefHeld (pcfgs (F := F) 0).pre c (fun _ => fullShare) (adm1 (F := F) 0).1 := by
      unfold Pipeline.prefHeld
      rw [show (Finset.univ : Finset (Fin 0)) = ∅ from rfl, BI.bigSep_empty]
    rw [Pipeline.ownSems0_none]
    iintro ⟨⟨Hbufs, Hgen, %W, Howes⟩, -, -⟩
    ihave Hparts := hsplit $$ Hbufs
    icases Hparts with ⟨Harrs, Hbypass⟩
    imodintro
    iframe Harrs Hgen Hbypass
    isplitr
    · iapply hnotab; iempintro
    -- nothing is owed, and any recorded set lies within a bound that is everything
    unfold Pipeline.Dat.owesAt Pipeline.owesWithin
    iexists W
    isplitr
    · ipureintro; exact fun _ _ => Or.inl trivial
    · iexact Howes
  hin c := by
    -- the class invariant is the scoped rest beside the generator register at some state
    rw [show (pdats m ρ 0 c).Φ 0 = Pipeline.ΦA spec0 c from rfl]
    unfold Pipeline.ΦA
    iintro ⟨Hgen, -, Hscoped⟩
    iframe
  hout c := by
    rw [show (pdats m ρ 0 c).Φ (Fin.last _) = Pipeline.ΦA spec0 c from rfl, Pipeline.ownSems0_none]
    unfold Pipeline.ΦA
    iintro ⟨Hscoped, Hgen⟩
    iframe Hscoped Hgen
    iempintro
  hexit c := by
    -- the arrays at what the write-backs leave and the unscoped rest as entered are the unscoped buffers at W1
    have hjoin := Pipeline.unscopedBufs_of_arrays (p := 0) (pcfgs (F := F)) adm1 (Ix := Unit) (Name := ℕ)
      (U := UR sig nD τ) (Lvl := ℕ) launch0.win launch0.arr_whole c (pdats m ρ)
      ((pdats m ρ 0 c).share_full fun _ => rfl) (V0r m ρ c) (V1r m ρ c) ((pdats m ρ 0 c).arrAt · cfg0.N)
      (hF0 m ρ c) (hrest0 m ρ c)
    rw [Pipeline.unscopedBufs_held] at hjoin
    unfold Pipeline.Dat.owesAt Pipeline.owesWithin
    iintro ⟨Harrs, ⟨%W, -, Howes⟩, Hgen, Hbypass⟩
    imodintro
    isplitl [Harrs Hbypass]
    · iapply hjoin; iframe
    isplitl [Hgen]
    · iexact Hgen
    · iexists W; iexact Howes

end Cert.KernelIdeal.Hand

end
-- ==== Proof.KI.Reg1.lean ====
/-
  Region 1 as a segment of @main: entered from every unscoped buffer at the contents the first host stretch leaves, left with
  its output array at what the write-backs leave.  Two of its windows read ONE array (the stacked rows): at entry that
  buffer, held whole, is split into two halves, one per window; neither window writes, so at exit both halves still hold the
  entry contents and join to the whole again.
-/
import proofs.«405127_j71124658422130_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The unscoped buffers around region 1's arrays

Region 1's windows stand on three distinct buffers: the stacked rows (windows 0 and 1), the paired similarities
(window 2) and the row losses (window 3).  The stacked rows, held whole, are the same contents held at the left half
and at the right half of the full share. -/

section Split

/-- The distinct buffers behind region 1's arrays, one by one. -/
private theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v4) ↦{fullShare} V main_v4)
          ∗ (((c : Thread nD τ).loc main_v5) ↦{fullShare} V main_v5)) := by
  unfold Pipeline.arrBufs
  exact bigSep_eq_bigSepL_of_eq [main_v1, main_v4, main_v5] (by decide) (by decide) _

/-- The split: a core's unscoped buffers at contents V are the stacked rows at each half of the full share, the paired
    similarities and the row losses whole, and the unscoped buffers that are no array of region 1. -/
private theorem bufs_split1 (c : Dev nD) (V : (b : Ref sig .tc) → Buf (Elt F) ((c : Thread nD τ).loc b)) :
    (unscopedBufs (Ix := Unit) (Name := ℕ) (U := UR sig nD τ) (Lvl := ℕ) c V : sProp 𝕄)
      ⊢ iprop(((((c : Thread nD τ).loc main_v1) ↦{fullShare.left} V main_v1) ∗ (((c : Thread nD τ).loc main_v1) ↦{fullShare.right} V main_v1)
          ∗ (((c : Thread nD τ).loc main_v4) ↦{fullShare} V main_v4) ∗ (((c : Thread nD τ).loc main_v5) ↦{fullShare} V main_v5))
          ∗ Pipeline.unscopedRest (Ix := Unit) (Name := ℕ) (U := UR sig nD τ) (Lvl := ℕ) spec1 c V) := by
  have h : (unscopedBufs (Ix := Unit) (Name := ℕ) (U := UR sig nD τ) (Lvl := ℕ) c V : sProp 𝕄)
      = iprop(Pipeline.arrBufs spec1 c V ∗ Pipeline.unscopedRest spec1 c V) :=
    Pipeline.unscopedBufs_split₀ cfgs 1 winFacts₀1.arr_unscoped c V
  rw [h, arrBufs1_eq]
  iintro ⟨⟨H1, H4, H5⟩, Hr⟩
  ihave H := (pointsTo_share (PosShare.mem_left_op_right fullShare)).1 $$ H1
  icases H with ⟨Hl, Hrt⟩
  isplitr [Hr]
  · isplitl [Hl]; · iexact Hl
    isplitl [Hrt]; · iexact Hrt
    isplitl [H4]; · iexact H4
    iexact H5
  iexact Hr

/-- The join: the two halves of the stacked rows at one contents, the paired similarities and the row losses whole, all
    at what V' has there, and the other unscoped buffers at V are a core's unscoped buffers at V', when V' agrees with V
    off region 1's arrays. -/
private theorem bufs_join1 (c : Dev nD) (V V' : (b : Ref sig .tc) → Buf (Elt F) ((c : Thread nD τ).loc b))
    (hrest : ∀ b, b ∉ Finset.univ.image (Pipeline.arrRef spec1) → V' b = V b) :
    iprop(((((c : Thread nD τ).loc main_v1) ↦{fullShare.left} V' main_v1) ∗ (((c : Thread nD τ).loc main_v1) ↦{fullShare.right} V' main_v1)
          ∗ (((c : Thread nD τ).loc main_v4) ↦{fullShare} V' main_v4) ∗ (((c : Thread nD τ).loc main_v5) ↦{fullShare} V' main_v5))
          ∗ Pipeline.unscopedRest (Ix := Unit) (Name := ℕ) (U := UR sig nD τ) (Lvl := ℕ) spec1 c V)
      ⊢ (unscopedBufs (Ix := Unit) (Name := ℕ) (U := UR sig nD τ) (Lvl := ℕ) c V' : sProp 𝕄) := by
  have h : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs 1 winFacts₀1.arr_unscoped c V'
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [h, arrBufs1_eq, hr]
  iintro ⟨⟨Hl, Hrt, H4, H5⟩, Hr⟩
  isplitr [Hr]
  · isplitl [Hl Hrt]
    · iapply (pointsTo_share (PosShare.mem_left_op_right fullShare)).2
      isplitl [Hl] <;> iassumption
    isplitl [H4]; · iexact H4
    iexact H5
  iexact Hr

variable (V : (c : Dev nD) → (b : Ref sig .tc) → Buf (Elt F) ((c : Thread nD τ).loc b))

/-- The share each window's array is held at: the left and the right half for the two windows on the stacked rows,
    the full share for the paired similarities and for the output. -/
private theorem share1_0 (c : Dev nD) : (dat1 V c).share 0 = fullShare.left := rfl
private theorem share1_1 (c : Dev nD) : (dat1 V c).share 1 = fullShare.right := rfl
private theorem share1_2 (c : Dev nD) : (dat1 V c).share 2 = fullShare := rfl
private theorem share1_3 (c : Dev nD) : (dat1 V c).share 3 = fullShare := rfl

/-- Region 1's arrays at contents G, window by window: the two halves of the stacked rows, the paired similarities, the
    row losses, each a whole buffer. -/
private theorem arrays1_eq (c : Dev nD) (G : (w : Fin cfg1.W) → Buf (Elt F) ((cfg1.win w).arr.view.loc (c : Thread nD τ)))
    (A₀ A₁ : Buf (Elt F) ((c : Thread nD τ).loc main_v1)) (B : Buf (Elt F) ((c : Thread nD τ).loc main_v4))
    (C : Buf (Elt F) ((c : Thread nD τ).loc main_v5)) (h0 : G 0 = A₀) (h1 : G 1 = A₁) (h2 : G 2 = B) (h3 : G 3 = C) :
    ((dat1 V c).arrays G : sProp 𝕄)
      = iprop((((c : Thread nD τ).loc main_v1) ↦{fullShare.left} A₀) ∗ (((c : Thread nD τ).loc main_v1) ↦{fullShare.right} A₁)
          ∗ (((c : Thread nD τ).loc main_v4) ↦{fullShare} B) ∗ (((c : Thread nD τ).loc main_v5) ↦{fullShare} C)) := by
  subst h0 h1 h2 h3
  unfold Dat.arrays
  rw [bigSep_W1]
  rw [share1_0, share1_1, share1_2, share1_3]
  -- windows 0 and 1 stand on one memref: one rewrite serves both
  rw [show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ]

end Split

variable (m : (ℓ : Loc nD τ sig) → Buf (Elt F) ℓ) (ρ : Dev nD → PrngReg)

set_option backward.isDefEq.respectTransparency.types false in
/-- Region 1 over the thread state: entered from every unscoped buffer at W2, left at W3. The array of stacked rows is
    split between the two windows that read it and joined again at the exit. -/
def reg1 : Pipeline.RegionSeg (pcfgs (F := F)) adm1 (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2r m ρ c)
  hentry c := by
    rw [Pipeline.ownSems0_none]
    have hsplit := bufs_split1 (F := F) c (V2r m ρ c)
    rw [Pipeline.unscopedBufs_held] at hsplit
    have harr : ((pdats m ρ 1 c).arrays ((pdats m ρ 1 c).arrAt · 0) : sProp 𝕄)
        = iprop((((c : Thread nD τ).loc main_v1) ↦{fullShare.left} V2r m ρ c main_v1) ∗ (((c : Thread nD τ).loc main_v1) ↦{fullShare.right} V2r m ρ c main_v1)
          ∗ (((c : Thread nD τ).loc main_v4) ↦{fullShare} V2r m ρ c main_v4) ∗ (((c : Thread nD τ).loc main_v5) ↦{fullShare} V2r m ρ c main_v5)) :=
      arrays1_eq (V2r m ρ) c _ _ _ _ _ rfl rfl rfl rfl
    rw [harr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2r m ρ) c)
    unfold Pipeline.ΦA
    iintro ⟨Hp, -, Hr⟩
    isplitl [Hr]; · iexact Hr
    iexact Hp
  hout c := by
    rw [Pipeline.ownSems0_none]
    refine BIBase.Entails.trans (hout1 (V2r m ρ) c) ?_
    unfold Pipeline.ΦA
    iintro ⟨Hr, Hp⟩
    isplitl [Hp]; · iexact Hp
    isplitr; · iempintro
    iexact Hr
  hexit c := by
    have h0 : (pdats m ρ 1 c).arrAt 0 cfg1.N = V3r m ρ c main_v1 :=
      ((dat1 (V2r m ρ) c).arrAt_in 0 rfl _).trans (W3_of_ne m ρ c main_v1 (by decide)).symm
    have h1 : (pdats m ρ 1 c).arrAt 1 cfg1.N = V3r m ρ c main_v1 :=
      ((dat1 (V2r m ρ) c).arrAt_in 1 rfl _).trans (W3_of_ne m ρ c main_v1 (by decide)).symm
    have h2 : (pdats m ρ 1 c).arrAt 2 cfg1.N = V3r m ρ c main_v4 :=
      ((dat1 (V2r m ρ) c).arrAt_in 2 rfl _).trans (W3_of_ne m ρ c main_v4 (by decide)).symm
    have h3 : (pdats m ρ 1 c).arrAt 3 cfg1.N = V3r m ρ c main_v5 := (W3_out m ρ c).symm
    have harr : ((pdats m ρ 1 c).arrays ((pdats m ρ 1 c).arrAt · (Pipeline.pin (pcfgs (F := F)) adm1 1).N) : sProp 𝕄)
        = iprop((((c : Thread nD τ).loc main_v1) ↦{fullShare.left} V3r m ρ c main_v1) ∗ (((c : Thread nD τ).loc main_v1) ↦{fullShare.right} V3r m ρ c main_v1)
          ∗ (((c : Thread nD τ).loc main_v4) ↦{fullShare} V3r m ρ c main_v4) ∗ (((c : Thread nD τ).loc main_v5) ↦{fullShare} V3r m ρ c main_v5)) :=
      arrays1_eq (V2r m ρ) c _ _ _ _ _ h0 h1 h2 h3
    have hjoin := bufs_join1 (F := F) c (V2r m ρ c) (V3r m ρ c)
      (fun b hb => W3_of_ne m ρ c b fun e => hb (Finset.mem_image.mpr ⟨3, Finset.mem_univ _, e.symm⟩))
    rw [Pipeline.unscopedBufs_held] at hjoin
    rw [harr]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Launch.lean ====
/-
  The launch: @main is region 0, a host stretch, region 1, a host stretch; given ANY two region records entered from and
  left at the boundary thread states, every weakly fair execution terminates with every unscoped buffer at the last
  boundary's contents.
-/
import proofs.«405127_j71124658422130_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (R0 : Pipeline.RegionSeg (pcfgs (F := F)) adm1 (pdats m ρ) () defs₀ 𝒱₀ L lv 0)
  (R1 : Pipeline.RegionSeg (pcfgs (F := F)) adm1 (pdats m ρ) () defs₀ 𝒱₀ L lv 1)

/-- @main's four segments in order. -/
abbrev segs : List (Pipeline.Seg (pcfgs (F := F)) adm1 (pdats m ρ) () defs₀ 𝒱₀ L lv) :=
  [ .region R0,
    .host (hseg hostOps1 hostOps1_sub hostOps1_fresh' (W1 m ρ)),
    .region R1,
    .host (hseg hostOps2 hostOps2_sub hostOps2_fresh' (W3 m ρ)) ]
theorem main_run (c : Dev nD) : main (F := F) c = Pipeline.Seg.run (segs m ρ R0 R1) := (main_chain c).trans (by chain_rfl)

set_option backward.isDefEq.respectTransparency.types false in
/-- THE RUN, for any two region records whose entry and exit states are the boundary states. -/
theorem run_all_of
    (hpre0 : ∀ c : Dev nD, iprop(StableHlo.held (c : Thread nD τ) (Pipeline.ucRefs τ sig) (W0 m ρ c) ∗ R c) ⊢ R0.pre c)
    (hpost0 : ∀ c : Dev nD, R0.post c ⊢ iprop(StableHlo.held (c : Thread nD τ) (Pipeline.ucRefs τ sig) (W1 m ρ c) ∗ R c))
    (hpre1 : ∀ c : Dev nD, iprop(StableHlo.held (c : Thread nD τ) (Pipeline.ucRefs τ sig) (W2 m ρ c) ∗ R c) ⊢ R1.pre c)
    (hpost1 : ∀ c : Dev nD, R1.post c ⊢ iprop(StableHlo.held (c : Thread nD τ) (Pipeline.ucRefs τ sig) (W3 m ρ c) ∗ R c)) :
    θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  -- The first boundary state: every unscoped buffer at the launch contents, beside the register and empty dues.
  let T₀ : Dev nD → sProp 𝕄 := fun c =>
    iprop(StableHlo.held (c : Thread nD τ) (Pipeline.ucRefs τ sig) (W0 m ρ c) ∗ R c)
  -- The launch memory's unscoped buffers are the unscoped set held at W0, which reads the launch memory.
  have hbufs : ∀ c : Dev nD,
      (unscopedBufs c (fun b => m ((c : Thread nD τ).loc b)) : sProp 𝕄)
        = StableHlo.held (c : Thread nD τ) (Pipeline.ucRefs τ sig) (W0 m ρ c) :=
    fun c => Pipeline.unscopedBufs_held c (W0 m ρ c)
  -- What the launch deals one core makes T₀ there: the buffers as they are, the register at its launch state,
  -- the dues empty; the semaphores at zero, the launch credit and the level facts are not needed.
  have hstart : ∀ c : Dev nD,
      iprop((unscopedBufs c (fun b => m ((c : Thread nD τ).loc b)) ∗ unscopedSems0 c
          ∗ owes (c : Thread nD τ) ((0 : Dev nD → CellTallies nD τ sig Unit) c) ∅
          ∗ Pipeline.launchCred (0 : Dev nD → CellTallies nD τ sig Unit) c ∗ prngReg c (ρ c) ∗ (emp : sProp 𝕄)) ∗ levAts L lv)
        ⊢ (|={Set.univ}=> T₀ c : sProp 𝕄) := fun c => by
    rw [hbufs c]
    iintro ⟨⟨Hbufs, -, Hdues, -, Hreg, -⟩, -⟩
    imodintro
    isplitl [Hbufs]
    · iexact Hbufs
    isplitl [Hreg]
    · iexists (ρ c); iexact Hreg
    · iexists ∅; iexact Hdues
  -- The last link. The second host stretch leaves held (W4) ∗ (register ∗ dues); the chain must end at
  -- (held (W4) ∗ register) beside the dues alone: reassociate.
  have hlast : ∀ c : Dev nD,
      iprop(StableHlo.held (c : Thread nD τ) (Pipeline.ucRefs τ sig) (W4 m ρ c) ∗ R c)
        ⊢ iprop(Tₙ m ρ c ∗ ∃ W, owes (c : Thread nD τ) (0 : CellTallies nD τ sig Unit) W) := fun c => by
    iintro ⟨Hbufs, Hreg, Hdues⟩
    isplitr [Hdues]
    · isplitl [Hbufs]
      · iexact Hbufs
      · iexact Hreg
    · iexact Hdues
  -- The end: the last state's points-to facts, read against a final state, say its memory holds W4 at each
  -- unscoped buffer.
  have hend : ∀ (c : Dev nD) (s' : Phys nD τ sig (Elt F)),
      iprop(Tₙ m ρ c ∗ SI s') ⊢ (|={Set.univ}=> iprop(⌜∀ b ∈ Pipeline.ucRefs τ sig,
          s'.mem.mem (((c : Thread nD τ)).1, b) = W4 m ρ c b⌝ ∗ SI s') : sProp 𝕄) := fun c s' => by
    have hread : iprop(StableHlo.held (c : Thread nD τ) (Pipeline.ucRefs τ sig) (W4 m ρ c) ∗ SI s')
        ⊢ (iprop(⌜∀ b ∈ Pipeline.ucRefs τ sig, s'.mem.mem (((c : Thread nD τ)).1, b) = W4 m ρ c b⌝ ∗ SI s') : sProp 𝕄) :=
      pointsTo_read_all (Pipeline.ucRefs τ sig) (fun b => (((c : Thread nD τ)).1, b)) (W4 m ρ c) s'
    iintro ⟨⟨Hbufs, -⟩, HSI⟩
    imodintro
    iapply hread
    isplitl [Hbufs]
    · iexact Hbufs
    · iexact HSI
  -- The launch element is the rounds schedule over every pipeline's staging cells, owned whole; no ghost
  -- resource is left beside it.
  have hown : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
    rw [BI.bigSep_emp_const, ownU_emb₁]
    iintro Hu
    imodintro
    isplitl [Hu]
    · iexact Hu
    · iempintro
  exact Pipeline.θ_run_regions_kit (pcfgs (F := F)) adm1 (pdats m ρ) () cellOf_inj emb₁ defs₀ 𝒱₀ L lv m ρ main
    (segs m ρ R0 R1)
    (fun c Q => by rw [main_run m ρ R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := hown)
    (T₀ := T₀) (Tₙ := Tₙ m ρ)
    (hch := ⟨hpre0, hpost0, hpre1, hpost1, hlast⟩)
    (hinit := Pipeline.initEach L lv hstart)
    (QY := fun c s => ∀ b ∈ Pipeline.ucRefs τ sig, s.mem (((c : Thread nD τ)).1, b) = W4 m ρ c b)
    (hfin := hend)
    (hQ := fun s h c => h c)

end Cert.KernelIdeal.Hand

end
-- ==== Proof.KI.Main.lean ====
/-
  The run of @main with both region records in place: every weakly fair execution terminates with every unscoped buffer
  at the last boundary's contents; hence the arguments end as launched (the frame) and the result buffer ends at the last
  boundary's contents of it (the value, read elsewhere).
-/
import proofs.«405127_j71124658422130_3_alg».proof.Proof.KI.Reg0
import proofs.«405127_j71124658422130_3_alg».proof.Proof.KI.Reg1
import proofs.«405127_j71124658422130_3_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  run_all_of m ρ (reg0 m ρ) (reg1 m ρ) (fun _ => .rfl) (fun _ => .rfl) (fun _ => .rfl) (fun _ => .rfl)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W4_main_arg0 m ρ c),
    (h c _ (mem_uc main_arg1 (by decide))).trans (W4_main_arg1 m ρ c)⟩) (run_all m ρ)

/-- The same run with the result named. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c _ (mem_uc main_v7 (by decide)),
    (h c _ (mem_uc main_arg0 (by decide))).trans (W4_main_arg0 m ρ c),
    (h c _ (mem_uc main_arg1 (by decide))).trans (W4_main_arg1 m ρ c)⟩) (run_all m ρ)

end Cert.KernelIdeal.Hand

end
-- ==== Proof.Val.Spec.lean ====
/-
  The contrastive loss both programs compute, as mathematics over the extended reals.

  Two arrays x, y of 4096 rows and 512 columns.  Each row is divided by the larger of its Euclidean norm and a small
  constant; the 8192 rows so obtained (those of x, then those of y) are compared pairwise by their inner products
  sim R C, and row r of x is paired with row r of y by the inner product pos r.  For row R the loss is
  -log (exp (pos / T) / Σ_{C ≠ R} exp (sim R C / T)), and the result is the mean of the 8192 row losses.

  The reference divides by the temperature T (the binary value 13421773 / 134217728 of its literal); the kernel
  multiplies by the reciprocal, named 134217728 / 13421773, excludes the diagonal by a comparison of indices where the
  reference multiplies by 1 - [R = C], sums the columns in eight blocks of 1024, and writes the row loss as
  (0 - pos · (1/T)) + log (Σ …).  On real inputs the two agree row by row (`row_eq`, proved in Algebra.lean).
-/
import Idealize.ShloMosaic.PureOps.Ideal
import Idealize.ShloMosaic.Lib.ValueIdx

noncomputable section

namespace Cert.Spec

open Idealize.ShloMosaic

/-- An input array by its two coordinates. -/
abbrev Arr : Type := Fin 4096 → Fin 512 → EReal

/-- An array of the programs' shape read by coordinates. -/
def arrOf (X : (⟨2, ![4096, 512]⟩ : Shape).Idx → EReal) : Arr := fun r k => X (ValueIdx.ix2 r k)

/-- The floor under a row's norm: the binary value both programs carry. -/
def eps : EReal := Ideal.ofBits .f32 0x2B8CBCCC#32
/-- The temperature as the reference carries it. -/
def temp : EReal := Ideal.ofBits .f32 0x3DCCCCCD#32
/-- Its reciprocal, as the kernel's named constant reads. -/
def invTemp : EReal := ((134217728 / 13421773 : ℝ) : EReal)
/-- The number of rows, 8192, as both programs carry it. -/
def count : EReal := Ideal.ofBits .f32 0x46000000#32

/-- The divisor of row r: its norm, or the floor if that is larger. -/
def nrm (x : Arr) (r : Fin 4096) : EReal := max (Ideal.sqrt (∑ k : Fin 512, x r k * x r k)) eps
/-- The normalised array. -/
def unit (x : Arr) (r : Fin 4096) (k : Fin 512) : EReal := Ideal.div (x r k) (nrm x r)

/-- Row R of the 8192 stacked rows comes from row R mod 4096 of x (R < 4096) or of y. -/
def lo (R : Fin 8192) : Fin 4096 := ⟨R.val % 4096, Nat.mod_lt _ (by norm_num)⟩
def rep (x y : Arr) (R : Fin 8192) (k : Fin 512) : EReal := if R.val < 4096 then unit x (lo R) k else unit y (lo R) k

/-- The similarity of two stacked rows. -/
def sim (x y : Arr) (R C : Fin 8192) : EReal := ∑ k : Fin 512, rep x y R k * rep x y C k
/-- The similarity of row r of x with row r of y. -/
def pos (x y : Arr) (r : Fin 4096) : EReal := ∑ k : Fin 512, unit x r k * unit y r k

/-- Column c of column block j. -/
def col (j : Fin 8) (c : Fin 1024) : Fin 8192 := ⟨1024 * j.val + c.val, by have := j.isLt; have := c.isLt; omega⟩

/-- The kernel's contribution of column block j to row R's denominator: the diagonal entry replaced by 0. -/
def tile (x y : Arr) (R : Fin 8192) (j : Fin 8) : EReal :=
  ∑ c : Fin 1024, if R = col j c then 0 else Ideal.exp (sim x y R (col j c) * invTemp)

/-- The kernel's loss of row R. -/
def rowK (x y : Arr) (R : Fin 8192) : EReal :=
  (0 - pos x y (lo R) * invTemp) + Ideal.log (∑ j : Fin 8, tile x y R j)

/-- The reference's loss of row R. -/
def rowR (x y : Arr) (R : Fin 8192) : EReal :=
  - Ideal.log (Ideal.div (Ideal.exp (Ideal.div (pos x y (lo R)) temp))
      (∑ C : Fin 8192, (1 - (if R = C then (1 : EReal) else 0)) * Ideal.exp (Ideal.div (sim x y R C) temp)))

/-- The mean of the row losses. -/
def loss (row : Fin 8192 → EReal) : EReal := Ideal.div (∑ R : Fin 8192, row R) count

/-- Every entry is a real number. -/
def Real2 (x : Arr) : Prop := ∀ r k, ∃ a : ℝ, x r k = (a : EReal)

end Cert.Spec

end
-- ==== Proof.Val.K0.lean ====
/-
  What region 0 leaves in its two output arrays, at the extended reals: the first holds the two normalised arrays one above
  the other (slice 0 the rows of the first input divided by the larger of their norm and the floor, slice 1 those of the
  second), the second the inner product of row r of the one with row r of the other.  Each grid point writes the 1024
  rows of its block; the four blocks tile the arrays.
-/
import proofs.«405127_j71124658422130_3_alg».proof.Proof.KI.R0
import proofs.«405127_j71124658422130_3_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The payloads at an index -/

/-- A row's sum kept as a one-column array: at row p it is the sum over the row's 512 entries. -/
theorem r0_rowsum_apply (v : FVec Ideal S1024x512 .f32) (p : Fin 1024) :
    shapeCast S1024x1 (multiReduction .add [1] S1024 v 0x00000000#32 reduces_S1024x512_S1024 (.inl rfl) rfl) shapeCasts_S1024_S1024x1
        (ix2 p (0 : Fin 1))
      = ∑ q : Fin 512, v (ix2 p q) := by
  refine (shapeCast_apply _ _ (ix2 p (0 : Fin 1)) (ix1 p) ?_).trans ?_
  · rw [Shape.rowMajor_val_one, Shape.rowMajor_val_two]
    show p.val = p.val * 1 + 0
    omega
  refine (Ideal.multiReduction_add_single v _ reduces_S1024x512_S1024 _ _ (ix1 p)).trans ?_
  refine Finset.sum_congr rfl fun q _ => congrArg v ?_
  funext a
  apply Fin.ext
  match a with
  | ⟨0, _⟩ => rfl
  | ⟨1, _⟩ => rfl

/-- A one-column array spread over 512 columns reads, at (p, k), its entry at (p, 0). -/
theorem r0_bcast_col_apply {α : Type} (v : S1024x1.Idx → α) (p : Fin 1024) (k : Fin 512) :
    broadcastTo S1024x512 v broadcasts_S1024x1_S1024x512 (ix2 p k) = v (ix2 p (0 : Fin 1)) := by
  refine broadcastTo_apply v broadcasts_S1024x1_S1024x512 (ix2 p k) (ix2 p (0 : Fin 1)) fun ax => ?_
  match ax with
  | ⟨0, _⟩ => rfl
  | ⟨1, _⟩ => rfl

/-- The first normalised block at (p, k): the entry divided by the larger of its row's norm and the floor. -/
theorem r0_pay1_apply (x : Vec Ideal S1024x512 .f32) (p : Fin 1024) (k : Fin 512) :
    k0_pay1 (F := Ideal) x (ix2 p k)
      = Ideal.div (x (ix2 p k)) (max (Ideal.sqrt (∑ q : Fin 512, x (ix2 p q) * x (ix2 p q))) Cert.Spec.eps) := by
  unfold k0_pay1
  refine congrArg (Ideal.div (x (ix2 p k))) ?_
  refine (r0_bcast_col_apply _ p k).trans ?_
  exact congrArg (fun s => max (Ideal.sqrt s) Cert.Spec.eps) (r0_rowsum_apply (mulf x x) p)

/-- The second normalised block likewise. -/
theorem r0_pay2_apply (x : Vec Ideal S1024x512 .f32) (p : Fin 1024) (k : Fin 512) :
    k0_pay2 (F := Ideal) x (ix2 p k)
      = Ideal.div (x (ix2 p k)) (max (Ideal.sqrt (∑ q : Fin 512, x (ix2 p q) * x (ix2 p q))) Cert.Spec.eps) := by
  unfold k0_pay2
  refine congrArg (Ideal.div (x (ix2 p k))) ?_
  refine (r0_bcast_col_apply _ p k).trans ?_
  exact congrArg (fun s => max (Ideal.sqrt s) Cert.Spec.eps) (r0_rowsum_apply (mulf x x) p)

/-- The first normalised block re-laid as one leading slice. -/
theorem r0_pay3_apply (x : Vec Ideal S1024x512 .f32) (u : Fin 1) (p : Fin 1024) (k : Fin 512) :
    k0_pay3 (F := Ideal) x (ix3 u p k) = k0_pay1 (F := Ideal) x (ix2 p k) := by
  unfold k0_pay3
  exact shapeCast_ab_1ab_apply _ shapeCasts_S1024x512_S1x1024x512 u p k

/-- The second likewise. -/
theorem r0_pay4_apply (x : Vec Ideal S1024x512 .f32) (u : Fin 1) (p : Fin 1024) (k : Fin 512) :
    k0_pay4 (F := Ideal) x (ix3 u p k) = k0_pay2 (F := Ideal) x (ix2 p k) := by
  unfold k0_pay4
  exact shapeCast_ab_1ab_apply _ shapeCasts_S1024x512_S1x1024x512 u p k

/-- The row-wise inner products of the two normalised blocks, kept as one column. -/
theorem r0_pay5_apply (x0 x1 : Vec Ideal S1024x512 .f32) (p : Fin 1024) :
    k0_pay5 (F := Ideal) x0 x1 (ix2 p (0 : Fin 1))
      = ∑ q : Fin 512, k0_pay1 (F := Ideal) x0 (ix2 p q) * k0_pay2 (F := Ideal) x1 (ix2 p q) := by
  unfold k0_pay5
  exact r0_rowsum_apply (mulf (k0_pay1 x0) (k0_pay2 x1)) p

/-! ## What the body leaves in its output buffers, at an index -/

theorem r0_hz2 : (![0, 0] : Fin 2 → Nat) = fun _ => 0 := funext fun a => by fin_cases a <;> rfl

/-- An index of the first output buffer in slice 0 is the first rectangle's image of its row and column. -/
theorem r0_emb_rA0 (a : Fin 2) (p : Fin 1024) (k : Fin 512) (ha : a.val = 0) :
    (ix3 a p k : S2x1024x512.Idx) = rA0.emb (ix3 (0 : Fin 1) p k) := by
  funext d; apply Fin.ext
  match d with
  | ⟨0, _⟩ => show a.val = 0 + 1 * 0; omega
  | ⟨1, _⟩ => show p.val = 0 + 1 * p.val; omega
  | ⟨2, _⟩ => show k.val = 0 + 1 * k.val; omega

/-- One in slice 1 is the second rectangle's. -/
theorem r0_emb_rB0 (a : Fin 2) (p : Fin 1024) (k : Fin 512) (ha : ¬ a.val = 0) :
    (ix3 a p k : S2x1024x512.Idx) = rB0.emb (ix3 (0 : Fin 1) p k) := by
  have ha1 : a.val < 2 := a.isLt
  funext d; apply Fin.ext
  match d with
  | ⟨0, _⟩ => show a.val = 1 + 1 * 0; omega
  | ⟨1, _⟩ => show p.val = 0 + 1 * p.val; omega
  | ⟨2, _⟩ => show k.val = 0 + 1 * k.val; omega

/-- Slice 0 is outside the second rectangle. -/
theorem r0_not_mem_rB0 (a : Fin 2) (p : Fin 1024) (k : Fin 512) (ha : a.val = 0) :
    (ix3 a p k : S2x1024x512.Idx) ∉ rB0.set := by
  rw [Rect.mem_set_unit]
  intro h
  have h0 : 1 ≤ a.val := (h 0).1
  omega

/-- The first output buffer at (a, p, k): slice 0 holds the first normalised block, slice 1 the second. -/
theorem r0_out2_apply (x0 x1 : Vec Ideal S1024x512 .f32) (a : Fin 2) (p : Fin 1024) (k : Fin 512) :
    out0_2 (F := Ideal) x0 x1 (ix3 a p k)
      = if a.val = 0 then k0_pay1 (F := Ideal) x0 (ix2 p k) else k0_pay2 (F := Ideal) x1 (ix2 p k) := by
  unfold out0_2
  by_cases ha : a.val = 0
  · rw [if_pos ha]
    refine (View.canon_cons_of_not_mem (⟨rB0, k0_pay4 x1⟩ : View.Piece (Elt Ideal) S2x1024x512 .bf16)
      [⟨rA0, k0_pay3 x0⟩] (r0_not_mem_rB0 a p k ha)).trans ?_
    refine (congrArg (View.canon ([⟨rA0, k0_pay3 x0⟩] : List (View.Piece (Elt Ideal) S2x1024x512 .bf16))) (r0_emb_rA0 a p k ha)).trans ?_
    refine (View.canon_cons_emb (Val := Elt Ideal) (s := S2x1024x512) (e := .bf16) rA0 (k0_pay3 x0) [] (ix3 (0 : Fin 1) p k)).trans ?_
    exact r0_pay3_apply x0 0 p k
  · rw [if_neg ha]
    refine (congrArg (View.canon ([⟨rB0, k0_pay4 x1⟩, ⟨rA0, k0_pay3 x0⟩] : List (View.Piece (Elt Ideal) S2x1024x512 .bf16))) (r0_emb_rB0 a p k ha)).trans ?_
    refine (View.canon_cons_emb (Val := Elt Ideal) (s := S2x1024x512) (e := .bf16) rB0 (k0_pay4 x1) [⟨rA0, k0_pay3 x0⟩] (ix3 (0 : Fin 1) p k)).trans ?_
    exact r0_pay4_apply x1 0 p k

/-- The second output buffer is the column of inner products. -/
theorem r0_out3_eq (x0 x1 : Vec Ideal S1024x512 .f32) : out0_3 (F := Ideal) x0 x1 = k0_pay5 (F := Ideal) x0 x1 := by
  unfold out0_3
  exact View.canon_unit_zero (Val := Elt Ideal) r0_hz2 _ _

/-! ## The blocks of the two inputs, read off their arrays -/

/-- The printed index maps, decided over the four points: point t reads and writes row block t. -/
theorem r0_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0
    ∧ win0_3.index t (0 : Fin 2) = t.val ∧ win0_3.index t (1 : Fin 2) = 0 :=
  (by decide +kernel : ∀ t : Fin grid0.N, _)

/-- The first input's block at point t holds, at (p, k), the array's entry at row 1024 t + p. -/
theorem r0_iblk0_apply (c : Dev nD) (t : Fin cfg0.N) (p : Fin 1024) (k : Fin 512) (r : Fin 4096)
    (hr : r.val = t.val * 1024 + p.val) :
    iblk0 (F := Ideal) V c 0 t (ix2 p k) = (V c main_arg0 : S4096x512.Idx → EReal) (ix2 r k) := by
  obtain ⟨e0, e1, -⟩ := r0_idx_facts t
  show (V c main_arg0 : S4096x512.Idx → EReal) (((cfg0.win 0).blk t).view.emb (ix2 p k)) = _
  refine congrArg (V c main_arg0 : S4096x512.Idx → EReal) ?_
  funext a; apply Fin.ext
  match a with
  | ⟨0, _⟩ => show win0_0.index t (0 : Fin 2) * 1024 + 1 * p.val = r.val; omega
  | ⟨1, _⟩ => show win0_0.index t (1 : Fin 2) * 512 + 1 * k.val = k.val; omega

/-- The second input's likewise. -/
theorem r0_iblk1_apply (c : Dev nD) (t : Fin cfg0.N) (p : Fin 1024) (k : Fin 512) (r : Fin 4096)
    (hr : r.val = t.val * 1024 + p.val) :
    iblk0 (F := Ideal) V c 1 t (ix2 p k) = (V c main_arg1 : S4096x512.Idx → EReal) (ix2 r k) := by
  obtain ⟨-, -, e0, e1, -⟩ := r0_idx_facts t
  show (V c main_arg1 : S4096x512.Idx → EReal) (((cfg0.win 1).blk t).view.emb (ix2 p k)) = _
  refine congrArg (V c main_arg1 : S4096x512.Idx → EReal) ?_
  funext a; apply Fin.ext
  match a with
  | ⟨0, _⟩ => show win0_1.index t (0 : Fin 2) * 1024 + 1 * p.val = r.val; omega
  | ⟨1, _⟩ => show win0_1.index t (1 : Fin 2) * 512 + 1 * k.val = k.val; omega

/-- The first normalised block at point t is the normalised first array on row block t. -/
theorem r0_pay1_blk (c : Dev nD) (t : Fin cfg0.N) (p : Fin 1024) (k : Fin 512) (r : Fin 4096)
    (hr : r.val = t.val * 1024 + p.val) :
    k0_pay1 (F := Ideal) (iblk0 V c 0 t) (ix2 p k) = Cert.Spec.unit (Cert.Spec.arrOf (V c main_arg0)) r k := by
  refine (r0_pay1_apply (iblk0 V c 0 t) p k).trans ?_
  have e : ∀ q : Fin 512, iblk0 (F := Ideal) V c 0 t (ix2 p q) = (V c main_arg0 : S4096x512.Idx → EReal) (ix2 r q) :=
    fun q => r0_iblk0_apply V c t p q r hr
  simp only [e]
  rfl

/-- The second likewise. -/
theorem r0_pay2_blk (c : Dev nD) (t : Fin cfg0.N) (p : Fin 1024) (k : Fin 512) (r : Fin 4096)
    (hr : r.val = t.val * 1024 + p.val) :
    k0_pay2 (F := Ideal) (iblk0 V c 1 t) (ix2 p k) = Cert.Spec.unit (Cert.Spec.arrOf (V c main_arg1)) r k := by
  refine (r0_pay2_apply (iblk0 V c 1 t) p k).trans ?_
  have e : ∀ q : Fin 512, iblk0 (F := Ideal) V c 1 t (ix2 p q) = (V c main_arg1 : S4096x512.Idx → EReal) (ix2 r q) :=
    fun q => r0_iblk1_apply V c t p q r hr
  simp only [e]
  rfl

/-! ## The two output arrays as whole-array functions -/

/-- The first output array: slice 0 the normalised first input, slice 1 the normalised second. -/
def r0_G2 (X Y : S4096x512.Idx → EReal) : S2x4096x512.Idx → EReal := fun i =>
  if (i 0).val = 0 then Cert.Spec.unit (Cert.Spec.arrOf X) (i 1) (i 2) else Cert.Spec.unit (Cert.Spec.arrOf Y) (i 1) (i 2)

/-- The second output array: row r holds the inner product of the two normalised rows r. -/
def r0_G3 (X Y : S4096x512.Idx → EReal) : S4096x1.Idx → EReal := fun i =>
  Cert.Spec.pos (Cert.Spec.arrOf X) (Cert.Spec.arrOf Y) (i 0)

/-- What the body leaves in the first output buffer at point t is row block t of the first output array. -/
theorem r0_blk2_apply (c : Dev nD) (t : Fin cfg0.N) (a : Fin 2) (p : Fin 1024) (k : Fin 512) (r : Fin 4096)
    (hr : r.val = t.val * 1024 + p.val) :
    out0_2 (F := Ideal) (iblk0 V c 0 t) (iblk0 V c 1 t) (ix3 a p k) = r0_G2 (V c main_arg0) (V c main_arg1) (ix3 a r k) := by
  refine (r0_out2_apply (iblk0 V c 0 t) (iblk0 V c 1 t) a p k).trans ?_
  show _ = if a.val = 0 then Cert.Spec.unit (Cert.Spec.arrOf (V c main_arg0)) r k else Cert.Spec.unit (Cert.Spec.arrOf (V c main_arg1)) r k
  by_cases ha : a.val = 0
  · rw [if_pos ha, if_pos ha]; exact r0_pay1_blk V c t p k r hr
  · rw [if_neg ha, if_neg ha]; exact r0_pay2_blk V c t p k r hr

/-- What it leaves in the second at point t is row block t of the second output array. -/
theorem r0_blk3_apply (c : Dev nD) (t : Fin cfg0.N) (p : Fin 1024) (r : Fin 4096)
    (hr : r.val = t.val * 1024 + p.val) :
    out0_3 (F := Ideal) (iblk0 V c 0 t) (iblk0 V c 1 t) (ix2 p (0 : Fin 1)) = r0_G3 (V c main_arg0) (V c main_arg1) (ix2 r (0 : Fin 1)) := by
  rw [r0_out3_eq]
  refine (r0_pay5_apply (iblk0 V c 0 t) (iblk0 V c 1 t) p).trans ?_
  show _ = ∑ q : Fin 512, Cert.Spec.unit (Cert.Spec.arrOf (V c main_arg0)) r q * Cert.Spec.unit (Cert.Spec.arrOf (V c main_arg1)) r q
  refine Finset.sum_congr rfl fun q _ => ?_
  rw [r0_pay1_blk V c t p q r hr, r0_pay2_blk V c t p q r hr]

/-! ## What a point writes back -/

/-- Point t writes back block t of the first output array. -/
theorem r0_flushed2_eq (c : Dev nD) (t : Fin cfg0.N) :
    (dat0 (F := Ideal) V c).flushed 2 t
      = ((cfg0.win 2).blk t).view.read (Elt Ideal) (r0_G2 (V c main_arg0) (V c main_arg1)) := by
  show (cfg0.win 2).cut (grid0.coords t) ((dat0 (F := Ideal) V c).after 2 t) = _
  rw [after0_2]
  funext j
  have h0 : (j 0).val < 2 := (j 0).isLt
  have h1 : (j 1).val < 1024 := (j 1).isLt
  have h2 : (j 2).val < 512 := (j 2).isLt
  have ht : t.val < 4 := t.isLt
  obtain ⟨-, -, -, -, e0, e1, e2, -⟩ := r0_idx_facts t
  have hL : (cfg0.win 2).xinj (grid0.coords t) j
      = (ix3 (⟨(j 0).val, h0⟩ : Fin 2) (⟨(j 1).val, h1⟩ : Fin 1024) (⟨(j 2).val, h2⟩ : Fin 512) : S2x1024x512.Idx) := by
    funext d; apply Fin.ext
    match d with
    | ⟨0, _⟩ => rfl
    | ⟨1, _⟩ => rfl
    | ⟨2, _⟩ => rfl
  have hR : ((cfg0.win 2).blk t).view.emb j
      = (ix3 (⟨(j 0).val, h0⟩ : Fin 2) (⟨t.val * 1024 + (j 1).val, by omega⟩ : Fin 4096) (⟨(j 2).val, h2⟩ : Fin 512) : S2x4096x512.Idx) := by
    funext d; apply Fin.ext
    match d with
    | ⟨0, _⟩ => show win0_2.index t (0 : Fin 3) * 2 + 1 * (j 0).val = (j 0).val; omega
    | ⟨1, _⟩ => show win0_2.index t (1 : Fin 3) * 1024 + 1 * (j 1).val = t.val * 1024 + (j 1).val; omega
    | ⟨2, _⟩ => show win0_2.index t (2 : Fin 3) * 512 + 1 * (j 2).val = (j 2).val; omega
  show out0_2 (F := Ideal) (iblk0 V c 0 t) (iblk0 V c 1 t) ((cfg0.win 2).xinj (grid0.coords t) j)
    = r0_G2 (V c main_arg0) (V c main_arg1) (((cfg0.win 2).blk t).view.emb j)
  refine (congrArg (out0_2 (F := Ideal) (iblk0 V c 0 t) (iblk0 V c 1 t)) hL).trans ?_
  refine Eq.trans ?_ (congrArg (r0_G2 (V c main_arg0) (V c main_arg1)) hR).symm
  exact r0_blk2_apply V c t _ _ _ _ rfl

/-- Point t writes back block t of the second output array. -/
theorem r0_flushed3_eq (c : Dev nD) (t : Fin cfg0.N) :
    (dat0 (F := Ideal) V c).flushed 3 t
      = ((cfg0.win 3).blk t).view.read (Elt Ideal) (r0_G3 (V c main_arg0) (V c main_arg1)) := by
  show (cfg0.win 3).cut (grid0.coords t) ((dat0 (F := Ideal) V c).after 3 t) = _
  rw [after0_3]
  funext j
  have h0 : (j 0).val < 1024 := (j 0).isLt
  have h1 : (j 1).val < 1 := (j 1).isLt
  have ht : t.val < 4 := t.isLt
  obtain ⟨-, -, -, -, -, -, -, e0, e1⟩ := r0_idx_facts t
  have hL : (cfg0.win 3).xinj (grid0.coords t) j = (ix2 (⟨(j 0).val, h0⟩ : Fin 1024) (0 : Fin 1) : S1024x1.Idx) := by
    funext d; apply Fin.ext
    match d with
    | ⟨0, _⟩ => rfl
    | ⟨1, _⟩ => show (j 1).val = 0; omega
  have hR : ((cfg0.win 3).blk t).view.emb j
      = (ix2 (⟨t.val * 1024 + (j 0).val, by omega⟩ : Fin 4096) (0 : Fin 1) : S4096x1.Idx) := by
    funext d; apply Fin.ext
    match d with
    | ⟨0, _⟩ => show win0_3.index t (0 : Fin 2) * 1024 + 1 * (j 0).val = t.val * 1024 + (j 0).val; omega
    | ⟨1, _⟩ => show win0_3.index t (1 : Fin 2) * 1 + 1 * (j 1).val = 0; omega
  show out0_3 (F := Ideal) (iblk0 V c 0 t) (iblk0 V c 1 t) ((cfg0.win 3).xinj (grid0.coords t) j)
    = r0_G3 (V c main_arg0) (V c main_arg1) (((cfg0.win 3).blk t).view.emb j)
  refine (congrArg (out0_3 (F := Ideal) (iblk0 V c 0 t) (iblk0 V c 1 t)) hL).trans ?_
  refine Eq.trans ?_ (congrArg (r0_G3 (V c main_arg0) (V c main_arg1)) hR).symm
  exact r0_blk3_apply V c t _ _ rfl

/-! ## The four blocks tile the arrays -/

/-- An index of the first output array is in point t's block iff each coordinate is in the block's range. -/
theorem r0_mem_blk2 (t : Fin cfg0.N) (i : S2x4096x512.Idx) :
    i ∈ ((cfg0.win 2).blk t).view.set ↔ ∀ a : Fin 3, win0_2.index t a * S2x1024x512.size a ≤ (i a).val
      ∧ (i a).val < win0_2.index t a * S2x1024x512.size a + S2x1024x512.size a := by
  show i ∈ ((View.whole main_v0_0).slice (win0_2.rect t)).set ↔ _
  rw [View.set_slice_whole, Rect.mem_set_unit]
  exact Iff.rfl

/-- One of the second likewise. -/
theorem r0_mem_blk3 (t : Fin cfg0.N) (i : S4096x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0_1).slice (win0_3.rect t)).set ↔ _
  rw [View.set_slice_whole, Rect.mem_set_unit]
  exact Iff.rfl

/-- Row r of the first output array is written back by point r / 1024. -/
theorem r0_cover2 (i : S2x4096x512.Idx) :
    ∃ t : Fin cfg0.N, (cfg0.win 2).flush t = true ∧ i ∈ ((cfg0.win 2).blk t).view.set := by
  have h0 : (i 0).val < 2 := (i 0).isLt
  have h1 : (i 1).val < 4096 := (i 1).isLt
  have h2 : (i 2).val < 512 := (i 2).isLt
  have hN : (i 1).val / 1024 < cfg0.N := by show _ < grid0.N; rw [N_0]; omega
  refine ⟨⟨(i 1).val / 1024, hN⟩, flush0_2 _, ?_⟩
  obtain ⟨-, -, -, -, e0, e1, e2, -⟩ := r0_idx_facts ⟨(i 1).val / 1024, hN⟩
  have e1' : win0_2.index ⟨(i 1).val / 1024, hN⟩ (1 : Fin 3) = (i 1).val / 1024 := e1
  rw [r0_mem_blk2]
  intro a
  match a with
  | ⟨0, _⟩ =>
    show win0_2.index ⟨(i 1).val / 1024, hN⟩ (0 : Fin 3) * 2 ≤ (i 0).val
      ∧ (i 0).val < win0_2.index ⟨(i 1).val / 1024, hN⟩ (0 : Fin 3) * 2 + 2
    omega
  | ⟨1, _⟩ =>
    show win0_2.index ⟨(i 1).val / 1024, hN⟩ (1 : Fin 3) * 1024 ≤ (i 1).val
      ∧ (i 1).val < win0_2.index ⟨(i 1).val / 1024, hN⟩ (1 : Fin 3) * 1024 + 1024
    omega
  | ⟨2, _⟩ =>
    show win0_2.index ⟨(i 1).val / 1024, hN⟩ (2 : Fin 3) * 512 ≤ (i 2).val
      ∧ (i 2).val < win0_2.index ⟨(i 1).val / 1024, hN⟩ (2 : Fin 3) * 512 + 512
    omega

/-- Row r of the second likewise. -/
theorem r0_cover3 (i : S4096x1.Idx) :
    ∃ t : Fin cfg0.N, (cfg0.win 3).flush t = true ∧ i ∈ ((cfg0.win 3).blk t).view.set := by
  have h0 : (i 0).val < 4096 := (i 0).isLt
  have h1 : (i 1).val < 1 := (i 1).isLt
  have hN : (i 0).val / 1024 < cfg0.N := by show _ < grid0.N; rw [N_0]; omega
  refine ⟨⟨(i 0).val / 1024, hN⟩, flush0_3 _, ?_⟩
  obtain ⟨-, -, -, -, -, -, -, e0, e1⟩ := r0_idx_facts ⟨(i 0).val / 1024, hN⟩
  have e0' : win0_3.index ⟨(i 0).val / 1024, hN⟩ (0 : Fin 2) = (i 0).val / 1024 := e0
  rw [r0_mem_blk3]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    omega
  | ⟨1, _⟩ =>
    show win0_3.index ⟨(i 0).val / 1024, hN⟩ (1 : Fin 2) * 1 ≤ (i 1).val
      ∧ (i 1).val < win0_3.index ⟨(i 0).val / 1024, hN⟩ (1 : Fin 2) * 1 + 1
    omega

/-! ## The arrays after the region -/

/-- The first output array ends holding the two normalised arrays. -/
theorem r0_arr2_eq (c : Dev nD) : (dat0 (F := Ideal) V c).arrAt 2 cfg0.N = r0_G2 (V c main_arg0) (V c main_arg1) :=
  (dat0 (F := Ideal) V c).arrAt_eq_of_cover 2 (r0_G2 (V c main_arg0) (V c main_arg1)) (fun t _ => r0_flushed2_eq V c t) r0_cover2

/-- The second ends holding the rows' inner products. -/
theorem r0_arr3_eq (c : Dev nD) : (dat0 (F := Ideal) V c).arrAt 3 cfg0.N = r0_G3 (V c main_arg0) (V c main_arg1) :=
  (dat0 (F := Ideal) V c).arrAt_eq_of_cover 3 (r0_G3 (V c main_arg0) (V c main_arg1)) (fun t _ => r0_flushed3_eq V c t) r0_cover3

/-- After region 0 its first output array holds, at slice a, row r, column k, the normalised entry of the first input
    (a = 0) or of the second (a = 1). -/
theorem reps3_eq (c : Dev nD) (a : Fin 2) (r : Fin 4096) (k : Fin 512) :
    ((dat0 (F := Ideal) V c).arrAt 2 cfg0.N : S2x4096x512.Idx → EReal) (ix3 a r k)
      = if a.val = 0 then Cert.Spec.unit (Cert.Spec.arrOf (V c main_arg0)) r k else Cert.Spec.unit (Cert.Spec.arrOf (V c main_arg1)) r k :=
  (congrFun (r0_arr2_eq V c) (ix3 a r k)).trans rfl

/-- After region 0 its second output array holds, at row r, the inner product of the two normalised rows r. -/
theorem pos2_eq (c : Dev nD) (r : Fin 4096) :
    ((dat0 (F := Ideal) V c).arrAt 3 cfg0.N : S4096x1.Idx → EReal) (ix2 r (0 : Fin 1))
      = Cert.Spec.pos (Cert.Spec.arrOf (V c main_arg0)) (Cert.Spec.arrOf (V c main_arg1)) r :=
  (congrFun (r0_arr3_eq V c) (ix2 r (0 : Fin 1))).trans rfl

end Cert.KernelIdeal.KVal

end
-- ==== Proof.Val.K1.lean ====
/-
  What region 1 leaves in its output array, at the extended reals, given what its two input arrays hold: if the array of
  stacked rows reads rep R k and the array of positives p R, then row R of the output is
  (0 - p R · (1/T)) + log (Σ_j Σ_c [R ≠ 1024 j + c] exp ((Σ_k rep R k · rep (1024 j + c) k) · (1/T))).
  Row R lies in row block i = R / 2048; its eight points t = 8 i + j add the eight column blocks' row sums in order.
-/
import proofs.«405127_j71124658422130_3_alg».proof.Proof.KI.R1
import proofs.«405127_j71124658422130_3_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KVal

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The kernel's named factor at the extended reals. -/
theorem inv_temp_eq : Named.named (F := Ideal) Cert.KernelIdeal.κ "inv_temp" (φ := .f32) 0x41200000#32 = Cert.Spec.invTemp :=
  IdealRules.named_const.ideal_named_scalar _ _ _ _ rfl

/-- The accumulator's start is the zero vector. -/
theorem r1_pay1_apply (q : Fin 2048) : (k1_pay1 (F := Ideal)) (ix2 q (0 : Fin 1)) = 0 := by
  unfold k1_pay1
  refine (congrFun (shapeCast_self _ _) _).trans ?_
  exact Ideal.ofBits_zero_f32

/-- The product's operand indices at an output index and a contraction index, coordinate by coordinate: the left
    operand is read at (row, k), the right at (k, column). -/
theorem r1_lhs_DD_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem r1_lhs_DD_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem r1_rhs_DD_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem r1_rhs_DD_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The similarity tile: row q of the row block against row c' of the column block. -/
theorem r1_pay2_apply (x3 : Vec Ideal S2048x512 .bf16) (x5 : Vec Ideal S1024x512 .bf16) (q : Fin 2048) (c' : Fin 1024) :
    k1_pay2 (F := Ideal) x3 x5 (ix2 q c') = ∑ k : Fin 512, x3 (ix2 q k) * x5 (ix2 c' k) := by
  unfold k1_pay2
  dsimp only
  simp only [matmul]
  refine (Ideal.matmul_constant_zero_apply _ none _ _ _).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 q c') ((contrEquiv1 dot_S2048x512_S512x1024_S2048x1024_1_0_0_1_n_n 512 rfl rfl).symm k) = ix2 q k := funext fun a => Fin.ext (by
    match a with
    | ⟨0, _⟩ => exact r1_lhs_DD_0 _ _
    | ⟨1, _⟩ => exact (r1_lhs_DD_1 _ _).trans hk)
  have er0 : (dot_S2048x512_S512x1024_S2048x1024_1_0_0_1_n_n.rhsIdx (ix2 q c') ((contrEquiv1 dot_S2048x512_S512x1024_S2048x1024_1_0_0_1_n_n 512 rfl rfl).symm k) 0).val = k.val := (r1_rhs_DD_0 _ _).trans hk
  have er1 : (dot_S2048x512_S512x1024_S2048x1024_1_0_0_1_n_n.rhsIdx (ix2 q c') ((contrEquiv1 dot_S2048x512_S512x1024_S2048x1024_1_0_0_1_n_n 512 rfl rfl).symm k) 1).val = c'.val := r1_rhs_DD_1 _ _
  rw [el]
  refine congrArg₂ (· * ·) (congrFun (shapeCast_self _ _) _) ?_
  refine (transpose_apply _ _ _ _ (ix2 c' k) ?_).trans (congrFun (shapeCast_self _ _) _)
  intro b
  match b with
  | ⟨0, _⟩ => exact er0.symm
  | ⟨1, _⟩ => exact er1.symm

/-- Row sums of the exponentials of a tile, added to the accumulator. -/
theorem r1_pay4_apply (x3 : Vec Ideal S2048x512 .bf16) (x5 : Vec Ideal S1024x512 .bf16) (s : Vec Ideal S2048x1 .f32) (q : Fin 2048) :
    k1_pay4 (F := Ideal) x3 x5 s (ix2 q (0 : Fin 1))
      = s (ix2 q (0 : Fin 1)) + ∑ c' : Fin 1024, Ideal.exp (k1_pay2 (F := Ideal) x3 x5 (ix2 q c') * Cert.Spec.invTemp) := by
  unfold k1_pay4
  refine (congrFun (shapeCast_self _ _) _).trans ?_
  refine (addf_apply _ _ _).trans ?_
  refine congrArg (s (ix2 q (0 : Fin 1)) + ·) ?_
  refine (shapeCast_apply _ _ _ (ix1 q) ?_).trans ?_
  · rw [Shape.rowMajor_val_one, Shape.rowMajor_val_two]
    show q.val = q.val * 1 + 0
    omega
  refine (Ideal.multiReduction_add_single _ _ _ _ _ _).trans ?_
  refine Finset.sum_congr rfl fun c' _ => ?_
  have e : reduces_S2048x1024_S2048.lift (ix1 q) c' = ix2 q c' :=
    funext fun a => Fin.ext (by match a with | ⟨0, _⟩ => rfl | ⟨1, _⟩ => rfl)
  rw [e]
  show Ideal.exp (k1_pay2 (F := Ideal) x3 x5 (ix2 q c') * Named.named (F := Ideal) Cert.KernelIdeal.κ "inv_temp" (φ := .f32) 0x41200000#32) = _
  rw [inv_temp_eq]

/-- The row loss from the paired similarity and the accumulated sum. -/
theorem r1_pay5_apply (v s : Vec Ideal S2048x1 .f32) (q : Fin 2048) :
    k1_pay5 (F := Ideal) v s (ix2 q (0 : Fin 1))
      = (0 - v (ix2 q (0 : Fin 1)) * Cert.Spec.invTemp) + Ideal.log (s (ix2 q (0 : Fin 1))) := by
  unfold k1_pay5
  show (Ideal.ofBits .f32 0x00000000#32 - shapeCast S2048x1 v shapeCasts_S2048x1_S2048x1 (ix2 q (0 : Fin 1)) * Named.named (F := Ideal) Cert.KernelIdeal.κ "inv_temp" (φ := .f32) 0x41200000#32) + Ideal.log (s (ix2 q (0 : Fin 1))) = _
  rw [Ideal.ofBits_zero_f32, inv_temp_eq, shapeCast_self]

/-- A row number and a column number as 32-bit words. -/
theorem r1_word_of (a n q : Nat) (m : BitVec 32) (hm : m = BitVec.ofNat 32 n) :
    IntOp.addi (Scalar.muli (BitVec.ofNat 32 a) m) (BitVec.ofNat 32 q) = BitVec.ofNat 32 (n * a + q) := by
  subst hm
  apply BitVec.eq_of_toNat_eq
  simp only [IntOp.addi, Scalar.muli, IntOp.muli, BitVec.toNat_add, BitVec.toNat_mul, BitVec.toNat_ofNat]
  rw [Nat.mul_comm n a]
  simp [Nat.add_mod, Nat.mul_mod]

/-- Two numbers below 2^32 are equal as words exactly when they are equal. -/
theorem r1_cmp_words (x y : Nat) (hx : x < 2 ^ 32) (hy : y < 2 ^ 32) :
    IntOp.cmpi .eq (BitVec.ofNat 32 x) (BitVec.ofNat 32 y) = if x = y then 1#1 else 0#1 := by
  by_cases h : x = y
  · rw [if_pos h]; exact IntOp.cmpi_eq.mpr (by rw [h])
  · rw [if_neg h]
    refine eq_zero_of_ne_one fun e => h ?_
    have := congrArg BitVec.toNat (IntOp.cmpi_eq.mp e)
    rw [BitVec.toNat_ofNat, BitVec.toNat_ofNat, Nat.mod_eq_of_lt hx, Nat.mod_eq_of_lt hy] at this
    exact this

/-- The diagonal mask at an entry of the tile: the row's number in the stacked rows against the column's. -/
theorem r1_mask_apply (i : grid1.Coords) (q : Fin 2048) (c' : Fin 1024) :
    cmpi .eq (broadcastTo S2048x1024 (addi (broadcast S2048x1 (Scalar.muli (BitVec.ofNat 32 (i 0).val) 2048#32)) (iota .tc S2048x1 32 [0] iota_S2048x1_d0_w32)) broadcasts_S2048x1_S2048x1024)
      (broadcastTo S2048x1024 (addi (broadcast S1x1024 (Scalar.muli (BitVec.ofNat 32 (i 1).val) 1024#32)) (iota .tc S1x1024 32 [1] iota_S1x1024_d1_w32)) broadcasts_S1x1024_S2048x1024) (ix2 q c')
      = if 2048 * (i 0).val + q.val = 1024 * (i 1).val + c'.val then 1#1 else 0#1 := by
  have h0 : (i 0).val < 4 := (i 0).isLt
  have h1 : (i 1).val < 8 := (i 1).isLt
  have eL : broadcastTo S2048x1024 (addi (broadcast S2048x1 (Scalar.muli (BitVec.ofNat 32 (i 0).val) 2048#32)) (iota .tc S2048x1 32 [0] iota_S2048x1_d0_w32)) broadcasts_S2048x1_S2048x1024 (ix2 q c')
      = BitVec.ofNat 32 (2048 * (i 0).val + q.val) := by
    refine (broadcastTo_apply _ _ _ (ix2 q (0 : Fin 1)) ?_).trans ?_
    · intro a; match a with | ⟨0, _⟩ => rfl | ⟨1, _⟩ => rfl
    show IntOp.addi (Scalar.muli (BitVec.ofNat 32 (i 0).val) 2048#32) (iota .tc S2048x1 32 [0] iota_S2048x1_d0_w32 (ix2 q (0 : Fin 1))) = _
    rw [iota_single_apply]
    exact r1_word_of _ 2048 _ _ rfl
  have eR : broadcastTo S2048x1024 (addi (broadcast S1x1024 (Scalar.muli (BitVec.ofNat 32 (i 1).val) 1024#32)) (iota .tc S1x1024 32 [1] iota_S1x1024_d1_w32)) broadcasts_S1x1024_S2048x1024 (ix2 q c')
      = BitVec.ofNat 32 (1024 * (i 1).val + c'.val) := by
    refine (broadcastTo_apply _ _ _ (ix2 (0 : Fin 1) c') ?_).trans ?_
    · intro a; match a with | ⟨0, _⟩ => rfl | ⟨1, _⟩ => rfl
    show IntOp.addi (Scalar.muli (BitVec.ofNat 32 (i 1).val) 1024#32) (iota .tc S1x1024 32 [1] iota_S1x1024_d1_w32 (ix2 (0 : Fin 1) c')) = _
    rw [iota_single_apply]
    exact r1_word_of _ 1024 _ _ rfl
  show IntOp.cmpi .eq _ _ = _
  rw [eL, eR]
  exact r1_cmp_words _ _ (by have := q.isLt; omega) (by have := c'.isLt; omega)

/-- The same with the diagonal entry left out. -/
theorem r1_pay3_apply (i : grid1.Coords) (x3 : Vec Ideal S2048x512 .bf16) (x5 : Vec Ideal S1024x512 .bf16) (s : Vec Ideal S2048x1 .f32) (q : Fin 2048) :
    k1_pay3 (F := Ideal) i x3 x5 s (ix2 q (0 : Fin 1))
      = s (ix2 q (0 : Fin 1)) + ∑ c' : Fin 1024,
          if 2048 * (i 0).val + q.val = 1024 * (i 1).val + c'.val then 0
          else Ideal.exp (k1_pay2 (F := Ideal) x3 x5 (ix2 q c') * Cert.Spec.invTemp) := by
  unfold k1_pay3
  refine (congrFun (shapeCast_self _ _) _).trans ?_
  refine (addf_apply _ _ _).trans ?_
  refine congrArg (s (ix2 q (0 : Fin 1)) + ·) ?_
  refine (shapeCast_apply _ _ _ (ix1 q) ?_).trans ?_
  · rw [Shape.rowMajor_val_one, Shape.rowMajor_val_two]
    show q.val = q.val * 1 + 0
    omega
  refine (Ideal.multiReduction_add_single _ _ _ _ _ _).trans ?_
  refine Finset.sum_congr rfl fun c' _ => ?_
  have e : reduces_S2048x1024_S2048.lift (ix1 q) c' = ix2 q c' :=
    funext fun a => Fin.ext (by match a with | ⟨0, _⟩ => rfl | ⟨1, _⟩ => rfl)
  rw [e]
  refine (select_apply _ _ _ _).trans ?_
  refine (congrArg (fun m => Scalar.select m _ _) (r1_mask_apply i q c')).trans ?_
  by_cases hP : 2048 * (i 0).val + q.val = 1024 * (i 1).val + c'.val
  · rw [if_pos hP, if_pos hP, select_one]
    exact Ideal.ofBits_zero_f32
  · rw [if_neg hP, if_neg hP, select_zero]
    show Ideal.exp (k1_pay2 (F := Ideal) x3 x5 (ix2 q c') * Named.named (F := Ideal) Cert.KernelIdeal.κ "inv_temp" (φ := .f32) 0x41200000#32) = _
    rw [inv_temp_eq]

/-- The block indices of the four windows, and the point's two coordinates, over the grid. -/
theorem r1_idx_facts : ∀ t : Fin cfg1.N,
    win1_0.index t 0 = t.val / 8 ∧ win1_0.index t 1 = 0 ∧ win1_1.index t 0 = t.val % 8 ∧ win1_1.index t 1 = 0
    ∧ win1_2.index t 0 = t.val / 8 ∧ win1_2.index t 1 = 0 ∧ win1_3.index t 0 = t.val / 8 ∧ win1_3.index t 1 = 0
    ∧ (grid1.coords t 0).val = t.val / 8 ∧ (grid1.coords t 1).val = t.val % 8 :=
  (by decide +kernel : ∀ t : Fin grid1.N,
    win1_0.index t 0 = t.val / 8 ∧ win1_0.index t 1 = 0 ∧ win1_1.index t 0 = t.val % 8 ∧ win1_1.index t 1 = 0
    ∧ win1_2.index t 0 = t.val / 8 ∧ win1_2.index t 1 = 0 ∧ win1_3.index t 0 = t.val / 8 ∧ win1_3.index t 1 = 0
    ∧ (grid1.coords t 0).val = t.val / 8 ∧ (grid1.coords t 1).val = t.val % 8)

section Blocks
variable (c : Dev nD) (rep : Fin 8192 → Fin 512 → EReal) (p : Fin 8192 → EReal)
variable (hrep : ∀ (R : Fin 8192) (k : Fin 512), (V c main_v1 : S8192x512.Idx → EReal) (ix2 R k) = rep R k)
variable (hpos : ∀ R : Fin 8192, (V c main_v4 : S8192x1.Idx → EReal) (ix2 R (0 : Fin 1)) = p R)

include hrep in
/-- The row block at a point holds the stacked rows of row block t / 8. -/
theorem r1_rowBlk_apply (t : Fin cfg1.N) (q : Fin 2048) (k : Fin 512) (R : Fin 8192) (hR : R.val = 2048 * (t.val / 8) + q.val) :
    rowBlk V c t (ix2 q k) = rep R k := by
  refine Eq.trans ?_ (hrep R k)
  show (V c main_v1 : S8192x512.Idx → EReal) (((cfg1.win 0).blk t).view.emb (ix2 q k)) = _
  refine congrArg _ (funext fun a => Fin.ext ?_)
  match a with
  | ⟨0, _⟩ => show win1_0.index t 0 * 2048 + 1 * q.val = R.val; rw [(r1_idx_facts t).1]; omega
  | ⟨1, _⟩ => show win1_0.index t 1 * 512 + 1 * k.val = k.val; rw [(r1_idx_facts t).2.1]; omega

include hrep in
/-- The column block at a point holds the stacked rows of column block t % 8. -/
theorem r1_colBlk_apply (t : Fin cfg1.N) (c' : Fin 1024) (k : Fin 512) (C : Fin 8192) (hC : C.val = 1024 * (t.val % 8) + c'.val) :
    colBlk V c t (ix2 c' k) = rep C k := by
  refine Eq.trans ?_ (hrep C k)
  show (V c main_v1 : S8192x512.Idx → EReal) (((cfg1.win 1).blk t).view.emb (ix2 c' k)) = _
  refine congrArg _ (funext fun a => Fin.ext ?_)
  match a with
  | ⟨0, _⟩ => show win1_1.index t 0 * 1024 + 1 * c'.val = C.val; rw [(r1_idx_facts t).2.2.1]; omega
  | ⟨1, _⟩ => show win1_1.index t 1 * 512 + 1 * k.val = k.val; rw [(r1_idx_facts t).2.2.2.1]; omega

include hpos in
/-- The positives' block at a point holds those of row block t / 8. -/
theorem r1_posBlk_apply (t : Fin cfg1.N) (q : Fin 2048) (R : Fin 8192) (hR : R.val = 2048 * (t.val / 8) + q.val) :
    posBlk V c t (ix2 q (0 : Fin 1)) = p R := by
  refine Eq.trans ?_ (hpos R)
  show (V c main_v4 : S8192x1.Idx → EReal) (((cfg1.win 2).blk t).view.emb (ix2 q (0 : Fin 1))) = _
  refine congrArg _ (funext fun a => Fin.ext ?_)
  match a with
  | ⟨0, _⟩ => show win1_2.index t 0 * 2048 + 1 * q.val = R.val; rw [(r1_idx_facts t).2.2.2.2.1]; omega
  | ⟨1, _⟩ => show win1_2.index t 1 * 1 + 1 * 0 = 0; rw [(r1_idx_facts t).2.2.2.2.2.1]

end Blocks

/-- The row loss region 1 computes from stacked rows rep and positives p. -/
def rowOf (rep : Fin 8192 → Fin 512 → EReal) (p : Fin 8192 → EReal) (R : Fin 8192) : EReal :=
  (0 - p R * Cert.Spec.invTemp)
    + Ideal.log (∑ j : Fin 8, ∑ c' : Fin 1024,
        if R = Cert.Spec.col j c' then 0 else Ideal.exp ((∑ k : Fin 512, rep R k * rep (Cert.Spec.col j c') k) * Cert.Spec.invTemp))

/-- Column c' of column block j, for any natural j (reduced into range). -/
def r1_colN (j : ℕ) (c' : Fin 1024) : Fin 8192 := ⟨(1024 * j + c'.val) % 8192, Nat.mod_lt _ (by norm_num)⟩

/-- Column block j's share of row R's sum, the diagonal entry left out. -/
def r1_tileN (rep : Fin 8192 → Fin 512 → EReal) (R : Fin 8192) (j : ℕ) : EReal :=
  ∑ c' : Fin 1024, if R.val = 1024 * j + c'.val then 0
    else Ideal.exp ((∑ k : Fin 512, rep R k * rep (r1_colN j c') k) * Cert.Spec.invTemp)

section Fold
variable (c : Dev nD) (rep : Fin 8192 → Fin 512 → EReal) (p : Fin 8192 → EReal)
variable (hrep : ∀ (R : Fin 8192) (k : Fin 512), (V c main_v1 : S8192x512.Idx → EReal) (ix2 R k) = rep R k)
variable (hpos : ∀ R : Fin 8192, (V c main_v4 : S8192x1.Idx → EReal) (ix2 R (0 : Fin 1)) = p R)

include hrep in
/-- The similarity of row q of the point's row block with row c' of its column block. -/
theorem r1_sim_apply (t : Fin cfg1.N) (q : Fin 2048) (c' : Fin 1024) (R : Fin 8192) (hR : R.val = 2048 * (t.val / 8) + q.val) :
    k1_pay2 (F := Ideal) (rowBlk V c t) (colBlk V c t) (ix2 q c')
      = ∑ k : Fin 512, rep R k * rep (r1_colN (t.val % 8) c') k := by
  have hC : (r1_colN (t.val % 8) c').val = 1024 * (t.val % 8) + c'.val :=
    Nat.mod_eq_of_lt (by have := c'.isLt; omega)
  refine (r1_pay2_apply _ _ _ _).trans (Finset.sum_congr rfl fun k _ => ?_)
  rw [r1_rowBlk_apply V c rep hrep t q k R hR, r1_colBlk_apply V c rep hrep t c' k _ hC]

include hrep in
/-- One step at a point whose tile meets the diagonal: the tile's masked row sums are added. -/
theorem r1_step_ov (t : Fin cfg1.N) (s : Vec Ideal S2048x1 .f32) (q : Fin 2048) (R : Fin 8192) (hR : R.val = 2048 * (t.val / 8) + q.val) :
    k1_pay3 (F := Ideal) (grid1.coords t) (rowBlk V c t) (colBlk V c t) s (ix2 q (0 : Fin 1))
      = s (ix2 q (0 : Fin 1)) + r1_tileN rep R (t.val % 8) := by
  refine (r1_pay3_apply _ _ _ _ _).trans ?_
  unfold r1_tileN
  refine congrArg (s (ix2 q (0 : Fin 1)) + ·) (Finset.sum_congr rfl fun c' _ => ?_)
  rw [(r1_idx_facts t).2.2.2.2.2.2.2.2.1, (r1_idx_facts t).2.2.2.2.2.2.2.2.2, ← hR, r1_sim_apply V c rep hrep t q c' R hR]

include hrep in
/-- One step at a point whose tile lies off the diagonal: no entry of the tile is the diagonal's. -/
theorem r1_step_nov (t : Fin cfg1.N) (h : ¬ (t.val % 8) / 2 = t.val / 8) (s : Vec Ideal S2048x1 .f32) (q : Fin 2048) (R : Fin 8192)
    (hR : R.val = 2048 * (t.val / 8) + q.val) :
    k1_pay4 (F := Ideal) (rowBlk V c t) (colBlk V c t) s (ix2 q (0 : Fin 1))
      = s (ix2 q (0 : Fin 1)) + r1_tileN rep R (t.val % 8) := by
  refine (r1_pay4_apply _ _ _ _).trans ?_
  unfold r1_tileN
  refine congrArg (s (ix2 q (0 : Fin 1)) + ·) (Finset.sum_congr rfl fun c' _ => ?_)
  rw [if_neg (by have := q.isLt; have := c'.isLt; omega), r1_sim_apply V c rep hrep t q c' R hR]

include hrep in
/-- THE INVARIANT: after the body at point n the accumulator holds, at row q of the block, the shares of the column
    blocks 0 … n % 8 of the row's sum. -/
theorem r1_accAt_apply : ∀ (n : ℕ) (hn : n < cfg1.N) (q : Fin 2048) (R : Fin 8192), R.val = 2048 * (n / 8) + q.val →
    accAt V c n hn (ix2 q (0 : Fin 1)) = ∑ j' ∈ Finset.range (n % 8 + 1), r1_tileN rep R j' := by
  intro n
  induction n using Nat.strong_induction_on with
  | _ n ih =>
    intro hn q R hR
    have hstart : startAt V c ⟨n, hn⟩ (ix2 q (0 : Fin 1)) = ∑ j' ∈ Finset.range (n % 8), r1_tileN rep R j' := by
      show (if n % 8 = 0 then k1_pay1 (F := Ideal) else accAt V c (n - 1) _) (ix2 q (0 : Fin 1)) = _
      by_cases h0 : n % 8 = 0
      · rw [if_pos h0, h0, Finset.sum_range_zero]; exact r1_pay1_apply q
      · rw [if_neg h0]
        have := ih (n - 1) (by omega) (by omega) q R (by omega)
        rw [show (n - 1) % 8 + 1 = n % 8 by omega] at this
        exact this
    by_cases h : (n % 8) / 2 = n / 8
    · refine (congrFun (accAt_ov V c ⟨n, hn⟩ h) _).trans ?_
      refine (r1_step_ov V c rep hrep ⟨n, hn⟩ _ q R hR).trans ?_
      rw [hstart, Finset.sum_range_succ]
    · refine (congrFun (accAt_nov V c ⟨n, hn⟩ h) _).trans ?_
      refine (r1_step_nov V c rep hrep ⟨n, hn⟩ h _ q R hR).trans ?_
      rw [hstart, Finset.sum_range_succ]

include hrep hpos in
/-- What a last point leaves in the output's staging buffer: the row losses of its row block. -/
theorem r1_outAt_apply (t : Fin cfg1.N) (h7 : t.val % 8 = 7) (q : Fin 2048) (R : Fin 8192) (hR : R.val = 2048 * (t.val / 8) + q.val) :
    outAt V c t (ix2 q (0 : Fin 1)) = rowOf rep p R := by
  unfold outAt
  refine (r1_pay5_apply _ _ _).trans ?_
  rw [r1_posBlk_apply V c p hpos t q R hR, r1_accAt_apply V c rep hrep t.val t.isLt q R hR, h7]
  unfold rowOf
  refine congrArg (fun x => (0 - p R * Cert.Spec.invTemp) + Ideal.log x) ?_
  rw [← Fin.sum_univ_eq_sum_range (fun j => r1_tileN rep R j) 8]
  refine Finset.sum_congr rfl fun j _ => ?_
  unfold r1_tileN
  refine Finset.sum_congr rfl fun c' _ => ?_
  have hC : r1_colN j.val c' = Cert.Spec.col j c' :=
    Fin.ext (Nat.mod_eq_of_lt (by have := j.isLt; have := c'.isLt; omega))
  rw [hC]
  exact if_congr ⟨fun h => Fin.ext h, fun h => congrArg Fin.val h⟩ rfl rfl

end Fold

section Final
variable (c : Dev nD) (rep : Fin 8192 → Fin 512 → EReal) (p : Fin 8192 → EReal)
variable (hrep : ∀ (R : Fin 8192) (k : Fin 512), (V c main_v1 : S8192x512.Idx → EReal) (ix2 R k) = rep R k)
variable (hpos : ∀ R : Fin 8192, (V c main_v4 : S8192x1.Idx → EReal) (ix2 R (0 : Fin 1)) = p R)

/-- The array of row losses, as contents of the output array. -/
abbrev r1_lossArr : Buf (Elt Ideal) ((c : Thread nD τ).loc main_v5) := fun (i : S8192x1.Idx) => rowOf rep p (i 0)

include hrep hpos in
/-- What a last point writes back is its block of the array of row losses. -/
theorem r1_flushed_eq1 (t : Fin cfg1.N) (hf : (cfg1.win 3).flush t = true) :
    (dat1 (F := Ideal) V c).flushed 3 t = ((cfg1.win 3).blk t).view.read (Elt Ideal) (r1_lossArr c rep p) := by
  have h7 : t.val % 8 = 7 := (flush1_3 t).mp hf
  have hN : cfg1.N = 32 := N_1
  funext y
  show (dat1 (F := Ideal) V c).after 3 t ((cfg1.win 3).xinj (grid1.coords t) y) = r1_lossArr c rep p (((cfg1.win 3).blk t).view.emb y)
  rw [after1_3]
  have hy0 : (y 0).val < 2048 := (y 0).isLt
  have hy1 : (y 1).val < 1 := (y 1).isLt
  have hR : 2048 * (t.val / 8) + (y 0).val < 8192 := by have := t.isLt; omega
  have e1 : (cfg1.win 3).xinj (grid1.coords t) y = ix2 (⟨(y 0).val, hy0⟩ : Fin 2048) (0 : Fin 1) := funext fun a => Fin.ext (by
    match a with
    | ⟨0, _⟩ => rfl
    | ⟨1, _⟩ => show (y 1).val = 0; omega)
  refine (congrArg (outAt V c t) e1).trans ?_
  refine (r1_outAt_apply V c rep p hrep hpos t h7 ⟨(y 0).val, hy0⟩ ⟨2048 * (t.val / 8) + (y 0).val, hR⟩ rfl).trans ?_
  show rowOf rep p _ = rowOf rep p _
  refine congrArg (rowOf rep p) (Fin.ext ?_)
  show 2048 * (t.val / 8) + (y 0).val = win1_3.index t 0 * 2048 + 1 * (y 0).val
  rw [(r1_idx_facts t).2.2.2.2.2.2.1]; omega

/-- Row R of the output lies in the block the last point of row block R / 2048 writes back. -/
theorem r1_cover1 (i : S8192x1.Idx) :
    ∃ t : Fin cfg1.N, (cfg1.win 3).flush t = true ∧ i ∈ ((cfg1.win 3).blk t).view.set := by
  have hN : cfg1.N = 32 := N_1
  have h0 : (i 0).val < 8192 := (i 0).isLt
  have h1 : (i 1).val < 1 := (i 1).isLt
  have ht : 8 * ((i 0).val / 2048) + 7 < cfg1.N := by omega
  have hi := r1_idx_facts ⟨8 * ((i 0).val / 2048) + 7, ht⟩
  dsimp only at hi
  refine ⟨⟨8 * ((i 0).val / 2048) + 7, ht⟩, (flush1_3 _).mpr (by show (8 * ((i 0).val / 2048) + 7) % 8 = 7; omega), ?_⟩
  show i ∈ ((View.whole main_v5).slice (win1_3.rect ⟨8 * ((i 0).val / 2048) + 7, ht⟩)).set
  rw [View.set_slice_whole, Rect.mem_set_unit]
  intro a
  match a with
  | ⟨0, _⟩ =>
    show win1_3.index ⟨8 * ((i 0).val / 2048) + 7, ht⟩ 0 * 2048 ≤ (i 0).val
      ∧ (i 0).val < win1_3.index ⟨8 * ((i 0).val / 2048) + 7, ht⟩ 0 * 2048 + 2048
    rw [hi.2.2.2.2.2.2.1]; omega
  | ⟨1, _⟩ =>
    show win1_3.index ⟨8 * ((i 0).val / 2048) + 7, ht⟩ 1 * 1 ≤ (i 1).val
      ∧ (i 1).val < win1_3.index ⟨8 * ((i 0).val / 2048) + 7, ht⟩ 1 * 1 + 1
    rw [hi.2.2.2.2.2.2.2.1]; omega

end Final

/-- After region 1 its output array holds the row losses. -/
theorem out1_eq (c : Dev nD) (rep : Fin 8192 → Fin 512 → EReal) (p : Fin 8192 → EReal)
    (hrep : ∀ (R : Fin 8192) (k : Fin 512), (V c main_v1 : S8192x512.Idx → EReal) (ix2 R k) = rep R k)
    (hpos : ∀ R : Fin 8192, (V c main_v4 : S8192x1.Idx → EReal) (ix2 R (0 : Fin 1)) = p R)
    (R : Fin 8192) :
    ((dat1 (F := Ideal) V c).arrAt 3 cfg1.N : S8192x1.Idx → EReal) (ix2 R (0 : Fin 1)) = rowOf rep p R :=
  congrFun ((dat1 (F := Ideal) V c).arrAt_eq_of_cover 3 (r1_lossArr c rep p) (r1_flushed_eq1 V c rep p hrep hpos) r1_cover1)
    (ix2 R (0 : Fin 1))

end Cert.KernelIdeal.KVal

end
-- ==== Proof.Val.KHost.lean ====
/-
  The idealized kernel's result, at the extended reals.  Region 0 leaves the two normalised arrays and the paired
  similarities; the first host stretch re-lays them as the 8192 stacked rows (row R is row R mod 4096 of the first array
  for R < 4096, of the second otherwise) and as the paired similarity of row R mod 4096 at each of the 8192 rows; region 1
  leaves the kernel's row losses; the second host stretch sums them from zero and divides by 8192.
-/
import proofs.«405127_j71124658422130_3_alg».proof.Proof.KI.Fold
import proofs.«405127_j71124658422130_3_alg».proof.Proof.Val.Spec
import proofs.«405127_j71124658422130_3_alg».proof.Proof.Val.K0
import proofs.«405127_j71124658422130_3_alg».proof.Proof.Val.K1
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KVal

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat Cfg Window)
open Idealize.ShloMosaic.ValueIdx

variable (m : (ℓ : Loc nD τ sig) → Buf (Elt Ideal) ℓ) (ρ : Dev nD → PrngReg)

/-- The two argument arrays of core c, by coordinates. -/
abbrev xA (c : Dev nD) : Cert.Spec.Arr := Cert.Spec.arrOf (m ((c.tc : Thread nD τ).loc main_arg0))
abbrev yA (c : Dev nD) : Cert.Spec.Arr := Cert.Spec.arrOf (m ((c.tc : Thread nD τ).loc main_arg1))

/-- The first host stretch re-lays region 0's first output, 2 × 4096 × 512, as 8192 × 512 with the same row-major order: -/
theorem v1_term (c : Dev nD) :
    (V2r (F := Ideal) m ρ c main_v1 : S8192x512.Idx → EReal)
      = shapeCast S8192x512 (V1r (F := Ideal) m ρ c main_v0_0 : S2x4096x512.Idx → EReal) shapeCasts_S2x4096x512_S8192x512 := by
  show StableHlo.after hostOps1 (W1 m ρ c) (Proc.devRef .tc main_v1) = _
  after_results
  rfl

/-- so stacked row R is row R mod 4096 of slice R / 4096: the normalised row of the first input, or of the second. -/
theorem v1_eq (c : Dev nD) (R : Fin 8192) (k : Fin 512) :
    (V2r (F := Ideal) m ρ c main_v1 : S8192x512.Idx → EReal) (ix2 R k) = Cert.Spec.rep (xA m c) (yA m c) R k := by
  have hR := R.isLt
  rw [v1_term]
  refine (shapeCast_apply _ _ (ix2 R k) (ix3 (⟨R.val / 4096, by omega⟩ : Fin 2) (Cert.Spec.lo R) k) ?_).trans ?_
  · rw [Shape.rowMajor_val_three, Shape.rowMajor_val_two]
    show ((R.val / 4096) * 4096 + R.val % 4096) * 512 + k.val = R.val * 512 + k.val
    have := Nat.div_add_mod R.val 4096
    rw [show R.val / 4096 * 4096 + R.val % 4096 = R.val by omega]
  · show (W1 (F := Ideal) m ρ c (Proc.devRef .tc (Pipeline.arrRef spec0 2)) : S2x4096x512.Idx → EReal) _ = _
    rw [W1_arr]
    refine (reps3_eq (V0r (F := Ideal) m ρ) c _ _ _).trans ?_
    unfold Cert.Spec.rep
    by_cases h : R.val < 4096
    · rw [if_pos h, if_pos (show (⟨R.val / 4096, by omega⟩ : Fin 2).val = 0 from Nat.div_eq_of_lt h)]
    · rw [if_neg h, if_neg (show ¬ (⟨R.val / 4096, by omega⟩ : Fin 2).val = 0 from fun e => h (by have : R.val / 4096 = 0 := e; omega))]

/-- The first host stretch lays region 0's second output, 4096 × 1, out twice, one copy after the other, as 8192 × 1: -/
theorem v4_term (c : Dev nD) :
    (V2r (F := Ideal) m ρ c main_v4 : S8192x1.Idx → EReal)
      = shapeCast S8192x1 (concatenate S8192 0
          [⟨S4096, shapeCast S4096 (V1r (F := Ideal) m ρ c main_v0_1 : S4096x1.Idx → EReal) shapeCasts_S4096x1_S4096⟩,
           ⟨S4096, shapeCast S4096 (V1r (F := Ideal) m ρ c main_v0_1 : S4096x1.Idx → EReal) shapeCasts_S4096x1_S4096⟩]
          concatenates_S4096_S4096_S8192_d0) shapeCasts_S8192_S8192x1 := by
  show StableHlo.after hostOps1 (W1 m ρ c) (Proc.devRef .tc main_v4) = _
  after_results
  rfl

/-- so entry R is the paired similarity of row R mod 4096. -/
theorem v4_eq (c : Dev nD) (R : Fin 8192) :
    (V2r (F := Ideal) m ρ c main_v4 : S8192x1.Idx → EReal) (ix2 R (0 : Fin 1)) = Cert.Spec.pos (xA m c) (yA m c) (Cert.Spec.lo R) := by
  have hR := R.isLt
  have hpos : ∀ r : Fin 4096, shapeCast S4096 (V1r (F := Ideal) m ρ c main_v0_1 : S4096x1.Idx → EReal) shapeCasts_S4096x1_S4096 (ix1 r)
      = Cert.Spec.pos (xA m c) (yA m c) r := fun r => by
    refine (shapeCast_apply _ _ (ix1 r) (ix2 r (0 : Fin 1)) ?_).trans ?_
    · rw [Shape.rowMajor_val_two, Shape.rowMajor_val_one]; show r.val * 1 + 0 = r.val; omega
    · show (W1 (F := Ideal) m ρ c (Proc.devRef .tc (Pipeline.arrRef spec0 3)) : S4096x1.Idx → EReal) _ = _
      rw [W1_arr]
      exact pos2_eq (V0r (F := Ideal) m ρ) c r
  rw [v4_term]
  refine (shapeCast_apply _ _ (ix2 R (0 : Fin 1)) (ix1 R) ?_).trans ?_
  · rw [Shape.rowMajor_val_two, Shape.rowMajor_val_one]; show R.val = R.val * 1 + 0; omega
  · by_cases h : R.val < 4096
    · refine (concatenate_pair_apply_left (t := S8192) (s₁ := S4096) (s₂ := S4096) (0 : Fin 1) _ _ _ (ix1 R) rfl (ix1 (Cert.Spec.lo R)) ?_).trans (hpos _)
      intro b; match b with | ⟨0, _⟩ => exact Nat.mod_eq_of_lt h
    · refine (concatenate_pair_apply_right (t := S8192) (s₁ := S4096) (s₂ := S4096) (0 : Fin 1) _ _ _ (ix1 R) rfl rfl (ix1 (Cert.Spec.lo R)) ?_ ?_).trans (hpos _)
      · intro b hb; match b with | ⟨0, _⟩ => exact absurd rfl hb
      · show R.val % 4096 + 4096 = R.val; omega

/-- Region 1's output array holds the kernel's row losses of the two argument arrays. -/
theorem v5_eq (c : Dev nD) (R : Fin 8192) :
    (W3 (F := Ideal) m ρ c (Proc.devRef .tc main_v5) : S8192x1.Idx → EReal) (ix2 R (0 : Fin 1)) = Cert.Spec.rowK (xA m c) (yA m c) R := by
  rw [W3_out]
  refine (out1_eq (V2r (F := Ideal) m ρ) c (Cert.Spec.rep (xA m c) (yA m c)) (fun R => Cert.Spec.pos (xA m c) (yA m c) (Cert.Spec.lo R))
    (v1_eq m ρ c) (v4_eq m ρ c) R).trans ?_
  rfl

/-- The second host stretch sums the 8192 row losses from zero and divides by 8192. -/
theorem v7_term (c : Dev nD) :
    (W4 (F := Ideal) m ρ c (Proc.devRef .tc main_v7) : S_.Idx → EReal)
      = Host.divf (F := Ideal) (Host.reduceAdd (F := Ideal) (W3 (F := Ideal) m ρ c (Proc.devRef .tc main_v5) : S8192x1.Idx → EReal) (constant (F := Ideal) S_ .f32 0x00000000#32) reducesTo_S8192x1_S_d0_1 h_S_)
          (constant (F := Ideal) S_ .f32 0x46000000#32) := by
  show StableHlo.after hostOps2 (W3 m ρ c) (Proc.devRef .tc main_v7) = _
  after_results

/-- THE KERNEL'S RESULT: the mean of the kernel's row losses of the two argument arrays. -/
theorem result_eq (c : Dev nD) :
    (W4 (F := Ideal) m ρ c (Proc.devRef .tc main_v7) : S_.Idx → EReal) = fun _ => Cert.Spec.loss (Cert.Spec.rowK (xA m c) (yA m c)) := by
  rw [v7_term]
  funext i
  have hy0 : ∀ R : Fin 8192, (W3 (F := Ideal) m ρ c (Proc.devRef .tc main_v5) : S8192x1.Idx → EReal) (ix2 R (0 : Fin 1)) = Cert.Spec.rowK (xA m c) (yA m c) R :=
    fun R => v5_eq m ρ c R
  generalize (W3 (F := Ideal) m ρ c (Proc.devRef .tc main_v5) : S8192x1.Idx → EReal) = y0 at hy0 ⊢
  show FloatOps.hostDivf (Host.reduceAdd (F := Ideal) y0 (constant (F := Ideal) S_ .f32 0x00000000#32) reducesTo_S8192x1_S_d0_1 h_S_ i) (FloatOps.ofBits .f32 0x46000000#32) = _
  simp only [Host.reduceAdd, Ideal.hostReduceAdd_def, Ideal.hostDivf_def]
  rw [Ideal.hostReduceAdd_total reducesTo_S8192x1_S_d0_1 (fun b => b.elim0) y0 _ i]
  unfold Cert.Spec.loss Cert.Spec.count
  congr 1
  rw [show (constant (F := Ideal) S_ .f32 0x00000000#32) (Shape.Idx.first h_S_) = (0 : EReal) from Ideal.ofBits_zero_f32, zero_add, sum_idx2]
  refine Finset.sum_congr rfl fun R _ => ?_
  rw [Fin.sum_univ_one]
  exact hy0 R

end Cert.KernelIdeal.KVal

end
-- ==== Proof.Val.Ref.lean ====
/-
  The reference's result is the mean of the reference's row losses.

  Read operation by operation at an index: the divisor of a row is the larger of its norm and the floor; the divided
  rows of the two arrays, stacked, are the 8192 rows; their pairwise inner products are the similarities, and the
  inner product of row r of the first array with row r of the second, repeated twice, is the paired similarity of
  every stacked row; the comparison of the row and column numbers, as 32-bit words below 8192, is the equality of the
  coordinates, so the factor 1 - [R = C] drops the diagonal; the sum over the columns is the denominator, minus the
  logarithm of the quotient the row loss, and the sum over the rows divided by their number the result.
-/
import proofs.«405127_j71124658422130_3_alg».proof.Proof.Gen.ReferenceIdeal.Run
import proofs.«405127_j71124658422130_3_alg».proof.Proof.Gen.ReferenceIdeal.Read
import proofs.«405127_j71124658422130_3_alg».proof.Proof.Val.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.ReferenceIdeal.RefValue

open Idealize.ShloMosaic Idealize.ShloMosaic.TcCoe Idealize.SL.Sem
open Cert.ReferenceIdeal Cert.ReferenceIdeal.Gen Cert.ReferenceIdeal.Value Cert.ReferenceIdeal.Read
open Idealize.ShloMosaic.ValueIdx
open scoped BigOperators

/-- An argument array of the reference at the exact instance. -/
abbrev Arg : Type := (⟨S4096x512, .f32⟩ : BufTy).Contents (Elt Ideal)

/-! ### The divisor of a row and the normalised rows -/

/-- The divisor of row r of the first array. -/
theorem nrm0 (x0 : Arg) (r : Fin 4096) (z : Fin 1) :
    val_main_v5 (F := Ideal) x0 (ix2 r z) = Cert.Spec.nrm (Cert.Spec.arrOf x0) r := by
  have e : ∀ k : Fin 512, idx_main_v1 (idx_main_v2 (ix2 r z)) k = ix2 r k := fun k =>
    funext fun a => by match a with | ⟨0, _⟩ => rfl | ⟨1, _⟩ => rfl
  rw [val_main_v5_apply, val_main_v3_apply, val_main_v2_apply, val_main_v1_apply, val_main_v4_apply,
    val_main_cst_0_apply, val_main_cst_apply]
  simp only [val_main_v0_apply, e, Ideal.maximumf_def, Ideal.hostUnary_sqrt_def, Ideal.mulf_def, Ideal.ofBits_def,
    Ideal.ofBits_zero_f32, zero_add]
  rfl

/-- The first array's divided rows. -/
theorem unit0 (x0 : Arg) (r : Fin 4096) (k : Fin 512) :
    val_main_v7 (F := Ideal) x0 (ix2 r k) = Cert.Spec.unit (Cert.Spec.arrOf x0) r k := by
  have e : idx_main_v6 (ix2 r k) = ix2 r (⟨0, Nat.one_pos⟩ : Fin 1) :=
    funext fun a => by match a with | ⟨0, _⟩ => rfl | ⟨1, _⟩ => rfl
  rw [val_main_v7_apply, val_main_v6_apply, e, nrm0, Ideal.hostDivf_def]
  rfl

/-- The divisor of row r of the second array. -/
theorem nrm1 (x1 : Arg) (r : Fin 4096) (z : Fin 1) :
    val_main_v13 (F := Ideal) x1 (ix2 r z) = Cert.Spec.nrm (Cert.Spec.arrOf x1) r := by
  have e : ∀ k : Fin 512, idx_main_v9 (idx_main_v10 (ix2 r z)) k = ix2 r k := fun k =>
    funext fun a => by match a with | ⟨0, _⟩ => rfl | ⟨1, _⟩ => rfl
  rw [val_main_v13_apply, val_main_v11_apply, val_main_v10_apply, val_main_v9_apply, val_main_v12_apply,
    val_main_cst_2_apply, val_main_cst_1_apply]
  simp only [val_main_v8_apply, e, Ideal.maximumf_def, Ideal.hostUnary_sqrt_def, Ideal.mulf_def, Ideal.ofBits_def,
    Ideal.ofBits_zero_f32, zero_add]
  rfl

/-- The second array's divided rows. -/
theorem unit1 (x1 : Arg) (r : Fin 4096) (k : Fin 512) :
    val_main_v15 (F := Ideal) x1 (ix2 r k) = Cert.Spec.unit (Cert.Spec.arrOf x1) r k := by
  have e : idx_main_v14 (ix2 r k) = ix2 r (⟨0, Nat.one_pos⟩ : Fin 1) :=
    funext fun a => by match a with | ⟨0, _⟩ => rfl | ⟨1, _⟩ => rfl
  rw [val_main_v15_apply, val_main_v14_apply, e, nrm1, Ideal.hostDivf_def]
  rfl

/-! ### The stacked rows -/

/-- The two arrays' divided rows joined along the rows: row R comes from the first array below 4096, else from the
    second, at R mod 4096. -/
theorem rep_at (x0 x1 : Arg) (R : Fin 8192) (k : Fin 512) :
    val_main_v16 (F := Ideal) x0 x1 (ix2 R k) = Cert.Spec.rep (Cert.Spec.arrOf x0) (Cert.Spec.arrOf x1) R k := by
  unfold val_main_v16 Cert.Spec.rep
  by_cases h : R.val < 4096
  · rw [if_pos h, ← unit0]
    refine concatenate_pair_apply_left (t := S8192x512) (s₁ := S4096x512) (s₂ := S4096x512) 0 _ _ _ (ix2 R k) rfl (ix2 (Cert.Spec.lo R) k) (fun b => ?_)
    match b with
    | ⟨0, _⟩ => exact Nat.mod_eq_of_lt h
    | ⟨1, _⟩ => rfl
  · rw [if_neg h, ← unit1]
    refine concatenate_pair_apply_right (t := S8192x512) (s₁ := S4096x512) (s₂ := S4096x512) 0 _ _ _ (ix2 R k) rfl rfl (ix2 (Cert.Spec.lo R) k) (fun b hb => ?_) ?_
    · match b with
      | ⟨0, _⟩ => exact absurd rfl hb
      | ⟨1, _⟩ => rfl
    · show R.val % 4096 + 4096 = R.val
      have := R.isLt
      omega

/-! ### The similarities -/

/-- The product of the stacked rows with their transpose, at (R, C), is the inner product of rows R and C. -/
theorem sim_at (x0 x1 : Arg) (R C : Fin 8192) :
    val_main_v18 (F := Ideal) x0 x1 (ix2 R C) = Cert.Spec.sim (Cert.Spec.arrOf x0) (Cert.Spec.arrOf x1) R C := by
  have el : ∀ k : Fin 512, lidx_main_v18 (ix2 R C) k = ix2 R k := fun k =>
    funext fun a => by match a with | ⟨0, _⟩ => rfl | ⟨1, _⟩ => rfl
  have er : ∀ k : Fin 512, idx_main_v17 (ridx_main_v18 (ix2 R C) k) = ix2 C k := fun k =>
    funext fun a => by match a with | ⟨0, _⟩ => rfl | ⟨1, _⟩ => rfl
  rw [val_main_v18_apply]
  unfold Cert.Spec.sim
  refine Finset.sum_congr rfl fun k _ => ?_
  rw [val_main_v17_apply, el, er, rep_at, rep_at]

/-- The inner product of row r of the first array's divided rows with row r of the second's. -/
theorem pos_at (x0 x1 : Arg) (r : Fin 4096) :
    val_main_v20 (F := Ideal) x0 x1 (ix1 r) = Cert.Spec.pos (Cert.Spec.arrOf x0) (Cert.Spec.arrOf x1) r := by
  have e : ∀ k : Fin 512, idx_main_v20 (ix1 r) k = ix2 r k := fun k =>
    funext fun a => by match a with | ⟨0, _⟩ => rfl | ⟨1, _⟩ => rfl
  rw [val_main_v20_apply, val_main_cst_3_apply, Ideal.ofBits_def, Ideal.ofBits_zero_f32, zero_add]
  unfold Cert.Spec.pos
  refine Finset.sum_congr rfl fun k _ => ?_
  rw [val_main_v19_apply, e, unit0, unit1, Ideal.mulf_def]

/-- The paired inner products repeated twice: at R, that of row R mod 4096. -/
theorem pos2_at (x0 x1 : Arg) (R : Fin 8192) :
    val_main_v21 (F := Ideal) x0 x1 (ix1 R) = Cert.Spec.pos (Cert.Spec.arrOf x0) (Cert.Spec.arrOf x1) (Cert.Spec.lo R) := by
  unfold val_main_v21
  rw [← pos_at]
  by_cases h : R.val < 4096
  · refine concatenate_pair_apply_left (t := S8192) (s₁ := S4096) (s₂ := S4096) 0 _ _ _ (ix1 R) rfl (ix1 (Cert.Spec.lo R)) (fun b => ?_)
    match b with
    | ⟨0, _⟩ => exact Nat.mod_eq_of_lt h
  · refine concatenate_pair_apply_right (t := S8192) (s₁ := S4096) (s₂ := S4096) 0 _ _ _ (ix1 R) rfl rfl (ix1 (Cert.Spec.lo R)) (fun b hb => ?_) ?_
    · match b with
      | ⟨0, _⟩ => exact absurd rfl hb
    · show R.val % 4096 + 4096 = R.val
      have := R.isLt
      omega

/-! ### The factor that drops the diagonal -/

/-- Two numbers below 8192 are equal as 32-bit words exactly when they are equal. -/
theorem word_eq_iff (R C : Fin 8192) : BitVec.ofNat 32 R.val + 0#32 = BitVec.ofNat 32 C.val ↔ R = C := by
  constructor
  · intro e
    have := congrArg BitVec.toNat e
    simp only [BitVec.add_zero, BitVec.toNat_ofNat] at this
    have h1 := R.isLt
    have h2 := C.isLt
    exact Fin.ext (by omega)
  · rintro rfl
    exact BitVec.add_zero _

/-- One less the comparison of the row and column numbers, as a number: 1 - [R = C]. -/
theorem mask_at (R C : Fin 8192) :
    val_main_v32 (F := Ideal) (ix2 R C) = 1 - (if R = C then (1 : EReal) else 0) := by
  rw [val_main_v32_apply, val_main_v31_apply, val_main_cst_5_apply, val_main_v30_apply, val_main_v29_apply,
    val_main_v28_apply, val_main_v25_apply, val_main_v27_apply, val_main_c_apply, val_main_v26_apply]
  show (Ideal.ofBits .f32 0x3F800000#32 : EReal)
    - (((BitVec.ofBool (BitVec.ofNat 32 R.val + 0#32 == BitVec.ofNat 32 C.val)).toNat : ℝ) : EReal) = _
  rw [Ideal.ofBits_one_f32]
  by_cases h : R = C
  · rw [if_pos h, beq_iff_eq.2 ((word_eq_iff R C).2 h)]
    simp
  · rw [if_neg h, beq_eq_false_iff_ne.2 (fun e => h ((word_eq_iff R C).1 e))]
    simp

/-! ### The row losses and their mean -/

/-- The denominator of row R: the sum over the columns, the diagonal dropped. -/
theorem den_at (x0 x1 : Arg) (R : Fin 8192) :
    val_main_v37 (F := Ideal) x0 x1 (ix1 R)
      = ∑ C : Fin 8192, (1 - (if R = C then (1 : EReal) else 0))
          * Ideal.exp (Ideal.div (Cert.Spec.sim (Cert.Spec.arrOf x0) (Cert.Spec.arrOf x1) R C) Cert.Spec.temp) := by
  have e : ∀ C : Fin 8192, idx_main_v37 (ix1 R) C = ix2 R C := fun C =>
    funext fun a => by match a with | ⟨0, _⟩ => rfl | ⟨1, _⟩ => rfl
  rw [val_main_v37_apply, val_main_cst_7_apply, Ideal.ofBits_def, Ideal.ofBits_zero_f32, zero_add]
  refine Finset.sum_congr rfl fun C _ => ?_
  rw [e, val_main_v36_apply, mask_at, val_main_v35_apply, val_main_v34_apply, sim_at, val_main_v33_apply,
    val_main_cst_6_apply, Ideal.mulf_def, Ideal.hostUnary_exp_def, Ideal.hostDivf_def, Ideal.ofBits_def]
  rfl

/-- The loss of row R. -/
theorem row_at (x0 x1 : Arg) (R : Fin 8192) :
    val_main_v40 (F := Ideal) x0 x1 (ix1 R) = Cert.Spec.rowR (Cert.Spec.arrOf x0) (Cert.Spec.arrOf x1) R := by
  rw [val_main_v40_apply, val_main_v39_apply, val_main_v38_apply, val_main_v24_apply, val_main_v23_apply, pos2_at,
    val_main_v22_apply, val_main_cst_4_apply, den_at, Ideal.hostNegf_def, Ideal.negf_def, Ideal.hostUnary_log_def,
    Ideal.hostDivf_def, Ideal.hostUnary_exp_def, Ideal.hostDivf_def, Ideal.ofBits_def]
  rfl

/-- A sum over the indices of a one-axis shape is the sum over the coordinate. -/
theorem sum_idx1 {n : Nat} (f : (⟨1, ![n]⟩ : Shape).Idx → EReal) : ∑ j, f j = ∑ a : Fin n, f (ix1 a) :=
  (Equiv.sum_comp (idxEquiv1 (n := n)).symm f).symm

/-- Every device's result of the reference, as the run states it, is the mean of the reference's row losses of the two
    argument arrays read by coordinates. -/
theorem result_eq (m : (ℓ : Loc nD τ sig) → Buf (Elt Ideal) ℓ) (c : Dev nD) :
    Cert.ReferenceIdeal.Value.res_out0 (F := Ideal) m c
      = fun _ => Cert.Spec.loss (Cert.Spec.rowR (Cert.Spec.arrOf (m ((c.tc : Thread nD τ).loc main_arg0))) (Cert.Spec.arrOf (m ((c.tc : Thread nD τ).loc main_arg1)))) := by
  show Cert.ReferenceIdeal.Value.res_main_v42 (F := Ideal) m c = _
  rw [val_main_v42_eq]
  funext i
  rw [val_main_v42_apply, val_main_v41_apply, val_main_cst_9_apply, val_main_cst_8_apply, Ideal.hostDivf_def,
    Ideal.ofBits_def, Ideal.ofBits_def, Ideal.ofBits_zero_f32, zero_add, sum_idx1]
  unfold Cert.Spec.loss Cert.Spec.count
  refine congrArg (Ideal.div · _) (Finset.sum_congr rfl fun R _ => ?_)
  exact row_at _ _ R

end Cert.ReferenceIdeal.RefValue

end
-- ==== Proof.Val.Algebra.lean ====
/-
  The two row losses agree on real inputs.

  With every entry real, the divisor of a row is a positive real (it is at least the positive floor), so the normalised
  entries, the similarities and the paired similarity are real; exponentials of reals are positive reals, and a row's
  denominator, a sum of 8191 of them, is a positive real D.  Dividing by the temperature T = 13421773 / 134217728 is
  multiplying by 1 / T = 134217728 / 13421773.  The factor 1 - [R = C] is 0 on the diagonal and 1 off it, and the
  columns 0 … 8191 are the eight blocks of 1024 in order.  Then -log (exp a / D) = -(a - log D) = (0 - a) + log D.
-/
import proofs.«405127_j71124658422130_3_alg».proof.Proof.Val.Spec
import Idealize.ShloMosaic.PureOps.Ideal.Laws

noncomputable section

namespace Cert.Spec

open Idealize.ShloMosaic

/-- The temperature's binary value. -/
theorem temp_eq : temp = ((13421773 / 134217728 : ℝ) : EReal) := by
  simp [temp, Ideal.ofBits, Ideal.ieee]
  rw [← EReal.coe_mul]
  congr 1
  norm_num

/-- The floor is a positive real. -/
theorem eps_pos : ∃ e : ℝ, 0 < e ∧ eps = (e : EReal) := by
  refine ⟨_, ?_, by simp [eps, Ideal.ofBits, Ideal.ieee]; rfl⟩
  positivity

/-- A finite sum of reals, read in the extended reals, is the sum of the terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A product of two reals is real. -/
theorem mul_real {u v : EReal} (hu : ∃ a : ℝ, u = (a : EReal)) (hv : ∃ b : ℝ, v = (b : EReal)) :
    ∃ c : ℝ, u * v = (c : EReal) := by
  obtain ⟨a, rfl⟩ := hu
  obtain ⟨b, rfl⟩ := hv
  exact ⟨a * b, (EReal.coe_mul a b).symm⟩

/-- A finite sum of reals is real. -/
theorem sum_real {ι : Type*} [Fintype ι] (f : ι → EReal) (h : ∀ i, ∃ a : ℝ, f i = (a : EReal)) :
    ∃ a : ℝ, ∑ i, f i = (a : EReal) := by
  choose a ha using h
  exact ⟨∑ i, a i, by rw [coe_sum]; exact Finset.sum_congr rfl fun i _ => ha i⟩

/-- Multiplying a real by the reciprocal of the temperature. -/
theorem mul_invTemp (s : ℝ) : (s : EReal) * invTemp = ((s * (134217728 / 13421773) : ℝ) : EReal) := by
  rw [invTemp, ← EReal.coe_mul]

/-- Dividing by the temperature is multiplying by its reciprocal. -/
theorem div_temp (s : EReal) : Ideal.div s temp = s * invTemp := by
  have h : (1 / (13421773 / 134217728) : ℝ) = 134217728 / 13421773 := by norm_num
  rw [temp_eq, Ideal.div_coe (by norm_num), invTemp, h]

/-- The divisor of a row of reals is a positive real. -/
theorem nrm_real (x : Arr) (hx : Real2 x) (r : Fin 4096) : ∃ n : ℝ, 0 < n ∧ nrm x r = (n : EReal) := by
  obtain ⟨e, he, hee⟩ := eps_pos
  choose a ha using hx r
  have hs : (∑ k : Fin 512, x r k * x r k) = ((∑ k : Fin 512, a k * a k : ℝ) : EReal) := by
    rw [coe_sum]
    exact Finset.sum_congr rfl fun k _ => by rw [ha k, EReal.coe_mul]
  have h0 : 0 ≤ ∑ k : Fin 512, a k * a k := Finset.sum_nonneg fun k _ => mul_self_nonneg _
  refine ⟨max (Real.sqrt (∑ k : Fin 512, a k * a k)) e, lt_max_of_lt_right he, ?_⟩
  rw [nrm, hs, Ideal.sqrt_coe, if_neg (not_lt.mpr h0), hee, coe_max]

/-- The normalised entries of a real array are real. -/
theorem unit_real (x : Arr) (hx : Real2 x) (r : Fin 4096) (k : Fin 512) : ∃ a : ℝ, unit x r k = (a : EReal) := by
  obtain ⟨n, hn, hnn⟩ := nrm_real x hx r
  obtain ⟨a, ha⟩ := hx r k
  exact ⟨a * (1 / n), by rw [unit, hnn, ha, Ideal.div_coe hn.ne', EReal.coe_mul]⟩

/-- So are the stacked rows. -/
theorem rep_real (x y : Arr) (hx : Real2 x) (hy : Real2 y) (R : Fin 8192) (k : Fin 512) :
    ∃ a : ℝ, rep x y R k = (a : EReal) := by
  unfold rep
  split
  · exact unit_real x hx _ _
  · exact unit_real y hy _ _

/-- The similarities are real. -/
theorem sim_real (x y : Arr) (hx : Real2 x) (hy : Real2 y) (R C : Fin 8192) : ∃ s : ℝ, sim x y R C = (s : EReal) :=
  sum_real _ fun k => mul_real (rep_real x y hx hy R k) (rep_real x y hx hy C k)

/-- The paired similarity is real. -/
theorem pos_real (x y : Arr) (hx : Real2 x) (hy : Real2 y) (r : Fin 4096) : ∃ p : ℝ, pos x y r = (p : EReal) :=
  sum_real _ fun k => mul_real (unit_real x hx r k) (unit_real y hy r k)

/-- The columns are the eight blocks of 1024 in order. -/
def colEquiv : Fin 8 × Fin 1024 ≃ Fin 8192 where
  toFun p := col p.1 p.2
  invFun C := (⟨C.val / 1024, by have := C.isLt; omega⟩, ⟨C.val % 1024, Nat.mod_lt _ (by norm_num)⟩)
  left_inv := by
    rintro ⟨j, c⟩
    have hj := j.isLt
    have hc := c.isLt
    refine Prod.ext (Fin.ext ?_) (Fin.ext ?_) <;> dsimp only [col] <;> omega
  right_inv := by
    intro C
    refine Fin.ext ?_
    dsimp only [col]
    omega

/-- A sum over the columns is the sum over the blocks of the sums within each. -/
theorem sum_blocks (f : Fin 8192 → EReal) : ∑ C : Fin 8192, f C = ∑ j : Fin 8, ∑ c : Fin 1024, f (col j c) := by
  rw [← Fintype.sum_prod_type' (fun j c => f (col j c))]
  exact (Fintype.sum_equiv colEquiv _ _ fun _ => rfl).symm

/-- The factor 1 - [R = C] removes the diagonal term and keeps the others. -/
theorem mask_mul (R C : Fin 8192) (e : EReal) :
    (1 - (if R = C then (1 : EReal) else 0)) * e = if R = C then 0 else e := by
  have h11 : (1 : EReal) - 1 = 0 := by rw [← EReal.coe_one, ← EReal.coe_sub, sub_self, EReal.coe_zero]
  split
  · rw [h11, zero_mul]
  · rw [sub_zero, one_mul]

/-- A row's denominator, the sum of the exponentials off the diagonal, is positive. -/
theorem denom_pos (R : Fin 8192) (s : Fin 8192 → ℝ) :
    0 < ∑ C : Fin 8192, (if R = C then (0 : ℝ) else Real.exp (s C)) := by
  have hne : ∃ C : Fin 8192, R ≠ C := by
    by_cases h : R = 0
    · exact ⟨1, by rw [h]; decide⟩
    · exact ⟨0, h⟩
  obtain ⟨C, hC⟩ := hne
  refine Finset.sum_pos' (fun C _ => ?_) ⟨C, Finset.mem_univ _, ?_⟩
  · split
    · exact le_rfl
    · exact (Real.exp_pos _).le
  · rw [if_neg hC]
    exact Real.exp_pos _

/-- A term of the denominator, read in the extended reals. -/
theorem coe_term (R C : Fin 8192) (t : ℝ) :
    (((if R = C then (0 : ℝ) else Real.exp t) : ℝ) : EReal) = if R = C then 0 else (Real.exp t : EReal) := by
  split
  · rfl
  · rfl

/-- Row by row the kernel's form of the loss is the reference's. -/
theorem row_eq (x y : Arr) (hx : Real2 x) (hy : Real2 y) (R : Fin 8192) : rowK x y R = rowR x y R := by
  obtain ⟨p, hp⟩ := pos_real x y hx hy (lo R)
  choose s hs using fun C => sim_real x y hx hy R C
  have hDpos : 0 < ∑ C : Fin 8192, (if R = C then (0 : ℝ) else Real.exp (s C * (134217728 / 13421773))) :=
    denom_pos R _
  generalize hD : (∑ C : Fin 8192, (if R = C then (0 : ℝ) else Real.exp (s C * (134217728 / 13421773)))) = D at hDpos
  have hK : ∑ j : Fin 8, tile x y R j = (D : EReal) := by
    rw [← hD, coe_sum, sum_blocks]
    refine Finset.sum_congr rfl fun j _ => ?_
    unfold tile
    refine Finset.sum_congr rfl fun c _ => ?_
    rw [hs, mul_invTemp, Ideal.exp_coe, coe_term]
  have hR : (∑ C : Fin 8192, (1 - (if R = C then (1 : EReal) else 0)) * Ideal.exp (Ideal.div (sim x y R C) temp))
      = (D : EReal) := by
    rw [← hD, coe_sum]
    refine Finset.sum_congr rfl fun C _ => ?_
    rw [mask_mul, hs, div_temp, mul_invTemp, Ideal.exp_coe, coe_term]
  have hq : 0 < Real.exp (p * (134217728 / 13421773)) * (1 / D) := mul_pos (Real.exp_pos _) (one_div_pos.mpr hDpos)
  rw [rowK, rowR, hK, hR, hp, div_temp, mul_invTemp, Ideal.exp_coe, Ideal.div_coe hDpos.ne', ← EReal.coe_mul,
    Ideal.log_coe, Ideal.log_coe, if_neg (not_le.mpr hDpos), if_neg (not_le.mpr hq)]
  rw [← EReal.coe_zero, ← EReal.coe_sub, ← EReal.coe_add, ← EReal.coe_neg]
  congr 1
  rw [mul_one_div, Real.log_div (Real.exp_pos _).ne' hDpos.ne', Real.log_exp]
  ring

/-- Hence the two means agree. -/
theorem loss_eq (x y : Arr) (hx : Real2 x) (hy : Real2 y) : loss (rowK x y) = loss (rowR x y) := by
  unfold loss; congr 1; exact Finset.sum_congr rfl fun R _ => row_eq x y hx hy R

end Cert.Spec

end
-- ==== Proof.Val.Finite.lean ====
/-
  From the printed precondition to "every entry is a real number".  The precondition says, for each of the two input arrays,
  that every entry's absolute value is below +∞, the two statements joined by "and".  An extended real whose absolute value
  max(x, -x) is below +∞ is neither +∞ nor -∞, hence a real.
-/
import proofs.«405127_j71124658422130_3_alg».proof.Pre_finite_inputs
import proofs.«405127_j71124658422130_3_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.Val

open Idealize.ShloMosaic Cert.Pre_finite_inputs Cert.Pre_finite_inputs.Gen

instance : Subsingleton Cert.Pre_finite_inputs.S_.Idx := ⟨fun a b => funext fun d => d.elim0⟩

theorem inf_word : Ideal.ofBits .f32 0x7F800000#32 = (⊤ : EReal) := by
  simp [Ideal.ofBits, Ideal.ieee]

theorem real_of_abs_lt_top (x : EReal) (h : Ideal.cmp .olt (max x (-x)) ⊤ = 1#1) : ∃ a : ℝ, x = (a : EReal) := by
  induction x using EReal.rec with
  | bot => simp [Ideal.cmp] at h
  | coe a => exact ⟨a, rfl⟩
  | top => simp [Ideal.cmp] at h

theorem real_of_pre (X Y : FVec Ideal Cert.Pre_finite_inputs.S4096x512 .f32)
    (h : Cert.Pre_finite_inputs.fn (F := Ideal) X Y = fun _ => 1#1) :
    (∀ i, ∃ a : ℝ, X i = (a : EReal)) ∧ (∀ i, ∃ a : ℝ, Y i = (a : EReal)) := by
  have h0 := congrFun h ValueIdx.ix0
  dsimp only [Cert.Pre_finite_inputs.fn] at h0
  obtain ⟨hx, hy⟩ := IntOp.andi_eq_one.mp h0
  refine ⟨fun i => ?_, fun i => ?_⟩
  · have hi := Host.reduce_andi_all _ _ _ _ _ hx i
    apply real_of_abs_lt_top
    rw [← inf_word]
    exact hi
  · have hi := Host.reduce_andi_all _ _ _ _ _ hy i
    apply real_of_abs_lt_top
    rw [← inf_word]
    exact hi

end Cert.Val

end
-- ==== Proof.lean ====
/-
  The two programs compute the same contrastive loss.

  Both take two arrays of 4096 rows and 512 columns, divide each row by the larger of its Euclidean norm and a small floor,
  stack the 8192 normalised rows, and for each row R take -log (exp (pos / T) / Σ_{C ≠ R} exp (sim R C / T)), where sim is the
  inner product of two stacked rows, pos that of row R mod 4096 of the first array with the same row of the second, and T
  the temperature; the result is the mean of the 8192 row losses.  The kernel does this in two grid regions — the
  normalisation with the paired similarities, then the similarities tile by tile with a running row sum — and writes the
  row loss as (0 - pos · (1/T)) + log (Σ …) with 1/T the reciprocal of the reference's temperature, exactly.  On real inputs
  the two forms of a row's loss are equal (the denominator is a positive real), so the means are.

  The frames: each program runs to the end without a fault and leaves its two argument arrays as launched.  The kernel's
  idealization differs from the kernel in one thing, stated three times (once per place the constant stands): the constant
  1/T is read as the exact reciprocal.
-/
import proofs.«405127_j71124658422130_3_alg».proof.Defs
import proofs.«405127_j71124658422130_3_alg».proof.Proof.Gen.Kernel
import proofs.«405127_j71124658422130_3_alg».proof.Proof.Gen.KernelIdeal
import proofs.«405127_j71124658422130_3_alg».proof.Proof.Gen.ReferenceIdeal
import proofs.«405127_j71124658422130_3_alg».proof.Proof.Gen.Pre_finite_inputs
import proofs.«405127_j71124658422130_3_alg».proof.Proof.Gen.ReferenceIdeal.Run
import proofs.«405127_j71124658422130_3_alg».proof.Proof.K.Main
import proofs.«405127_j71124658422130_3_alg».proof.Proof.KI.Main
import proofs.«405127_j71124658422130_3_alg».proof.Proof.Val.KHost
import proofs.«405127_j71124658422130_3_alg».proof.Proof.Val.Ref
import proofs.«405127_j71124658422130_3_alg».proof.Proof.Val.Algebra
import proofs.«405127_j71124658422130_3_alg».proof.Proof.Val.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel runs and leaves its arguments as launched. -/
theorem frame_p : Cert.frame_Kernel := fun m ρ _ => Cert.Kernel.Hand.frame (F := Bits) m ρ
/-- So does its idealization. -/
theorem frame_pi : Cert.frame_KernelIdeal := fun m ρ _ => Cert.KernelIdeal.Hand.frame (F := Ideal) m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization, at its three sites: the constant 10 of the kernel's body is read as the exact
    reciprocal 134217728 / 13421773 of the reference's temperature. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl⟩

/-- Real entries, from the precondition. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.Real2 (Cert.KernelIdeal.KVal.xA m c) ∧ Cert.Spec.Real2 (Cert.KernelIdeal.KVal.yA m c) := by
  obtain ⟨hx, hy⟩ := Cert.Val.real_of_pre _ _ (hpre c)
  exact ⟨fun r k => hx (ValueIdx.ix2 r k), fun r k => hy (ValueIdx.ix2 r k)⟩

/-- At the extended reals the idealized kernel ends at the mean of the kernel's row losses and the reference at the mean of
    the reference's, of arguments that agree; on real inputs the two means are one number. -/
theorem algebraic : Cert.algebraic_KernelIdeal_ReferenceIdeal := by
  intro m ρ m' ρ' hpre hagree
  refine ⟨fun c => fun _ => Cert.Spec.loss (Cert.Spec.rowK (Cert.KernelIdeal.KVal.xA m c) (Cert.KernelIdeal.KVal.yA m c)), ?_, ?_⟩
  · exact (θ_run Cert.KernelIdeal.defs _ _).mono
      (fun _ h c => ⟨(h c).1.trans (Cert.KernelIdeal.KVal.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hy⟩ := real_args m hpre c
    refine (Cert.ReferenceIdeal.RefValue.result_eq m' c).trans ?_
    rw [(hagree c).1, (hagree c).2]
    funext _
    exact (Cert.Spec.loss_eq _ _ hx hy).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
